-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x256x256 : Shape := ⟨4, ![64, 3, 256, 256]⟩
abbrev S64x2x256x256 : Shape := ⟨4, ![64, 2, 256, 256]⟩
abbrev S_ : Shape := ⟨0, ![]⟩

class Facts : Prop where
  bcast_S_S64x3x256x256 : S_.BroadcastsInDim S64x3x256x256 (![] : Fin 0 → Fin S64x3x256x256.rank)
  reducesTo_S64x3x256x256_S_d0_1_2_3 : S64x3x256x256.ReducesTo [0, 1, 2, 3] S_
  h_S_ : 0 < S_.numel
  bcast_S_S64x2x256x256 : S_.BroadcastsInDim S64x2x256x256 (![] : Fin 0 → Fin S64x2x256x256.rank)
  reducesTo_S64x2x256x256_S_d0_1_2_3 : S64x2x256x256.ReducesTo [0, 1, 2, 3] S_

variable [Facts]

def fn {F : FTy → Type} [FloatOps F] (main_arg0 : FVec F S64x3x256x256 .f32) (main_arg1 : FVec F S64x2x256x256 .f32) : IVec S_ 1 :=
  let main_v0 : FVec F S64x3x256x256 .f32 := Host.absf main_arg0
  let main_cst : FVec F S_ .f32 := constant S_ .f32 0x7F800000#32
  let main_v1 : FVec F S64x3x256x256 .f32 := broadcastInDim S64x3x256x256 ![] bcast_S_S64x3x256x256 main_cst
  let main_v2 : IVec S64x3x256x256 1 := cmpf .olt main_v0 main_v1
  let main_c : IVec S_ 1 := constantI S_ 1 1#1
  let main_v3 : IVec S_ 1 := (fun x v => Host.reduce IntOp.andi x v reducesTo_S64x3x256x256_S_d0_1_2_3 h_S_) main_v2 main_c
  let main_v4 : FVec F S64x2x256x256 .f32 := Host.absf main_arg1
  let main_cst_0 : FVec F S_ .f32 := constant S_ .f32 0x7F800000#32
  let main_v5 : FVec F S64x2x256x256 .f32 := broadcastInDim S64x2x256x256 ![] bcast_S_S64x2x256x256 main_cst_0
  let main_v6 : IVec S64x2x256x256 1 := cmpf .olt main_v4 main_v5
  let main_c_1 : IVec S_ 1 := constantI S_ 1 1#1
  let main_v7 : IVec S_ 1 := (fun x v => Host.reduce IntOp.andi x v reducesTo_S64x2x256x256_S_d0_1_2_3 h_S_) main_v6 main_c_1
  let main_v8 : IVec S_ 1 := andi main_v3 main_v7
  main_v8
-- ==== Kernel.lean ====
abbrev S64x3x256x256 : Shape := ⟨4, ![64, 3, 256, 256]⟩
abbrev S64x2x256x256 : Shape := ⟨4, ![64, 2, 256, 256]⟩
abbrev S64x256x256x2 : Shape := ⟨4, ![64, 256, 256, 2]⟩
abbrev S_ : Shape := ⟨0, ![]⟩
abbrev S256 : Shape := ⟨1, ![256]⟩
abbrev S256x256 : Shape := ⟨2, ![256, 256]⟩
abbrev S256x256x1 : Shape := ⟨3, ![256, 256, 1]⟩
abbrev S256x256x2 : Shape := ⟨3, ![256, 256, 2]⟩
abbrev S1x256x256x2 : Shape := ⟨4, ![1, 256, 256, 2]⟩
abbrev S64x256x256x1 : Shape := ⟨4, ![64, 256, 256, 1]⟩
abbrev S64x256x256 : Shape := ⟨3, ![64, 256, 256]⟩
abbrev S64x256x256x3 : Shape := ⟨4, ![64, 256, 256, 3]⟩
abbrev S64 : Shape := ⟨1, ![64]⟩
abbrev S64x1x1 : Shape := ⟨3, ![64, 1, 1]⟩
abbrev S64x1x256x256 : Shape := ⟨4, ![64, 1, 256, 256]⟩
abbrev S4x3x256x256 : Shape := ⟨4, ![4, 3, 256, 256]⟩
abbrev S4x1x256x256 : Shape := ⟨4, ![4, 1, 256, 256]⟩

abbrev nBuf : Space → Nat
  | .hbm => 166
  | .vmem => 14
  | .smem => 0
  | _ => 0

abbrev hbmTy0_0 (i : Nat) : BufTy := match i % 128 with
  | 0 => ⟨S64x3x256x256, .f32⟩
  | 1 => ⟨S64x2x256x256, .f32⟩
  | 2 => ⟨S64x256x256x2, .f32⟩
  | 3 => ⟨S_, .f32⟩
  | 4 => ⟨S64x256x256x2, .f32⟩
  | 5 => ⟨S64x256x256x2, .f32⟩
  | 6 => ⟨S256, .i32⟩
  | 7 => ⟨S256, .i32⟩
  | 8 => ⟨S256x256, .i32⟩
  | 9 => ⟨S256x256, .i32⟩
  | 10 => ⟨S256x256x1, .i32⟩
  | 11 => ⟨S256x256x1, .i32⟩
  | 12 => ⟨S256x256x2, .i32⟩
  | 13 => ⟨S256x256x2, .f32⟩
  | 14 => ⟨S1x256x256x2, .f32⟩
  | 15 => ⟨S64x256x256x2, .f32⟩
  | 16 => ⟨S64x256x256x2, .f32⟩
  | 17 => ⟨S_, .f32⟩
  | 18 => ⟨S_, .i32⟩
  | 19 => ⟨S_, .f32⟩
  | 20 => ⟨S64x256x256x2, .f32⟩
  | 21 => ⟨S64x256x256x2, .f32⟩
  | 22 => ⟨S_, .f32⟩
  | 23 => ⟨S64x256x256x2, .f32⟩
  | 24 => ⟨S64x256x256x2, .f32⟩
  | 25 => ⟨S64x256x256x2, .f32⟩
  | 26 => ⟨S64x256x256x2, .f32⟩
  | 27 => ⟨S64x256x256x1, .f32⟩
  | 28 => ⟨S64x256x256, .f32⟩
  | 29 => ⟨S64x256x256, .i32⟩
  | 30 => ⟨S64x256x256x1, .f32⟩
  | 31 => ⟨S64x256x256, .f32⟩
  | 32 => ⟨S64x256x256, .i32⟩
  | 33 => ⟨S64x256x256x1, .f32⟩
  | 34 => ⟨S64x256x256, .f32⟩
  | 35 => ⟨S64x256x256, .i32⟩
  | 36 => ⟨S64x256x256x1, .f32⟩
  | 37 => ⟨S64x256x256, .f32⟩
  | 38 => ⟨S64x256x256, .i32⟩
  | 39 => ⟨S64x256x256x3, .f32⟩
  | 40 => ⟨S64, .i32⟩
  | 41 => ⟨S64x1x1, .i32⟩
  | 42 => ⟨S64x256x256, .i32⟩
  | 43 => ⟨S_, .i32⟩
  | 44 => ⟨S64x256x256, .i32⟩
  | 45 => ⟨S64x256x256, .i1⟩
  | 46 => ⟨S_, .i32⟩
  | 47 => ⟨S64x256x256, .i32⟩
  | 48 => ⟨S64x256x256, .i32⟩
  | 49 => ⟨S64x256x256, .i32⟩
  | 50 => ⟨S_, .i32⟩
  | 51 => ⟨S64x256x256, .i32⟩
  | 52 => ⟨S64x256x256, .i1⟩
  | 53 => ⟨S_, .i32⟩
  | 54 => ⟨S64x256x256, .i32⟩
  | 55 => ⟨S64x256x256, .i32⟩
  | 56 => ⟨S64x256x256, .i32⟩
  | 57 => ⟨S_, .i32⟩
  | 58 => ⟨S64x256x256, .i32⟩
  | 59 => ⟨S64x256x256, .i1⟩
  | 60 => ⟨S_, .i32⟩
  | 61 => ⟨S64x256x256, .i32⟩
  | 62 => ⟨S64x256x256, .i32⟩
  | 63 => ⟨S64x256x256, .i32⟩
  | 64 => ⟨S64x256x256x1, .i32⟩
  | 65 => ⟨S64x256x256x1, .i32⟩
  | 66 => ⟨S64x256x256x1, .i32⟩
  | 67 => ⟨S64x256x256x3, .i32⟩
  | 68 => ⟨S64x256x256x3, .f32⟩
  | 69 => ⟨S_, .i32⟩
  | 70 => ⟨S64x256x256, .i32⟩
  | 71 => ⟨S64x256x256, .i1⟩
  | 72 => ⟨S_, .i32⟩
  | 73 => ⟨S64x256x256, .i32⟩
  | 74 => ⟨S64x256x256, .i32⟩
  | 75 => ⟨S64x256x256, .i32⟩
  | 76 => ⟨S_, .i32⟩
  | 77 => ⟨S64x256x256, .i32⟩
  | 78 => ⟨S64x256x256, .i1⟩
  | 79 => ⟨S_, .i32⟩
  | 80 => ⟨S64x256x256, .i32⟩
  | 81 => ⟨S64x256x256, .i32⟩
  | 82 => ⟨S64x256x256, .i32⟩
  | 83 => ⟨S_, .i32⟩
  | 84 => ⟨S64x256x256, .i32⟩
  | 85 => ⟨S64x256x256, .i1⟩
  | 86 => ⟨S_, .i32⟩
  | 87 => ⟨S64x256x256, .i32⟩
  | 88 => ⟨S64x256x256, .i32⟩
  | 89 => ⟨S64x256x256, .i32⟩
  | 90 => ⟨S64x256x256x1, .i32⟩
  | 91 => ⟨S64x256x256x1, .i32⟩
  | 92 => ⟨S64x256x256x1, .i32⟩
  | 93 => ⟨S64x256x256x3, .i32⟩
  | 94 => ⟨S64x256x256x3, .f32⟩
  | 95 => ⟨S_, .i32⟩
  | 96 => ⟨S64x256x256, .i32⟩
  | 97 => ⟨S64x256x256, .i1⟩
  | 98 => ⟨S_, .i32⟩
  | 99 => ⟨S64x256x256, .i32⟩
  | 100 => ⟨S64x256x256, .i32⟩
  | 101 => ⟨S64x256x256, .i32⟩
  | 102 => ⟨S_, .i32⟩
  | 103 => ⟨S64x256x256, .i32⟩
  | 104 => ⟨S64x256x256, .i1⟩
  | 105 => ⟨S_, .i32⟩
  | 106 => ⟨S64x256x256, .i32⟩
  | 107 => ⟨S64x256x256, .i32⟩
  | 108 => ⟨S64x256x256, .i32⟩
  | 109 => ⟨S_, .i32⟩
  | 110 => ⟨S64x256x256, .i32⟩
  | 111 => ⟨S64x256x256, .i1⟩
  | 112 => ⟨S_, .i32⟩
  | 113 => ⟨S64x256x256, .i32⟩
  | 114 => ⟨S64x256x256, .i32⟩
  | 115 => ⟨S64x256x256, .i32⟩
  | 116 => ⟨S64x256x256x1, .i32⟩
  | 117 => ⟨S64x256x256x1, .i32⟩
  | 118 => ⟨S64x256x256x1, .i32⟩
  | 119 => ⟨S64x256x256x3, .i32⟩
  | 120 => ⟨S64x256x256x3, .f32⟩
  | 121 => ⟨S_, .i32⟩
  | 122 => ⟨S64x256x256, .i32⟩
  | 123 => ⟨S64x256x256, .i1⟩
  | 124 => ⟨S_, .i32⟩
  | 125 => ⟨S64x256x256, .i32⟩
  | 126 => ⟨S64x256x256, .i32⟩
  | 127 => ⟨S64x256x256, .i32⟩
  | _ => ⟨S64x3x256x256, .f32⟩

abbrev hbmTy0_1 (i : Nat) : BufTy := match i % 128 with
  | 0 => ⟨S_, .i32⟩
  | 1 => ⟨S64x256x256, .i32⟩
  | 2 => ⟨S64x256x256, .i1⟩
  | 3 => ⟨S_, .i32⟩
  | 4 => ⟨S64x256x256, .i32⟩
  | 5 => ⟨S64x256x256, .i32⟩
  | 6 => ⟨S64x256x256, .i32⟩
  | 7 => ⟨S_, .i32⟩
  | 8 => ⟨S64x256x256, .i32⟩
  | 9 => ⟨S64x256x256, .i1⟩
  | 10 => ⟨S_, .i32⟩
  | 11 => ⟨S64x256x256, .i32⟩
  | 12 => ⟨S64x256x256, .i32⟩
  | 13 => ⟨S64x256x256, .i32⟩
  | 14 => ⟨S64x256x256x1, .i32⟩
  | 15 => ⟨S64x256x256x1, .i32⟩
  | 16 => ⟨S64x256x256x1, .i32⟩
  | 17 => ⟨S64x256x256x3, .i32⟩
  | 18 => ⟨S64x256x256x3, .f32⟩
  | 19 => ⟨S64x256x256x1, .f32⟩
  | 20 => ⟨S64x256x256, .f32⟩
  | 21 => ⟨S64x256x256x1, .f32⟩
  | 22 => ⟨S64x256x256, .f32⟩
  | 23 => ⟨S64x256x256, .f32⟩
  | 24 => ⟨S64x256x256x1, .f32⟩
  | 25 => ⟨S64x256x256x1, .f32⟩
  | 26 => ⟨S64x256x256, .f32⟩
  | 27 => ⟨S64x256x256x1, .f32⟩
  | 28 => ⟨S64x256x256, .f32⟩
  | 29 => ⟨S64x256x256, .f32⟩
  | 30 => ⟨S64x256x256x1, .f32⟩
  | 31 => ⟨S64x3x256x256, .f32⟩
  | 32 => ⟨S64x3x256x256, .f32⟩
  | 33 => ⟨S64x3x256x256, .f32⟩
  | 34 => ⟨S64x3x256x256, .f32⟩
  | 35 => ⟨S64x1x256x256, .f32⟩
  | 36 => ⟨S64x1x256x256, .f32⟩
  | 37 => ⟨S64x3x256x256, .f32⟩
  | _ => ⟨S64x3x256x256, .f32⟩

abbrev hbmTy (i : Nat) : BufTy := match i / 128 with
  | 0 => hbmTy0_0 i
  | 1 => hbmTy0_1 i
  | _ => ⟨S64x3x256x256, .f32⟩

abbrev bufTy : (tb : Table) → Fin (tcTables nBuf tb) → BufTy
  | .hbm, ⟨i, _⟩ => hbmTy i
  | .local _ .vmem, ⟨0, _⟩ => ⟨S4x3x256x256, .f32⟩
  | .local _ .vmem, ⟨1, _⟩ => ⟨S4x3x256x256, .f32⟩
  | .local _ .vmem, ⟨2, _⟩ => ⟨S4x3x256x256, .f32⟩
  | .local _ .vmem, ⟨3, _⟩ => ⟨S4x3x256x256, .f32⟩
  | .local _ .vmem, ⟨4, _⟩ => ⟨S4x3x256x256, .f32⟩
  | .local _ .vmem, ⟨5, _⟩ => ⟨S4x3x256x256, .f32⟩
  | .local _ .vmem, ⟨6, _⟩ => ⟨S4x3x256x256, .f32⟩
  | .local _ .vmem, ⟨7, _⟩ => ⟨S4x3x256x256, .f32⟩
  | .local _ .vmem, ⟨8, _⟩ => ⟨S4x1x256x256, .f32⟩
  | .local _ .vmem, ⟨9, _⟩ => ⟨S4x1x256x256, .f32⟩
  | .local _ .vmem, ⟨10, _⟩ => ⟨S4x1x256x256, .f32⟩
  | .local _ .vmem, ⟨11, _⟩ => ⟨S4x1x256x256, .f32⟩
  | .local _ .vmem, ⟨12, _⟩ => ⟨S4x3x256x256, .f32⟩
  | .local _ .vmem, ⟨13, _⟩ => ⟨S4x3x256x256, .f32⟩
  | _, _ => ⟨S64x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_1 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_3 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_7 : Ref sig .tc := ⟨.hbm, 69, rfl⟩
abbrev main_v53 : Ref sig .tc := ⟨.hbm, 70, rfl⟩
abbrev main_v54 : Ref sig .tc := ⟨.hbm, 71, rfl⟩
abbrev main_c_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_9 : Ref sig .tc := ⟨.hbm, 76, rfl⟩
abbrev main_v58 : Ref sig .tc := ⟨.hbm, 77, rfl⟩
abbrev main_v59 : Ref sig .tc := ⟨.hbm, 78, rfl⟩
abbrev main_c_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_11 : Ref sig .tc := ⟨.hbm, 83, rfl⟩
abbrev main_v63 : Ref sig .tc := ⟨.hbm, 84, rfl⟩
abbrev main_v64 : Ref sig .tc := ⟨.hbm, 85, rfl⟩
abbrev main_c_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_13 : Ref sig .tc := ⟨.hbm, 95, rfl⟩
abbrev main_v73 : Ref sig .tc := ⟨.hbm, 96, rfl⟩
abbrev main_v74 : Ref sig .tc := ⟨.hbm, 97, rfl⟩
abbrev main_c_14 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_15 : Ref sig .tc := ⟨.hbm, 102, rfl⟩
abbrev main_v78 : Ref sig .tc := ⟨.hbm, 103, rfl⟩
abbrev main_v79 : Ref sig .tc := ⟨.hbm, 104, rfl⟩
abbrev main_c_16 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_17 : Ref sig .tc := ⟨.hbm, 109, rfl⟩
abbrev main_v83 : Ref sig .tc := ⟨.hbm, 110, rfl⟩
abbrev main_v84 : Ref sig .tc := ⟨.hbm, 111, rfl⟩
abbrev main_c_18 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_19 : Ref sig .tc := ⟨.hbm, 121, rfl⟩
abbrev main_v93 : Ref sig .tc := ⟨.hbm, 122, rfl⟩
abbrev main_v94 : Ref sig .tc := ⟨.hbm, 123, rfl⟩
abbrev main_c_20 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_21 : Ref sig .tc := ⟨.hbm, 128, rfl⟩
abbrev main_v98 : Ref sig .tc := ⟨.hbm, 129, rfl⟩
abbrev main_v99 : Ref sig .tc := ⟨.hbm, 130, rfl⟩
abbrev main_c_22 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_c_23 : Ref sig .tc := ⟨.hbm, 135, rfl⟩
abbrev main_v103 : Ref sig .tc := ⟨.hbm, 136, rfl⟩
abbrev main_v104 : Ref sig .tc := ⟨.hbm, 137, rfl⟩
abbrev main_c_24 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x3x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x3x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x3x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x3x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x3x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x2x256x256_S64x256x256x2_0_2_3_1 : S64x2x256x256.Transposes [0, 2, 3, 1] S64x256x256x2
  bcast_S_S64x256x256x2 : S_.BroadcastsInDim S64x256x256x2 (![] : Fin 0 → Fin S64x256x256x2.rank)
  bcast_S256_S256x256_0 : S256.BroadcastsInDim S256x256 (![0] : Fin 1 → Fin S256x256.rank)
  bcast_S256_S256x256_1 : S256.BroadcastsInDim S256x256 (![1] : Fin 1 → Fin S256x256.rank)
  bcast_S256x256_S256x256x1_0_1 : S256x256.BroadcastsInDim S256x256x1 (![0, 1] : Fin 2 → Fin S256x256x1.rank)
  concatenates_S256x256x1_S256x256x1_S256x256x2_d2 : Shape.Concatenates [S256x256x1, S256x256x1] S256x256x2 2
  bcast_S256x256x2_S1x256x256x2_1_2_3 : S256x256x2.BroadcastsInDim S1x256x256x2 (![1, 2, 3] : Fin 3 → Fin S1x256x256x2.rank)
  bcast_S1x256x256x2_S64x256x256x2_0_1_2_3 : S1x256x256x2.BroadcastsInDim S64x256x256x2 (![0, 1, 2, 3] : Fin 4 → Fin S64x256x256x2.rank)
  slices_S64x256x256x2_S64x256x256x1_0_0_0_0 : S64x256x256x2.Slices ![0, 0, 0, 0] S64x256x256x1
  shapeCasts_S64x256x256x1_S64x256x256 : S64x256x256x1.ShapeCasts S64x256x256
  slices_S64x256x256x2_S64x256x256x1_0_0_0_1 : S64x256x256x2.Slices ![0, 0, 0, 1] S64x256x256x1
  transposes_S64x3x256x256_S64x256x256x3_0_2_3_1 : S64x3x256x256.Transposes [0, 2, 3, 1] S64x256x256x3
  bcast_S64_S64x1x1_0 : S64.BroadcastsInDim S64x1x1 (![0] : Fin 1 → Fin S64x1x1.rank)
  bcast_S64x1x1_S64x256x256_0_1_2 : S64x1x1.BroadcastsInDim S64x256x256 (![0, 1, 2] : Fin 3 → Fin S64x256x256.rank)
  bcast_S_S64x256x256 : S_.BroadcastsInDim S64x256x256 (![] : Fin 0 → Fin S64x256x256.rank)
  bcast_S64x256x256_S64x256x256x1_0_1_2 : S64x256x256.BroadcastsInDim S64x256x256x1 (![0, 1, 2] : Fin 3 → Fin S64x256x256x1.rank)
  concatenates_S64x256x256x1_S64x256x256x1_S64x256x256x1_S64x256x256x3_d3 : Shape.Concatenates [S64x256x256x1, S64x256x256x1, S64x256x256x1] S64x256x256x3 3
  transposes_S64x256x256x3_S64x3x256x256_0_3_1_2 : S64x256x256x3.Transposes [0, 3, 1, 2] S64x3x256x256
  transposes_S64x256x256x1_S64x1x256x256_0_3_1_2 : S64x256x256x1.Transposes [0, 3, 1, 2] S64x1x256x256
  inb_S4x3x256x256_S4x3x256x256_0_0_0_0 : ∀ a, (![0, 0, 0, 0] : Fin 4 → Nat) a + S4x3x256x256.size a ≤ S4x3x256x256.size a
  h_S4x3x256x256 : 0 < S4x3x256x256.numel
  shapeCasts_S4x3x256x256_S4x3x256x256 : S4x3x256x256.ShapeCasts S4x3x256x256
  inb_S4x1x256x256_S4x1x256x256_0_0_0_0 : ∀ a, (![0, 0, 0, 0] : Fin 4 → Nat) a + S4x1x256x256.size a ≤ S4x1x256x256.size a
  h_S4x1x256x256 : 0 < S4x1x256x256.numel
  shapeCasts_S4x1x256x256_S4x1x256x256 : S4x1x256x256.ShapeCasts S4x1x256x256
  broadcasts_S4x1x256x256_S4x3x256x256 : S4x1x256x256.Broadcasts S4x3x256x256
  gather_S64x256x256x3_S64x256x256x3_S64x256x256x3_3_012_n_n_012_3_1113_wf : GatherDims.WF S64x256x256x3 S64x256x256x3 S64x256x256x3 [3] [0, 1, 2] [] [0, 1, 2] [] 3 ![1, 1, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x256x256.size a ≤ S64x3x256x256.size a
  hwx0_0 : ∀ i : grid0.Coords, EltTy.bits .f32 = 32 ∨ (Rect.block (s := S64x3x256x256) S4x3x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x256x256.size a ≤ S64x3x256x256.size a
  hwx0_1 : ∀ i : grid0.Coords, EltTy.bits .f32 = 32 ∨ (Rect.block (s := S64x3x256x256) S4x3x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3x256x256.size a ≤ S64x3x256x256.size a
  hwx0_2 : ∀ i : grid0.Coords, EltTy.bits .f32 = 32 ∨ (Rect.block (s := S64x3x256x256) S4x3x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x3x256x256.size a ≤ S64x3x256x256.size a
  hwx0_3 : ∀ i : grid0.Coords, EltTy.bits .f32 = 32 ∨ (Rect.block (s := S64x3x256x256) S4x3x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x256x256.size a ≤ S64x1x256x256.size a
  hwx0_4 : ∀ i : grid0.Coords, EltTy.bits .f32 = 32 ∨ (Rect.block (s := S64x1x256x256) S4x1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1x256x256.size a ≤ S64x1x256x256.size a
  hwx0_5 : ∀ i : grid0.Coords, EltTy.bits .f32 = 32 ∨ (Rect.block (s := S64x1x256x256) S4x1x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x3x256x256.size a ≤ S64x3x256x256.size a
  hwx0_6 : ∀ i : grid0.Coords, EltTy.bits .f32 = 32 ∨ (Rect.block (s := S64x3x256x256) S4x3x256x256.size (cc0_transform_6 i) (hinb0_6 i)).WholeWords (EltTy.packing .f32)

variable [Facts₀]

def gather_S64x256x256x3_S64x256x256x3_S64x256x256x3_3_012_n_n_012_3_1113 : GatherDims S64x256x256x3 S64x256x256x3 S64x256x256x3 where
  offsetDims := [3]
  collapsedSliceDims := [0, 1, 2]
  operandBatchingDims := []
  startIndicesBatchingDims := []
  startIndexMap := [0, 1, 2]
  indexVectorDim := 3
  sliceSizes := ![1, 1, 1, 3]
  wf := gather_S64x256x256x3_S64x256x256x3_S64x256x256x3_3_012_n_n_012_3_1113_wf

abbrev win0_0 : Pipeline.Window sig grid0 :=
  Pipeline.Window.ofSpec (Memref.whole main_v125) S4x3x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v126) S4x3x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v127) S4x3x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v128) S4x3x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v129) S4x1x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v130) S4x1x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v131) S4x3x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x3x256x256 : Shape := ⟨4, ![64, 3, 256, 256]⟩
abbrev S64x2x256x256 : Shape := ⟨4, ![64, 2, 256, 256]⟩
abbrev S64x256x256x3 : Shape := ⟨4, ![64, 256, 256, 3]⟩
abbrev S64x256x256x2 : Shape := ⟨4, ![64, 256, 256, 2]⟩
abbrev S_ : Shape := ⟨0, ![]⟩
abbrev S64x65536x2 : Shape := ⟨3, ![64, 65536, 2]⟩
abbrev S256 : Shape := ⟨1, ![256]⟩
abbrev S256x256 : Shape := ⟨2, ![256, 256]⟩
abbrev S256x256x1 : Shape := ⟨3, ![256, 256, 1]⟩
abbrev S256x256x2 : Shape := ⟨3, ![256, 256, 2]⟩
abbrev S65536x2 : Shape := ⟨2, ![65536, 2]⟩
abbrev S1x65536x2 : Shape := ⟨3, ![1, 65536, 2]⟩
abbrev S64x65536x1 : Shape := ⟨3, ![64, 65536, 1]⟩
abbrev S64x65536 : Shape := ⟨2, ![64, 65536]⟩
abbrev S64 : Shape := ⟨1, ![64]⟩
abbrev S64x1 : Shape := ⟨2, ![64, 1]⟩
abbrev S64x65536x3 : Shape := ⟨3, ![64, 65536, 3]⟩

abbrev nBuf : Space → Nat
  | .hbm => 195
  | .vmem => 0
  | .smem => 0
  | _ => 0

abbrev hbmTy0_0 (i : Nat) : BufTy := match i % 128 with
  | 0 => ⟨S64x3x256x256, .f32⟩
  | 1 => ⟨S64x2x256x256, .f32⟩
  | 2 => ⟨S64x256x256x3, .f32⟩
  | 3 => ⟨S64x256x256x2, .f32⟩
  | 4 => ⟨S_, .f32⟩
  | 5 => ⟨S64x256x256x2, .f32⟩
  | 6 => ⟨S64x256x256x2, .f32⟩
  | 7 => ⟨S64x65536x2, .f32⟩
  | 8 => ⟨S256, .i32⟩
  | 9 => ⟨S256, .i32⟩
  | 10 => ⟨S256x256, .i32⟩
  | 11 => ⟨S256x256, .i32⟩
  | 12 => ⟨S256x256x1, .i32⟩
  | 13 => ⟨S256x256x1, .i32⟩
  | 14 => ⟨S256x256x2, .i32⟩
  | 15 => ⟨S65536x2, .i32⟩
  | 16 => ⟨S65536x2, .f32⟩
  | 17 => ⟨S1x65536x2, .f32⟩
  | 18 => ⟨S64x65536x2, .f32⟩
  | 19 => ⟨S64x65536x2, .f32⟩
  | 20 => ⟨S_, .f32⟩
  | 21 => ⟨S_, .i32⟩
  | 22 => ⟨S_, .f32⟩
  | 23 => ⟨S64x65536x2, .f32⟩
  | 24 => ⟨S64x65536x2, .f32⟩
  | 25 => ⟨S_, .f32⟩
  | 26 => ⟨S64x65536x2, .f32⟩
  | 27 => ⟨S64x65536x2, .f32⟩
  | 28 => ⟨S64x65536x2, .f32⟩
  | 29 => ⟨S64x65536x2, .f32⟩
  | 30 => ⟨S64x65536x1, .f32⟩
  | 31 => ⟨S64x65536, .f32⟩
  | 32 => ⟨S64x65536x1, .f32⟩
  | 33 => ⟨S64x65536, .f32⟩
  | 34 => ⟨S64x65536x1, .f32⟩
  | 35 => ⟨S64x65536x1, .f32⟩
  | 36 => ⟨S64x65536x2, .f32⟩
  | 37 => ⟨S64x65536x1, .f32⟩
  | 38 => ⟨S64x65536, .f32⟩
  | 39 => ⟨S64x65536x1, .f32⟩
  | 40 => ⟨S64x65536, .f32⟩
  | 41 => ⟨S64x65536x1, .f32⟩
  | 42 => ⟨S64x65536x1, .f32⟩
  | 43 => ⟨S64x65536x2, .f32⟩
  | 44 => ⟨S64, .i32⟩
  | 45 => ⟨S64x1, .i32⟩
  | 46 => ⟨S64x65536x1, .f32⟩
  | 47 => ⟨S64x65536, .f32⟩
  | 48 => ⟨S64x65536, .i32⟩
  | 49 => ⟨S64x65536x1, .f32⟩
  | 50 => ⟨S64x65536, .f32⟩
  | 51 => ⟨S64x65536, .i32⟩
  | 52 => ⟨S_, .i32⟩
  | 53 => ⟨S64x1, .i32⟩
  | 54 => ⟨S64x1, .i1⟩
  | 55 => ⟨S_, .i32⟩
  | 56 => ⟨S64x1, .i32⟩
  | 57 => ⟨S64x1, .i32⟩
  | 58 => ⟨S64x1, .i32⟩
  | 59 => ⟨S_, .i32⟩
  | 60 => ⟨S64x65536, .i32⟩
  | 61 => ⟨S64x65536, .i1⟩
  | 62 => ⟨S_, .i32⟩
  | 63 => ⟨S64x65536, .i32⟩
  | 64 => ⟨S64x65536, .i32⟩
  | 65 => ⟨S64x65536, .i32⟩
  | 66 => ⟨S_, .i32⟩
  | 67 => ⟨S64x65536, .i32⟩
  | 68 => ⟨S64x65536, .i1⟩
  | 69 => ⟨S_, .i32⟩
  | 70 => ⟨S64x65536, .i32⟩
  | 71 => ⟨S64x65536, .i32⟩
  | 72 => ⟨S64x65536, .i32⟩
  | 73 => ⟨S64x65536, .i32⟩
  | 74 => ⟨S64x65536x1, .i32⟩
  | 75 => ⟨S64x65536x1, .i32⟩
  | 76 => ⟨S64x65536x1, .i32⟩
  | 77 => ⟨S64x65536x3, .i32⟩
  | 78 => ⟨S64x65536x3, .f32⟩
  | 79 => ⟨S64x65536x1, .f32⟩
  | 80 => ⟨S64x65536, .f32⟩
  | 81 => ⟨S64x65536, .i32⟩
  | 82 => ⟨S64x65536x1, .f32⟩
  | 83 => ⟨S64x65536, .f32⟩
  | 84 => ⟨S64x65536, .i32⟩
  | 85 => ⟨S_, .i32⟩
  | 86 => ⟨S64x1, .i32⟩
  | 87 => ⟨S64x1, .i1⟩
  | 88 => ⟨S_, .i32⟩
  | 89 => ⟨S64x1, .i32⟩
  | 90 => ⟨S64x1, .i32⟩
  | 91 => ⟨S64x1, .i32⟩
  | 92 => ⟨S_, .i32⟩
  | 93 => ⟨S64x65536, .i32⟩
  | 94 => ⟨S64x65536, .i1⟩
  | 95 => ⟨S_, .i32⟩
  | 96 => ⟨S64x65536, .i32⟩
  | 97 => ⟨S64x65536, .i32⟩
  | 98 => ⟨S64x65536, .i32⟩
  | 99 => ⟨S_, .i32⟩
  | 100 => ⟨S64x65536, .i32⟩
  | 101 => ⟨S64x65536, .i1⟩
  | 102 => ⟨S_, .i32⟩
  | 103 => ⟨S64x65536, .i32⟩
  | 104 => ⟨S64x65536, .i32⟩
  | 105 => ⟨S64x65536, .i32⟩
  | 106 => ⟨S64x65536, .i32⟩
  | 107 => ⟨S64x65536x1, .i32⟩
  | 108 => ⟨S64x65536x1, .i32⟩
  | 109 => ⟨S64x65536x1, .i32⟩
  | 110 => ⟨S64x65536x3, .i32⟩
  | 111 => ⟨S64x65536x3, .f32⟩
  | 112 => ⟨S64x65536x1, .f32⟩
  | 113 => ⟨S64x65536, .f32⟩
  | 114 => ⟨S64x65536, .i32⟩
  | 115 => ⟨S64x65536x1, .f32⟩
  | 116 => ⟨S64x65536, .f32⟩
  | 117 => ⟨S64x65536, .i32⟩
  | 118 => ⟨S_, .i32⟩
  | 119 => ⟨S64x1, .i32⟩
  | 120 => ⟨S64x1, .i1⟩
  | 121 => ⟨S_, .i32⟩
  | 122 => ⟨S64x1, .i32⟩
  | 123 => ⟨S64x1, .i32⟩
  | 124 => ⟨S64x1, .i32⟩
  | 125 => ⟨S_, .i32⟩
  | 126 => ⟨S64x65536, .i32⟩
  | 127 => ⟨S64x65536, .i1⟩
  | _ => ⟨S64x3x256x256, .f32⟩

abbrev hbmTy0_1 (i : Nat) : BufTy := match i % 128 with
  | 0 => ⟨S_, .i32⟩
  | 1 => ⟨S64x65536, .i32⟩
  | 2 => ⟨S64x65536, .i32⟩
  | 3 => ⟨S64x65536, .i32⟩
  | 4 => ⟨S_, .i32⟩
  | 5 => ⟨S64x65536, .i32⟩
  | 6 => ⟨S64x65536, .i1⟩
  | 7 => ⟨S_, .i32⟩
  | 8 => ⟨S64x65536, .i32⟩
  | 9 => ⟨S64x65536, .i32⟩
  | 10 => ⟨S64x65536, .i32⟩
  | 11 => ⟨S64x65536, .i32⟩
  | 12 => ⟨S64x65536x1, .i32⟩
  | 13 => ⟨S64x65536x1, .i32⟩
  | 14 => ⟨S64x65536x1, .i32⟩
  | 15 => ⟨S64x65536x3, .i32⟩
  | 16 => ⟨S64x65536x3, .f32⟩
  | 17 => ⟨S64x65536x1, .f32⟩
  | 18 => ⟨S64x65536, .f32⟩
  | 19 => ⟨S64x65536, .i32⟩
  | 20 => ⟨S64x65536x1, .f32⟩
  | 21 => ⟨S64x65536, .f32⟩
  | 22 => ⟨S64x65536, .i32⟩
  | 23 => ⟨S_, .i32⟩
  | 24 => ⟨S64x1, .i32⟩
  | 25 => ⟨S64x1, .i1⟩
  | 26 => ⟨S_, .i32⟩
  | 27 => ⟨S64x1, .i32⟩
  | 28 => ⟨S64x1, .i32⟩
  | 29 => ⟨S64x1, .i32⟩
  | 30 => ⟨S_, .i32⟩
  | 31 => ⟨S64x65536, .i32⟩
  | 32 => ⟨S64x65536, .i1⟩
  | 33 => ⟨S_, .i32⟩
  | 34 => ⟨S64x65536, .i32⟩
  | 35 => ⟨S64x65536, .i32⟩
  | 36 => ⟨S64x65536, .i32⟩
  | 37 => ⟨S_, .i32⟩
  | 38 => ⟨S64x65536, .i32⟩
  | 39 => ⟨S64x65536, .i1⟩
  | 40 => ⟨S_, .i32⟩
  | 41 => ⟨S64x65536, .i32⟩
  | 42 => ⟨S64x65536, .i32⟩
  | 43 => ⟨S64x65536, .i32⟩
  | 44 => ⟨S64x65536, .i32⟩
  | 45 => ⟨S64x65536x1, .i32⟩
  | 46 => ⟨S64x65536x1, .i32⟩
  | 47 => ⟨S64x65536x1, .i32⟩
  | 48 => ⟨S64x65536x3, .i32⟩
  | 49 => ⟨S64x65536x3, .f32⟩
  | 50 => ⟨S64x65536x2, .f32⟩
  | 51 => ⟨S64x65536x1, .f32⟩
  | 52 => ⟨S64x65536x1, .f32⟩
  | 53 => ⟨S64x65536x3, .f32⟩
  | 54 => ⟨S64x65536x3, .f32⟩
  | 55 => ⟨S64x65536x3, .f32⟩
  | 56 => ⟨S64x65536x3, .f32⟩
  | 57 => ⟨S64x65536x3, .f32⟩
  | 58 => ⟨S64x65536x3, .f32⟩
  | 59 => ⟨S64x65536x3, .f32⟩
  | 60 => ⟨S64x65536x3, .f32⟩
  | 61 => ⟨S64x65536x3, .f32⟩
  | 62 => ⟨S64x65536x3, .f32⟩
  | 63 => ⟨S64x65536x3, .f32⟩
  | 64 => ⟨S64x65536x3, .f32⟩
  | 65 => ⟨S64x256x256x3, .f32⟩
  | 66 => ⟨S64x3x256x256, .f32⟩
  | _ => ⟨S64x3x256x256, .f32⟩

abbrev hbmTy (i : Nat) : BufTy := match i / 128 with
  | 0 => hbmTy0_0 i
  | 1 => hbmTy0_1 i
  | _ => ⟨S64x3x256x256, .f32⟩

abbrev bufTy : (tb : Table) → Fin (tcTables nBuf tb) → BufTy
  | .hbm, ⟨i, _⟩ => hbmTy i
  | _, _ => ⟨S64x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_1 : Ref sig .tc := ⟨.hbm, 52, rfl⟩
abbrev main_v42 : Ref sig .tc := ⟨.hbm, 53, rfl⟩
abbrev main_v43 : Ref sig .tc := ⟨.hbm, 54, rfl⟩
abbrev main_c_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_3 : Ref sig .tc := ⟨.hbm, 59, rfl⟩
abbrev main_v47 : Ref sig .tc := ⟨.hbm, 60, rfl⟩
abbrev main_v48 : Ref sig .tc := ⟨.hbm, 61, rfl⟩
abbrev main_c_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_5 : Ref sig .tc := ⟨.hbm, 66, rfl⟩
abbrev main_v52 : Ref sig .tc := ⟨.hbm, 67, rfl⟩
abbrev main_v53 : Ref sig .tc := ⟨.hbm, 68, rfl⟩
abbrev main_c_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_7 : Ref sig .tc := ⟨.hbm, 85, rfl⟩
abbrev main_v69 : Ref sig .tc := ⟨.hbm, 86, rfl⟩
abbrev main_v70 : Ref sig .tc := ⟨.hbm, 87, rfl⟩
abbrev main_c_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_9 : Ref sig .tc := ⟨.hbm, 92, rfl⟩
abbrev main_v74 : Ref sig .tc := ⟨.hbm, 93, rfl⟩
abbrev main_v75 : Ref sig .tc := ⟨.hbm, 94, rfl⟩
abbrev main_c_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_11 : Ref sig .tc := ⟨.hbm, 99, rfl⟩
abbrev main_v79 : Ref sig .tc := ⟨.hbm, 100, rfl⟩
abbrev main_v80 : Ref sig .tc := ⟨.hbm, 101, rfl⟩
abbrev main_c_12 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_c_13 : Ref sig .tc := ⟨.hbm, 118, rfl⟩
abbrev main_v96 : Ref sig .tc := ⟨.hbm, 119, rfl⟩
abbrev main_v97 : Ref sig .tc := ⟨.hbm, 120, rfl⟩
abbrev main_c_14 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_c_15 : Ref sig .tc := ⟨.hbm, 125, rfl⟩
abbrev main_v101 : Ref sig .tc := ⟨.hbm, 126, rfl⟩
abbrev main_v102 : Ref sig .tc := ⟨.hbm, 127, rfl⟩
abbrev main_c_16 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_c_17 : Ref sig .tc := ⟨.hbm, 132, rfl⟩
abbrev main_v106 : Ref sig .tc := ⟨.hbm, 133, rfl⟩
abbrev main_v107 : Ref sig .tc := ⟨.hbm, 134, rfl⟩
abbrev main_c_18 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_c_19 : Ref sig .tc := ⟨.hbm, 151, rfl⟩
abbrev main_v123 : Ref sig .tc := ⟨.hbm, 152, rfl⟩
abbrev main_v124 : Ref sig .tc := ⟨.hbm, 153, rfl⟩
abbrev main_c_20 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_c_21 : Ref sig .tc := ⟨.hbm, 158, rfl⟩
abbrev main_v128 : Ref sig .tc := ⟨.hbm, 159, rfl⟩
abbrev main_v129 : Ref sig .tc := ⟨.hbm, 160, rfl⟩
abbrev main_c_22 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_c_23 : Ref sig .tc := ⟨.hbm, 165, rfl⟩
abbrev main_v133 : Ref sig .tc := ⟨.hbm, 166, rfl⟩
abbrev main_v134 : Ref sig .tc := ⟨.hbm, 167, rfl⟩
abbrev main_c_24 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩

abbrev nD : Nat := 1
abbrev τ : Topo := Topo.v7x

variable {F : FTy → Type} [FloatOps F]

class Facts₀ : Prop where
  transposes_S64x3x256x256_S64x256x256x3_0_2_3_1 : S64x3x256x256.Transposes [0, 2, 3, 1] S64x256x256x3
  transposes_S64x2x256x256_S64x256x256x2_0_2_3_1 : S64x2x256x256.Transposes [0, 2, 3, 1] S64x256x256x2
  bcast_S_S64x256x256x2 : S_.BroadcastsInDim S64x256x256x2 (![] : Fin 0 → Fin S64x256x256x2.rank)
  shapeCasts_S64x256x256x2_S64x65536x2 : S64x256x256x2.ShapeCasts S64x65536x2
  bcast_S256_S256x256_0 : S256.BroadcastsInDim S256x256 (![0] : Fin 1 → Fin S256x256.rank)
  bcast_S256_S256x256_1 : S256.BroadcastsInDim S256x256 (![1] : Fin 1 → Fin S256x256.rank)
  bcast_S256x256_S256x256x1_0_1 : S256x256.BroadcastsInDim S256x256x1 (![0, 1] : Fin 2 → Fin S256x256x1.rank)
  concatenates_S256x256x1_S256x256x1_S256x256x2_d2 : Shape.Concatenates [S256x256x1, S256x256x1] S256x256x2 2
  shapeCasts_S256x256x2_S65536x2 : S256x256x2.ShapeCasts S65536x2
  bcast_S65536x2_S1x65536x2_1_2 : S65536x2.BroadcastsInDim S1x65536x2 (![1, 2] : Fin 2 → Fin S1x65536x2.rank)
  bcast_S1x65536x2_S64x65536x2_0_1_2 : S1x65536x2.BroadcastsInDim S64x65536x2 (![0, 1, 2] : Fin 3 → Fin S64x65536x2.rank)
  bcast_S_S64x65536x2 : S_.BroadcastsInDim S64x65536x2 (![] : Fin 0 → Fin S64x65536x2.rank)
  slices_S64x65536x2_S64x65536x1_0_0_0 : S64x65536x2.Slices ![0, 0, 0] S64x65536x1
  shapeCasts_S64x65536x1_S64x65536 : S64x65536x1.ShapeCasts S64x65536
  slices_S64x65536x2_S64x65536x1_0_0_1 : S64x65536x2.Slices ![0, 0, 1] S64x65536x1
  bcast_S64x65536_S64x65536x1_0_1 : S64x65536.BroadcastsInDim S64x65536x1 (![0, 1] : Fin 2 → Fin S64x65536x1.rank)
  concatenates_S64x65536x1_S64x65536x1_S64x65536x2_d2 : Shape.Concatenates [S64x65536x1, S64x65536x1] S64x65536x2 2
  bcast_S64_S64x1_0 : S64.BroadcastsInDim S64x1 (![0] : Fin 1 → Fin S64x1.rank)
  bcast_S_S64x1 : S_.BroadcastsInDim S64x1 (![] : Fin 0 → Fin S64x1.rank)
  bcast_S_S64x65536 : S_.BroadcastsInDim S64x65536 (![] : Fin 0 → Fin S64x65536.rank)
  bcast_S64x1_S64x65536_0_1 : S64x1.BroadcastsInDim S64x65536 (![0, 1] : Fin 2 → Fin S64x65536.rank)
  concatenates_S64x65536x1_S64x65536x1_S64x65536x1_S64x65536x3_d2 : Shape.Concatenates [S64x65536x1, S64x65536x1, S64x65536x1] S64x65536x3 2
  bcast_S64x65536x1_S64x65536x3_0_1_2 : S64x65536x1.BroadcastsInDim S64x65536x3 (![0, 1, 2] : Fin 3 → Fin S64x65536x3.rank)
  shapeCasts_S64x65536x3_S64x256x256x3 : S64x65536x3.ShapeCasts S64x256x256x3
  transposes_S64x256x256x3_S64x3x256x256_0_3_1_2 : S64x256x256x3.Transposes [0, 3, 1, 2] S64x3x256x256
  gather_S64x256x256x3_S64x65536x3_S64x65536x3_2_012_n_n_012_2_1113_wf : GatherDims.WF S64x256x256x3 S64x65536x3 S64x65536x3 [2] [0, 1, 2] [] [0, 1, 2] [] 2 ![1, 1, 1, 3]

variable [Facts₀]

def gather_S64x256x256x3_S64x65536x3_S64x65536x3_2_012_n_n_012_2_1113 : GatherDims S64x256x256x3 S64x65536x3 S64x65536x3 where
  offsetDims := [2]
  collapsedSliceDims := [0, 1, 2]
  operandBatchingDims := []
  startIndicesBatchingDims := []
  startIndexMap := [0, 1, 2]
  indexVectorDim := 2
  sliceSizes := ![1, 1, 1, 3]
  wf := gather_S64x256x256x3_S64x65536x3_S64x65536x3_2_012_n_n_012_2_1113_wf

class Facts : Prop extends Facts₀ where

variable [Facts]
-- ==== Proof.FrameKernel.lean ====
/-
  The frame of `Kernel`'s @main, written against the pipeline library's frame run.

  @main is three straight stretches of host operations (163 in all) and then ONE pallas_call on a grid of 16 points.
  Every window's block is a whole slab of four batch rows, the six input windows are fetched at every point and
  the output window is written back at every point.  The kernel body loads the six input blocks whole, computes the
  bilinear blend pointwise and stores it over the whole output block; it keeps nothing between points.

  So the proof data are: the arrays as the host prefix leaves them (`V`), after the body each input buffer at its
  block and the output buffer at the blend of the six input blocks, and the library's class invariant.  From the
  frame run's post the two argument arrays end as launched, because no host operation writes them and no window
  stages them.
-/
import proofs.«136538_j5866925326584_1_alg».proof.Proof.Gen.Kernel.Launch
import proofs.«136538_j5866925326584_1_alg».proof.Proof.Gen.Kernel.Skeleton
import proofs.«136538_j5866925326584_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.HandFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main reduces to the region holding the unscoped buffers at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- A buffer none of the host operations writes is found as launched. -/
theorem V_of_not_written (c : Dev nD) (b : Ref sig .tc)
    (h : (List.flatten [hostOps0, hostOps0_1, hostOps0_2] : List (HloOp τ sig (Elt F))).Forall
      fun op => Proc.devRef .tc b ∉ op.writes) :
    V m c b = m ((c : Thread nD τ).loc b) :=
  StableHlo.after_of_forall_not_mem (b := Proc.devRef .tc b) _ _ (List.forall_iff_forall_mem.mp h)

/-- No host operation writes the first argument array. -/
theorem V_main_arg0 (c : Dev nD) : V m c main_arg0 = m ((c : Thread nD τ).loc main_arg0) :=
  V_of_not_written m c main_arg0 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))

/-- No host operation writes the second argument array. -/
theorem V_main_arg1 (c : Dev nD) : V m c main_arg1 = m ((c : Thread nD τ).loc main_arg1) :=
  V_of_not_written m c main_arg1 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The blend of six blocks: what the body stores over the output block. -/
def blend (x0 x1 x2 x3 : Vec F S4x3x256x256 .f32) (x4 x5 : Vec F S4x1x256x256 .f32) : Vec F S4x3x256x256 .f32 :=
  View.canon [⟨Rect.unit (s := S4x3x256x256) ![0, 0, 0, 0] S4x3x256x256.size inb_S4x3x256x256_S4x3x256x256_0_0_0_0,
    k0_pay1
      (View.ld x0 (Rect.unit (s := S4x3x256x256) ![0, 0, 0, 0] S4x3x256x256.size inb_S4x3x256x256_S4x3x256x256_0_0_0_0))
      (View.ld x1 (Rect.unit (s := S4x3x256x256) ![0, 0, 0, 0] S4x3x256x256.size inb_S4x3x256x256_S4x3x256x256_0_0_0_0))
      (View.ld x2 (Rect.unit (s := S4x3x256x256) ![0, 0, 0, 0] S4x3x256x256.size inb_S4x3x256x256_S4x3x256x256_0_0_0_0))
      (View.ld x3 (Rect.unit (s := S4x3x256x256) ![0, 0, 0, 0] S4x3x256x256.size inb_S4x3x256x256_S4x3x256x256_0_0_0_0))
      (View.ld x4 (Rect.unit (s := S4x1x256x256) ![0, 0, 0, 0] S4x1x256x256.size inb_S4x1x256x256_S4x1x256x256_0_0_0_0))
      (View.ld x5 (Rect.unit (s := S4x1x256x256) ![0, 0, 0, 0] S4x1x256x256.size inb_S4x1x256x256_S4x1x256x256_0_0_0_0))⟩]

/-- The one store covers the output block. -/
theorem blend_cover (p0 : Vec F S4x3x256x256 .f32) (y : S4x3x256x256.Idx) :
    ∃ pc ∈ ([⟨Rect.unit (s := S4x3x256x256) ![0, 0, 0, 0] S4x3x256x256.size inb_S4x3x256x256_S4x3x256x256_0_0_0_0, p0⟩] :
      List (View.Piece (Elt F) S4x3x256x256 .f32)), y ∈ pc.1.set :=
  View.cover_of_tiled [⟨Rect.unit (s := S4x3x256x256) ![0, 0, 0, 0] S4x3x256x256.size inb_S4x3x256x256_S4x3x256x256_0_0_0_0, p0⟩]
    S4x3x256x256.size (by rfl) y

/-! ## The body's triple -/

set_option maxHeartbeats 2000000 in
/-- The body on whole staging memrefs: the six inputs at read contents and the output at anything run to the inputs as
    they were and the output at the blend. -/
theorem sound_kernel (c : Dev nD) (E : Set ℕ) (i : grid0.Coords)
    (arg1 : Memref sig .tc .vmem S4x3x256x256 .f32) (harg1 : arg1.IsWhole)
    (arg2 : Memref sig .tc .vmem S4x3x256x256 .f32) (harg2 : arg2.IsWhole)
    (arg3 : Memref sig .tc .vmem S4x3x256x256 .f32) (harg3 : arg3.IsWhole)
    (arg4 : Memref sig .tc .vmem S4x3x256x256 .f32) (harg4 : arg4.IsWhole)
    (arg5 : Memref sig .tc .vmem S4x1x256x256 .f32) (harg5 : arg5.IsWhole)
    (arg6 : Memref sig .tc .vmem S4x1x256x256 .f32) (harg6 : arg6.IsWhole)
    (arg7 : Memref sig .tc .vmem S4x3x256x256 .f32) (harg7 : arg7.IsWhole)
    (x0 x1 x2 x3 : Vec F S4x3x256x256 .f32) (x4 x5 : Vec F S4x1x256x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (blend x0 x1 x2 x3 x4 x5)) -∗ K ⟨⟩))
      ⊢ wp frame (wpE (defs₀ (F := F)) Variants.none c none) E
          (cc0__blend_kernel i arg1 harg1 arg2 harg2 arg3 harg3 arg4 harg4 arg5 harg5 arg6 harg6 arg7 harg7) K := by
  simp only [cc0__blend_kernel_eq_skeleton]; unfold cc0__blend_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (blend_cover _)

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blend (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = blend (iblk m c 0 t) (iblk m c 1 t) (iblk m c 2 t) (iblk m c 3 t) (iblk m c 4 t) (iblk m c 5 t) := by
  dsimp only [dats]

/-- An input window, fetched at every point, holds its block when the body runs. -/
theorem before0_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before0_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before0_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
theorem before0_3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)
theorem before0_4 (c : Dev nD) (t : Fin cfg0.N) (d) : (dats m 0 c).before 4 t d = iblk m c 4 t :=
  ((dats m 0 c).before_fetched 4 t (fetch0_4 t) d).trans (by unfold Dat.fetched Dat.blockOf iblk; rw [A_eq]; try rfl)
theorem before0_5 (c : Dev nD) (t : Fin cfg0.N) (d) : (dats m 0 c).before 5 t d = iblk m c 5 t :=
  ((dats m 0 c).before_fetched 5 t (fetch0_5 t) d).trans (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c)⟩)
    (run_main m ρ)

end Cert.Kernel.HandFrame

end
-- ==== Proof.FrameKernelIdeal.lean ====
/-
  The frame of `KernelIdeal`'s @main, written against the pipeline library's frame run.

  @main is three straight stretches of host operations (163 in all) and then ONE pallas_call on a grid of 16 points.
  Every window's block is a whole slab of four batch rows, the six input windows are fetched at every point and
  the output window is written back at every point.  The kernel body loads the six input blocks whole, computes the
  bilinear blend pointwise and stores it over the whole output block; it keeps nothing between points.

  So the proof data are: the arrays as the host prefix leaves them (`V`), after the body each input buffer at its
  block and the output buffer at the blend of the six input blocks, and the library's class invariant.  From the
  frame run's post the two argument arrays end as launched, because no host operation writes them and no window
  stages them.
-/
import proofs.«136538_j5866925326584_1_alg».proof.Proof.Gen.KernelIdeal.Launch
import proofs.«136538_j5866925326584_1_alg».proof.Proof.Gen.KernelIdeal.Skeleton
import proofs.«136538_j5866925326584_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.HandFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main reduces to the region holding the unscoped buffers at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- A buffer none of the host operations writes is found as launched. -/
theorem V_of_not_written (c : Dev nD) (b : Ref sig .tc)
    (h : (List.flatten [hostOps0, hostOps0_1, hostOps0_2] : List (HloOp τ sig (Elt F))).Forall
      fun op => Proc.devRef .tc b ∉ op.writes) :
    V m c b = m ((c : Thread nD τ).loc b) :=
  StableHlo.after_of_forall_not_mem (b := Proc.devRef .tc b) _ _ (List.forall_iff_forall_mem.mp h)

/-- No host operation writes the first argument array. -/
theorem V_main_arg0 (c : Dev nD) : V m c main_arg0 = m ((c : Thread nD τ).loc main_arg0) :=
  V_of_not_written m c main_arg0 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))

/-- No host operation writes the second argument array. -/
theorem V_main_arg1 (c : Dev nD) : V m c main_arg1 = m ((c : Thread nD τ).loc main_arg1) :=
  V_of_not_written m c main_arg1 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The blend of six blocks: what the body stores over the output block. -/
def blend (x0 x1 x2 x3 : Vec F S4x3x256x256 .f32) (x4 x5 : Vec F S4x1x256x256 .f32) : Vec F S4x3x256x256 .f32 :=
  View.canon [⟨Rect.unit (s := S4x3x256x256) ![0, 0, 0, 0] S4x3x256x256.size inb_S4x3x256x256_S4x3x256x256_0_0_0_0,
    k0_pay1
      (View.ld x0 (Rect.unit (s := S4x3x256x256) ![0, 0, 0, 0] S4x3x256x256.size inb_S4x3x256x256_S4x3x256x256_0_0_0_0))
      (View.ld x1 (Rect.unit (s := S4x3x256x256) ![0, 0, 0, 0] S4x3x256x256.size inb_S4x3x256x256_S4x3x256x256_0_0_0_0))
      (View.ld x2 (Rect.unit (s := S4x3x256x256) ![0, 0, 0, 0] S4x3x256x256.size inb_S4x3x256x256_S4x3x256x256_0_0_0_0))
      (View.ld x3 (Rect.unit (s := S4x3x256x256) ![0, 0, 0, 0] S4x3x256x256.size inb_S4x3x256x256_S4x3x256x256_0_0_0_0))
      (View.ld x4 (Rect.unit (s := S4x1x256x256) ![0, 0, 0, 0] S4x1x256x256.size inb_S4x1x256x256_S4x1x256x256_0_0_0_0))
      (View.ld x5 (Rect.unit (s := S4x1x256x256) ![0, 0, 0, 0] S4x1x256x256.size inb_S4x1x256x256_S4x1x256x256_0_0_0_0))⟩]

/-- The one store covers the output block. -/
theorem blend_cover (p0 : Vec F S4x3x256x256 .f32) (y : S4x3x256x256.Idx) :
    ∃ pc ∈ ([⟨Rect.unit (s := S4x3x256x256) ![0, 0, 0, 0] S4x3x256x256.size inb_S4x3x256x256_S4x3x256x256_0_0_0_0, p0⟩] :
      List (View.Piece (Elt F) S4x3x256x256 .f32)), y ∈ pc.1.set :=
  View.cover_of_tiled [⟨Rect.unit (s := S4x3x256x256) ![0, 0, 0, 0] S4x3x256x256.size inb_S4x3x256x256_S4x3x256x256_0_0_0_0, p0⟩]
    S4x3x256x256.size (by rfl) y

/-! ## The body's triple -/

set_option maxHeartbeats 2000000 in
/-- The body on whole staging memrefs: the six inputs at read contents and the output at anything run to the inputs as
    they were and the output at the blend. -/
theorem sound_kernel (c : Dev nD) (E : Set ℕ) (i : grid0.Coords)
    (arg1 : Memref sig .tc .vmem S4x3x256x256 .f32) (harg1 : arg1.IsWhole)
    (arg2 : Memref sig .tc .vmem S4x3x256x256 .f32) (harg2 : arg2.IsWhole)
    (arg3 : Memref sig .tc .vmem S4x3x256x256 .f32) (harg3 : arg3.IsWhole)
    (arg4 : Memref sig .tc .vmem S4x3x256x256 .f32) (harg4 : arg4.IsWhole)
    (arg5 : Memref sig .tc .vmem S4x1x256x256 .f32) (harg5 : arg5.IsWhole)
    (arg6 : Memref sig .tc .vmem S4x1x256x256 .f32) (harg6 : arg6.IsWhole)
    (arg7 : Memref sig .tc .vmem S4x3x256x256 .f32) (harg7 : arg7.IsWhole)
    (x0 x1 x2 x3 : Vec F S4x3x256x256 .f32) (x4 x5 : Vec F S4x1x256x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (blend x0 x1 x2 x3 x4 x5)) -∗ K ⟨⟩))
      ⊢ wp frame (wpE (defs₀ (F := F)) Variants.none c none) E
          (cc0__blend_kernel i arg1 harg1 arg2 harg2 arg3 harg3 arg4 harg4 arg5 harg5 arg6 harg6 arg7 harg7) K := by
  simp only [cc0__blend_kernel_eq_skeleton]; unfold cc0__blend_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (blend_cover _)

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blend (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = blend (iblk m c 0 t) (iblk m c 1 t) (iblk m c 2 t) (iblk m c 3 t) (iblk m c 4 t) (iblk m c 5 t) := by
  dsimp only [dats]

/-- An input window, fetched at every point, holds its block when the body runs. -/
theorem before0_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before0_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before0_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
theorem before0_3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)
theorem before0_4 (c : Dev nD) (t : Fin cfg0.N) (d) : (dats m 0 c).before 4 t d = iblk m c 4 t :=
  ((dats m 0 c).before_fetched 4 t (fetch0_4 t) d).trans (by unfold Dat.fetched Dat.blockOf iblk; rw [A_eq]; try rfl)
theorem before0_5 (c : Dev nD) (t : Fin cfg0.N) (d) : (dats m 0 c).before 5 t d = iblk m c 5 t :=
  ((dats m 0 c).before_fetched 5 t (fetch0_5 t) d).trans (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c)⟩)
    (run_main m ρ)

end Cert.KernelIdeal.HandFrame

end
-- ==== Proof.Warp.lean ====
/-
  The bilinear warp, pixel by pixel.

  For the output pixel `(b, ch, h, w)` the flow field gives a source position: row `h + 256 · off[b, 0, h, w]` and
  column `w + 256 · off[b, 1, h, w]`, each clipped to `[0, 255]`.  Its floor and its ceiling, converted to integer words
  and wrapped the way a negative index is, name the four neighbouring source pixels of image `b` (the gather clamps
  every index into its axis); the fractional parts blend them, rows first, then columns:

    x_u = x_lu + (x_ru - x_lu) · fx,   x_b = x_lb + (x_rb - x_lb) · fx,   out = x_u + (x_b - x_u) · fy.

  Everything here is stated over the scalar operations of any float instance, so that both programs' operation
  chains meet it by unfolding; no law of arithmetic is used.
-/
import Idealize.ShloMosaic.PureOps.Ideal
import Idealize.ShloMosaic.Lib.ValueIdx

noncomputable section

namespace Cert.Warp

open Idealize.ShloMosaic Idealize.ShloMosaic.ValueIdx

variable {F : FTy → Type} [FloatOps F]

/-- The image array `[64, 3, 256, 256]`, the flow array `[64, 2, 256, 256]` and a one-channel array of fractions. -/
abbrev SImg : Shape := ⟨4, ![64, 3, 256, 256]⟩
abbrev SFlow : Shape := ⟨4, ![64, 2, 256, 256]⟩
abbrev SFrac : Shape := ⟨4, ![64, 1, 256, 256]⟩

/-- The clipped source coordinate: the pixel's own grid coordinate `n` plus 256 times the flow component `o`,
    clipped below at 0 and above at 255. -/
def src (n : Nat) (o : F .f32) : F .f32 :=
  FloatOps.minimumf (FloatOps.sitofp .f32 (255#32 : BitVec 32))
    (FloatOps.maximumf (FloatOps.ofBits .f32 0x00000000#32)
      (FloatOps.addf (FloatOps.sitofp .f32 (BitVec.ofNat 32 n)) (FloatOps.mulf o (FloatOps.ofBits .f32 0x43800000#32))))

/-- The floor and the ceiling of a coordinate, as floats and as integer words. -/
def flo (s : F .f32) : F .f32 := FloatOps.hostUnary .floor s
def cei (s : F .f32) : F .f32 := FloatOps.hostUnary .ceil s
def lo (s : F .f32) : BitVec 32 := FloatOps.fptosi 32 (flo s)
def hi (s : F .f32) : BitVec 32 := FloatOps.fptosi 32 (cei s)

/-- A negative index counts from the end of an axis of extent `n`. -/
def wrap (n i : BitVec 32) : BitVec 32 := Scalar.select (IntOp.cmpi .slt i 0#32) (IntOp.addi i n) i

/-- The gather reads a start index signed and clamps it into `[0, n - 1]`. -/
def clampIdx (n : Nat) (hn : 0 < n) (i : BitVec 32) : Fin n := ⟨min i.toInt.toNat (n - 1), by omega⟩

/-- Channel `ch` of the source pixel of image `b` at row word `r` and column word `c`. -/
def pixel (tr : FVec F SImg .f32) (b : Fin 64) (r c : BitVec 32) (ch : Fin 3) : F .f32 :=
  tr (ix4 (clampIdx 64 (by decide) (wrap 64#32 (BitVec.ofNat 32 b.val))) ch
    (clampIdx 256 (by decide) (wrap 256#32 r)) (clampIdx 256 (by decide) (wrap 256#32 c)))

/-- The source row and column of output pixel `(b, h, w)`. -/
def sRow (off : FVec F SFlow .f32) (b : Fin 64) (h w : Fin 256) : F .f32 := src h.val (off (ix4 b 0 h w))
def sCol (off : FVec F SFlow .f32) (b : Fin 64) (h w : Fin 256) : F .f32 := src w.val (off (ix4 b 1 h w))

/-- The four neighbours: (floor row, floor column), (ceiling, ceiling), (floor row, ceiling column),
    (ceiling row, floor column). -/
def xlu (tr : FVec F SImg .f32) (off : FVec F SFlow .f32) (b : Fin 64) (ch : Fin 3) (h w : Fin 256) : F .f32 :=
  pixel tr b (lo (sRow off b h w)) (lo (sCol off b h w)) ch
def xrb (tr : FVec F SImg .f32) (off : FVec F SFlow .f32) (b : Fin 64) (ch : Fin 3) (h w : Fin 256) : F .f32 :=
  pixel tr b (hi (sRow off b h w)) (hi (sCol off b h w)) ch
def xlb (tr : FVec F SImg .f32) (off : FVec F SFlow .f32) (b : Fin 64) (ch : Fin 3) (h w : Fin 256) : F .f32 :=
  pixel tr b (lo (sRow off b h w)) (hi (sCol off b h w)) ch
def xru (tr : FVec F SImg .f32) (off : FVec F SFlow .f32) (b : Fin 64) (ch : Fin 3) (h w : Fin 256) : F .f32 :=
  pixel tr b (hi (sRow off b h w)) (lo (sCol off b h w)) ch

/-- The row and column fractions. -/
def fx (off : FVec F SFlow .f32) (b : Fin 64) (h w : Fin 256) : F .f32 :=
  FloatOps.subf (sRow off b h w) (flo (sRow off b h w))
def fy (off : FVec F SFlow .f32) (b : Fin 64) (h w : Fin 256) : F .f32 :=
  FloatOps.subf (sCol off b h w) (flo (sCol off b h w))

/-- The blend of four neighbours by two fractions. -/
def mix (lu rb lb ru a b : F .f32) : F .f32 :=
  FloatOps.addf (FloatOps.addf lu (FloatOps.mulf (FloatOps.subf ru lu) a))
    (FloatOps.mulf (FloatOps.subf (FloatOps.addf lb (FloatOps.mulf (FloatOps.subf rb lb) a))
      (FloatOps.addf lu (FloatOps.mulf (FloatOps.subf ru lu) a))) b)

/-- The warped pixel. -/
def warped (tr : FVec F SImg .f32) (off : FVec F SFlow .f32) (b : Fin 64) (ch : Fin 3) (h w : Fin 256) : F .f32 :=
  mix (xlu tr off b ch h w) (xrb tr off b ch h w) (xlb tr off b ch h w) (xru tr off b ch h w) (fx off b h w) (fy off b h w)

/-- The same as whole arrays in the layout `[batch, channel, row, column]`. -/
def XLU (tr : FVec F SImg .f32) (off : FVec F SFlow .f32) : FVec F SImg .f32 := fun j => xlu tr off (j 0) (j 1) (j 2) (j 3)
def XRB (tr : FVec F SImg .f32) (off : FVec F SFlow .f32) : FVec F SImg .f32 := fun j => xrb tr off (j 0) (j 1) (j 2) (j 3)
def XLB (tr : FVec F SImg .f32) (off : FVec F SFlow .f32) : FVec F SImg .f32 := fun j => xlb tr off (j 0) (j 1) (j 2) (j 3)
def XRU (tr : FVec F SImg .f32) (off : FVec F SFlow .f32) : FVec F SImg .f32 := fun j => xru tr off (j 0) (j 1) (j 2) (j 3)
def FX (off : FVec F SFlow .f32) : FVec F SFrac .f32 := fun j => fx off (j 0) (j 2) (j 3)
def FY (off : FVec F SFlow .f32) : FVec F SFrac .f32 := fun j => fy off (j 0) (j 2) (j 3)
def G (tr : FVec F SImg .f32) (off : FVec F SFlow .f32) : FVec F SImg .f32 := fun j => warped tr off (j 0) (j 1) (j 2) (j 3)

end Cert.Warp

end
-- ==== Proof.KernelHost.lean ====
/-
  What the host prefix hands the six input windows of the blend.

  Before the blend runs, the program computes, for every output pixel `(b, h, w)`, the clipped source coordinates
  (row `h + 256 · off[b, 0, h, w]`, column `w + 256 · off[b, 1, h, w]`, each clipped to `[0, 255]`), their floors and
  ceilings as integer words, and gathers from the image (moved to the layout `[batch, row, column, channel]`) the four
  neighbouring source pixels; it also forms the two fractional parts.  The six arrays are then moved back to the layout
  `[batch, channel, row, column]`.

  Here each of the six arrays is first written as a composition of a few named array operations that mirror the
  program's operations one for one, then each named operation is read at one index, and last the six arrays are
  identified, pixel by pixel, with the specification's `XLU`, `XRB`, `XLB`, `XRU`, `FX`, `FY`.  No law of arithmetic is
  used: both sides are the same scalar operations in the same order.
-/
import proofs.«136538_j5866925326584_1_alg».proof.Proof.FrameKernelIdeal
import proofs.«136538_j5866925326584_1_alg».proof.Proof.Warp
import Idealize.ShloMosaic.Lib.Pipeline.Value
import Idealize.ShloMosaic.Lib.ValueIdx
import Idealize.ShloMosaic.Lib.StableHlo.Run

noncomputable section

namespace Cert.KernelIdeal.HostValue

open Cert.KernelIdeal Cert.KernelIdeal.Gen Cert.KernelIdeal.HandFrame Idealize.ShloMosaic Idealize.ShloMosaic.ValueIdx
open Idealize.ShloMosaic.TcCoe Idealize.SL.Sem Idealize.ShloMosaic.StableHlo

variable {F : FTy → Type} [FloatOps F]

/-! ## The host prefix's arrays, operation by operation -/

/-- The pixel grid `[64, 256, 256, 2]`: component 0 the row number, component 1 the column number, as floats. -/
def kGrid : FVec F S64x256x256x2 .f32 :=
  broadcastInDim S64x256x256x2 ![0, 1, 2, 3] bcast_S1x256x256x2_S64x256x256x2_0_1_2_3
    (broadcastInDim S1x256x256x2 ![1, 2, 3] bcast_S256x256x2_S1x256x256x2_1_2_3
      (sitofp .f32
        (concatenate S256x256x2 2
          [⟨S256x256x1, broadcastInDim S256x256x1 ![0, 1] bcast_S256x256_S256x256x1_0_1
              (broadcastInDim S256x256 ![0] bcast_S256_S256x256_0 (iotaInDim S256 32 0))⟩,
           ⟨S256x256x1, broadcastInDim S256x256x1 ![0, 1] bcast_S256x256_S256x256x1_0_1
              (broadcastInDim S256x256 ![1] bcast_S256_S256x256_1 (iotaInDim S256 32 0))⟩]
          concatenates_S256x256x1_S256x256x1_S256x256x2_d2)))

/-- The clipped source coordinates `[64, 256, 256, 2]`: the grid plus 256 times the flow, clipped to `[0, 255]`. -/
def kCoord (x1 : FVec F S64x2x256x256 .f32) : FVec F S64x256x256x2 .f32 :=
  minimumf (broadcastInDim S64x256x256x2 ![] bcast_S_S64x256x256x2 (sitofp .f32 (constantI S_ 32 255#32)))
    (maximumf (broadcastInDim S64x256x256x2 ![] bcast_S_S64x256x256x2 (id (constant S_ .f32 0x00000000#32)))
      (addf kGrid
        (mulf (transpose S64x256x256x2 [0, 2, 3, 1] x1 transposes_S64x2x256x256_S64x256x256x2_0_2_3_1)
          (broadcastInDim S64x256x256x2 ![] bcast_S_S64x256x256x2 (constant S_ .f32 0x43800000#32)))))

/-- Component 0 (the row coordinate) and component 1 (the column coordinate) of a `[64, 256, 256, 2]` array. -/
def kComp0 (y : FVec F S64x256x256x2 .f32) : FVec F S64x256x256 .f32 :=
  shapeCast S64x256x256 (extractStridedSlice S64x256x256x1 ![0, 0, 0, 0] y slices_S64x256x256x2_S64x256x256x1_0_0_0_0)
    shapeCasts_S64x256x256x1_S64x256x256
def kComp1 (y : FVec F S64x256x256x2 .f32) : FVec F S64x256x256 .f32 :=
  shapeCast S64x256x256 (extractStridedSlice S64x256x256x1 ![0, 0, 0, 1] y slices_S64x256x256x2_S64x256x256x1_0_0_0_1)
    shapeCasts_S64x256x256x1_S64x256x256

/-- The integer words of a component. -/
def kInt0 (y : FVec F S64x256x256x2 .f32) : IVec S64x256x256 32 := fptosi 32 (kComp0 y)
def kInt1 (y : FVec F S64x256x256x2 .f32) : IVec S64x256x256 32 := fptosi 32 (kComp1 y)

/-- A negative index word counts from the end of an axis of extent `n`. -/
def kWrap (n : BitVec 32) (i : IVec S64x256x256 32) : IVec S64x256x256 32 :=
  select (cmpi .slt i (broadcastInDim S64x256x256 ![] bcast_S_S64x256x256 (constantI S_ 32 0#32)))
    (addi i (broadcastInDim S64x256x256 ![] bcast_S_S64x256x256 (constantI S_ 32 n))) i

/-- The batch number of each pixel, as a word. -/
def kBatch : IVec S64x256x256 32 :=
  broadcastInDim S64x256x256 ![0, 1, 2] bcast_S64x1x1_S64x256x256_0_1_2
    (broadcastInDim S64x1x1 ![0] bcast_S64_S64x1x1_0 (iotaInDim S64 32 0))

/-- An index array given a trailing unit axis. -/
def kCol (i : IVec S64x256x256 32) : IVec S64x256x256x1 32 :=
  broadcastInDim S64x256x256x1 ![0, 1, 2] bcast_S64x256x256_S64x256x256x1_0_1_2 i

/-- The start indices `[64, 256, 256, 3]` of a gather: (batch, row word, column word), each wrapped. -/
def kIdx (r c : IVec S64x256x256 32) : IVec S64x256x256x3 32 :=
  concatenate (α := BitVec 32) S64x256x256x3 3
    [⟨S64x256x256x1, kCol (kWrap 64#32 kBatch)⟩, ⟨S64x256x256x1, kCol (kWrap 256#32 r)⟩,
     ⟨S64x256x256x1, kCol (kWrap 256#32 c)⟩]
    concatenates_S64x256x256x1_S64x256x256x1_S64x256x256x1_S64x256x256x3_d3

/-- The gathered neighbour `[64, 256, 256, 3]` at row words `r` and column words `c`. -/
def kGather (x0 : FVec F S64x3x256x256 .f32) (r c : IVec S64x256x256 32) : FVec F S64x256x256x3 .f32 :=
  Host.gather gather_S64x256x256x3_S64x256x256x3_S64x256x256x3_3_012_n_n_012_3_1113
    (transpose S64x256x256x3 [0, 2, 3, 1] x0 transposes_S64x3x256x256_S64x256x256x3_0_2_3_1) (kIdx r c)

/-- The same in the layout `[64, 3, 256, 256]`. -/
def kWin (x0 : FVec F S64x3x256x256 .f32) (r c : IVec S64x256x256 32) : FVec F S64x3x256x256 .f32 :=
  transpose S64x3x256x256 [0, 3, 1, 2] (kGather x0 r c) transposes_S64x256x256x3_S64x3x256x256_0_3_1_2

/-- The fractional parts of the two components, in the layout `[64, 1, 256, 256]`. -/
def kFrac0 (y : FVec F S64x256x256x2 .f32) : FVec F S64x1x256x256 .f32 :=
  transpose S64x1x256x256 [0, 3, 1, 2]
    (broadcastInDim S64x256x256x1 ![0, 1, 2] bcast_S64x256x256_S64x256x256x1_0_1_2
      (subf (kComp0 y) (kComp0 (Host.floor y))))
    transposes_S64x256x256x1_S64x1x256x256_0_3_1_2
def kFrac1 (y : FVec F S64x256x256x2 .f32) : FVec F S64x1x256x256 .f32 :=
  transpose S64x1x256x256 [0, 3, 1, 2]
    (broadcastInDim S64x256x256x1 ![0, 1, 2] bcast_S64x256x256_S64x256x256x1_0_1_2
      (subf (kComp1 y) (kComp1 (Host.floor y))))
    transposes_S64x256x256x1_S64x1x256x256_0_3_1_2

/-! ## The fold of the host operations -/

/-- A concatenation of three operands: the result with each operand's contents at its own reference. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

theorem nary3_result' {x a b y : Ref sig .tc}
    (f : ((k : Fin 3) → ((![x, a, b] : Fin 3 → Ref sig .tc) k).ty.Contents (Elt F)) → y.ty.Contents (Elt F)) (hxs hy)
    (G : Valuation τ sig (Elt F)) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- The fold of a literal list read at a reference, in one pass. -/
macro "host_results" : tactic =>
  `(tactic| (simp (disch := decide) only [StableHlo.after_cons, StableHlo.after_nil,
      StableHlo.nullary_result', StableHlo.unary_result', StableHlo.binary_result', StableHlo.ternary_result',
      StableHlo.reshape_result', nary3_result',
      StableHlo.nullary_result_ne', StableHlo.unary_result_ne', StableHlo.binary_result_ne', StableHlo.ternary_result_ne',
      StableHlo.reshape_result_ne', StableHlo.nary_result_ne']))

section Fold
variable (m : (ℓ : Loc nD τ sig) → Buf (Elt F) ℓ)

/-- The buffers after the first stretch of host operations, and after the second. -/
def W0 (c : Dev nD) : Valuation τ sig (Elt F) := StableHlo.after hostOps0 (fun b => m (c, b))
def W1 (c : Dev nD) : Valuation τ sig (Elt F) := StableHlo.after hostOps0_1 (W0 m c)

/-- The buffers at the launch of the blend: the third stretch run from where the second left them. -/
theorem V_eq (c : Dev nD) (b : Ref sig .tc) : HandFrame.V m c b = StableHlo.after hostOps0_2 (W1 m c) b := by
  dsimp only [HandFrame.V]
  rw [List.flatten_cons, List.flatten_cons, List.flatten_cons, List.flatten_nil, List.append_nil]
  rw [StableHlo.after_append, StableHlo.after_append]
  rfl

/-- After the first two stretches the clipped coordinates are in place … -/
theorem W1_v14 (c : Dev nD) : W1 m c main_v14 = kCoord (m ((c.tc : Thread nD τ).loc main_arg1)) := by
  unfold W1 W0
  simp only [hostOps0, hostOps0_1]
  after_results
  rfl

/-- … and the image is as launched. -/
theorem W1_arg0 (c : Dev nD) : W1 m c main_arg0 = m ((c.tc : Thread nD τ).loc main_arg0) := by
  unfold W1 W0
  simp only [hostOps0, hostOps0_1]
  after_results

end Fold

/-! ### The third stretch, from any contents: each window array as a composition of the named operations -/

section Third
variable (W : Valuation τ sig (Elt F))

set_option maxRecDepth 8192 in
set_option maxHeartbeats 4000000 in
theorem after2_v125 : StableHlo.after hostOps0_2 W main_v125
    = kWin (W main_arg0) (kInt0 (Host.floor (W main_v14))) (kInt1 (Host.floor (W main_v14))) := by
  simp only [hostOps0_2]
  host_results
  rfl

set_option maxRecDepth 8192 in
set_option maxHeartbeats 4000000 in
theorem after2_v126 : StableHlo.after hostOps0_2 W main_v126
    = kWin (W main_arg0) (kInt0 (Host.ceil (W main_v14))) (kInt1 (Host.ceil (W main_v14))) := by
  simp only [hostOps0_2]
  host_results
  rfl

set_option maxRecDepth 8192 in
set_option maxHeartbeats 4000000 in
theorem after2_v127 : StableHlo.after hostOps0_2 W main_v127
    = kWin (W main_arg0) (kInt0 (Host.floor (W main_v14))) (kInt1 (Host.ceil (W main_v14))) := by
  simp only [hostOps0_2]
  host_results
  rfl

set_option maxRecDepth 8192 in
set_option maxHeartbeats 4000000 in
theorem after2_v128 : StableHlo.after hostOps0_2 W main_v128
    = kWin (W main_arg0) (kInt0 (Host.ceil (W main_v14))) (kInt1 (Host.floor (W main_v14))) := by
  simp only [hostOps0_2]
  host_results
  rfl

set_option maxRecDepth 8192 in
set_option maxHeartbeats 4000000 in
theorem after2_v129 : StableHlo.after hostOps0_2 W main_v129 = kFrac0 (W main_v14) := by
  simp only [hostOps0_2]
  host_results
  rfl

set_option maxRecDepth 8192 in
set_option maxHeartbeats 4000000 in
theorem after2_v130 : StableHlo.after hostOps0_2 W main_v130 = kFrac1 (W main_v14) := by
  simp only [hostOps0_2]
  host_results
  rfl

end Third

/-! ## The arrays read at an index -/

section AtIndex
variable (x0 : FVec F S64x3x256x256 .f32) (x1 : FVec F S64x2x256x256 .f32) (y : FVec F S64x256x256x2 .f32)
variable (b : Fin 64) (ch : Fin 3) (h w : Fin 256)

/-- Component 0 of the grid is the row number. -/
theorem kGrid_row : (kGrid (F := F)) (ix4 b h w (0 : Fin 2)) = FloatOps.sitofp .f32 (BitVec.ofNat 32 h.val) := by
  unfold kGrid
  refine (broadcastInDim_apply _ _ _ _ (ix4 (0 : Fin 1) h w (0 : Fin 2))
    (fun a => match a with | ⟨0, _⟩ => rfl | ⟨1, _⟩ => rfl | ⟨2, _⟩ => rfl | ⟨3, _⟩ => rfl)).trans ?_
  refine (broadcastInDim_apply _ _ _ _ (ix3 h w (0 : Fin 2))
    (fun a => match a with | ⟨0, _⟩ => rfl | ⟨1, _⟩ => rfl | ⟨2, _⟩ => rfl)).trans ?_
  show FloatOps.sitofp .f32 (concatenate _ _ _ _ _) = _
  rfl

/-- Component 1 of the grid is the column number. -/
theorem kGrid_col : (kGrid (F := F)) (ix4 b h w (1 : Fin 2)) = FloatOps.sitofp .f32 (BitVec.ofNat 32 w.val) := by
  unfold kGrid
  refine (broadcastInDim_apply _ _ _ _ (ix4 (0 : Fin 1) h w (1 : Fin 2))
    (fun a => match a with | ⟨0, _⟩ => rfl | ⟨1, _⟩ => rfl | ⟨2, _⟩ => rfl | ⟨3, _⟩ => rfl)).trans ?_
  refine (broadcastInDim_apply _ _ _ _ (ix3 h w (1 : Fin 2))
    (fun a => match a with | ⟨0, _⟩ => rfl | ⟨1, _⟩ => rfl | ⟨2, _⟩ => rfl)).trans ?_
  show FloatOps.sitofp .f32 (concatenate _ _ _ _ _) = _
  rfl

/-- The flow in the layout `[64, 256, 256, 2]` read at a pixel and a component. -/
theorem flowT_apply (k : Fin 2) :
    transpose S64x256x256x2 [0, 2, 3, 1] x1 transposes_S64x2x256x256_S64x256x256x2_0_2_3_1 (ix4 b h w k) = x1 (ix4 b k h w) :=
  transpose_apply _ _ _ _ (ix4 b k h w)
    (fun a => match a with | ⟨0, _⟩ => rfl | ⟨1, _⟩ => rfl | ⟨2, _⟩ => rfl | ⟨3, _⟩ => rfl)

/-- Component 0 of the clipped coordinates is the source row. -/
theorem kCoord_row : kCoord x1 (ix4 b h w (0 : Fin 2)) = Cert.Warp.sRow x1 b h w := by
  show FloatOps.minimumf (FloatOps.sitofp .f32 (255#32 : BitVec 32))
    (FloatOps.maximumf (FloatOps.ofBits .f32 0x00000000#32)
      (FloatOps.addf (kGrid (ix4 b h w (0 : Fin 2)))
        (FloatOps.mulf (transpose S64x256x256x2 [0, 2, 3, 1] x1 transposes_S64x2x256x256_S64x256x256x2_0_2_3_1 (ix4 b h w (0 : Fin 2)))
          (FloatOps.ofBits .f32 0x43800000#32)))) = _
  rw [kGrid_row, flowT_apply]
  rfl

/-- Component 1 of the clipped coordinates is the source column. -/
theorem kCoord_col : kCoord x1 (ix4 b h w (1 : Fin 2)) = Cert.Warp.sCol x1 b h w := by
  show FloatOps.minimumf (FloatOps.sitofp .f32 (255#32 : BitVec 32))
    (FloatOps.maximumf (FloatOps.ofBits .f32 0x00000000#32)
      (FloatOps.addf (kGrid (ix4 b h w (1 : Fin 2)))
        (FloatOps.mulf (transpose S64x256x256x2 [0, 2, 3, 1] x1 transposes_S64x2x256x256_S64x256x256x2_0_2_3_1 (ix4 b h w (1 : Fin 2)))
          (FloatOps.ofBits .f32 0x43800000#32)))) = _
  rw [kGrid_col, flowT_apply]
  rfl

/-- A component of a `[64, 256, 256, 2]` array read at a pixel. -/
theorem kComp0_apply : kComp0 y (ix3 b h w) = y (ix4 b h w (0 : Fin 2)) := by
  unfold kComp0
  refine (shapeCast_apply _ _ _ (ix4 b h w (0 : Fin 1)) ?_).trans ?_
  · rw [Shape.rowMajor_val_four, Shape.rowMajor_val_three]
    show ((b.val * 256 + h.val) * 256 + w.val) * 1 + 0 = (b.val * 256 + h.val) * 256 + w.val
    omega
  · exact extractStridedSlice_apply _ _ _ _ (ix4 b h w (0 : Fin 2))
      (fun a => match a with
        | ⟨0, _⟩ => by show b.val = 0 + b.val; omega
        | ⟨1, _⟩ => by show h.val = 0 + h.val; omega
        | ⟨2, _⟩ => by show w.val = 0 + w.val; omega
        | ⟨3, _⟩ => by show 0 = 0 + 0; omega)
theorem kComp1_apply : kComp1 y (ix3 b h w) = y (ix4 b h w (1 : Fin 2)) := by
  unfold kComp1
  refine (shapeCast_apply _ _ _ (ix4 b h w (0 : Fin 1)) ?_).trans ?_
  · rw [Shape.rowMajor_val_four, Shape.rowMajor_val_three]
    show ((b.val * 256 + h.val) * 256 + w.val) * 1 + 0 = (b.val * 256 + h.val) * 256 + w.val
    omega
  · exact extractStridedSlice_apply _ _ _ _ (ix4 b h w (1 : Fin 2))
      (fun a => match a with
        | ⟨0, _⟩ => by show b.val = 0 + b.val; omega
        | ⟨1, _⟩ => by show h.val = 0 + h.val; omega
        | ⟨2, _⟩ => by show w.val = 0 + w.val; omega
        | ⟨3, _⟩ => by show 1 = 1 + 0; omega)

end AtIndex

section AtIndex2
variable (x0 : FVec F S64x3x256x256 .f32) (x1 : FVec F S64x2x256x256 .f32) (y : FVec F S64x256x256x2 .f32)
variable (r c i : IVec S64x256x256 32) (n : BitVec 32)
variable (b : Fin 64) (ch : Fin 3) (h w : Fin 256)

/-- The integer words of the two components at a pixel. -/
theorem kInt0_apply : kInt0 y (ix3 b h w) = FloatOps.fptosi 32 (y (ix4 b h w (0 : Fin 2))) := by
  show FloatOps.fptosi 32 (kComp0 y (ix3 b h w)) = _
  rw [kComp0_apply]
theorem kInt1_apply : kInt1 y (ix3 b h w) = FloatOps.fptosi 32 (y (ix4 b h w (1 : Fin 2))) := by
  show FloatOps.fptosi 32 (kComp1 y (ix3 b h w)) = _
  rw [kComp1_apply]

/-- The wrap of an index array is the wrap of each word. -/
theorem kWrap_apply (j : S64x256x256.Idx) : kWrap n i j = Cert.Warp.wrap n (i j) := rfl

/-- The batch number at a pixel. -/
theorem kBatch_apply : kBatch (ix3 b h w) = BitVec.ofNat 32 b.val := by
  unfold kBatch
  refine (broadcastInDim_apply _ _ _ _ (ix3 b (0 : Fin 1) (0 : Fin 1))
    (fun a => match a with | ⟨0, _⟩ => rfl | ⟨1, _⟩ => rfl | ⟨2, _⟩ => rfl)).trans ?_
  refine (broadcastInDim_apply _ _ _ _ (ix1 b)
    (fun a => match a with | ⟨0, _⟩ => rfl)).trans ?_
  rfl

/-- The trailing unit axis reads through. -/
theorem kCol_apply (u : Fin 1) : kCol i (ix4 b h w u) = i (ix3 b h w) :=
  broadcastInDim_apply _ _ _ _ (ix3 b h w)
    (fun a => match a with | ⟨0, _⟩ => rfl | ⟨1, _⟩ => rfl | ⟨2, _⟩ => rfl)

/-- The three components of a start index. -/
theorem kIdx_batch : kIdx r c (ix4 b h w (0 : Fin 3)) = Cert.Warp.wrap 64#32 (BitVec.ofNat 32 b.val) := by
  have e := concatenate_apply_piece (α := BitVec 32) (t := S64x256x256x3) (3 : Fin 4)
    [⟨S64x256x256x1, kCol (kWrap 64#32 kBatch)⟩, ⟨S64x256x256x1, kCol (kWrap 256#32 r)⟩,
     ⟨S64x256x256x1, kCol (kWrap 256#32 c)⟩]
    concatenates_S64x256x256x1_S64x256x256x1_S64x256x256x1_S64x256x256x3_d3 (ix4 b h w (0 : Fin 3))
    0 (by simp) S64x256x256x1 (kCol (kWrap 64#32 kBatch)) rfl rfl 0 rfl (ix4 b h w (0 : Fin 1))
    (fun a => match a with
      | ⟨0, _⟩ => fun _ => rfl | ⟨1, _⟩ => fun _ => rfl | ⟨2, _⟩ => fun _ => rfl | ⟨3, _⟩ => fun hn => absurd rfl hn)
    rfl
  exact e.trans (by rw [kCol_apply, kWrap_apply, kBatch_apply])
theorem kIdx_row : kIdx r c (ix4 b h w (1 : Fin 3)) = Cert.Warp.wrap 256#32 (r (ix3 b h w)) := by
  have e := concatenate_apply_piece (α := BitVec 32) (t := S64x256x256x3) (3 : Fin 4)
    [⟨S64x256x256x1, kCol (kWrap 64#32 kBatch)⟩, ⟨S64x256x256x1, kCol (kWrap 256#32 r)⟩,
     ⟨S64x256x256x1, kCol (kWrap 256#32 c)⟩]
    concatenates_S64x256x256x1_S64x256x256x1_S64x256x256x1_S64x256x256x3_d3 (ix4 b h w (1 : Fin 3))
    1 (by simp) S64x256x256x1 (kCol (kWrap 256#32 r)) rfl rfl 1 rfl (ix4 b h w (0 : Fin 1))
    (fun a => match a with
      | ⟨0, _⟩ => fun _ => rfl | ⟨1, _⟩ => fun _ => rfl | ⟨2, _⟩ => fun _ => rfl | ⟨3, _⟩ => fun hn => absurd rfl hn)
    rfl
  exact e.trans (by rw [kCol_apply, kWrap_apply])
theorem kIdx_col : kIdx r c (ix4 b h w (2 : Fin 3)) = Cert.Warp.wrap 256#32 (c (ix3 b h w)) := by
  have e := concatenate_apply_piece (α := BitVec 32) (t := S64x256x256x3) (3 : Fin 4)
    [⟨S64x256x256x1, kCol (kWrap 64#32 kBatch)⟩, ⟨S64x256x256x1, kCol (kWrap 256#32 r)⟩,
     ⟨S64x256x256x1, kCol (kWrap 256#32 c)⟩]
    concatenates_S64x256x256x1_S64x256x256x1_S64x256x256x1_S64x256x256x3_d3 (ix4 b h w (2 : Fin 3))
    2 (by simp) S64x256x256x1 (kCol (kWrap 256#32 c)) rfl rfl 2 rfl (ix4 b h w (0 : Fin 1))
    (fun a => match a with
      | ⟨0, _⟩ => fun _ => rfl | ⟨1, _⟩ => fun _ => rfl | ⟨2, _⟩ => fun _ => rfl | ⟨3, _⟩ => fun hn => absurd rfl hn)
    rfl
  exact e.trans (by rw [kCol_apply, kWrap_apply])

end AtIndex2

/-! ## The gather read at a pixel and a channel -/

section Gather
variable (x : FVec F S64x256x256x3 .f32) (idx : IVec S64x256x256x3 32)
variable (b : Fin 64) (ch : Fin 3) (h w : Fin 256)

local notation "gd" => gather_S64x256x256x3_S64x256x256x3_S64x256x256x3_3_012_n_n_012_3_1113

/-- Where result index `(b, h, w, ch)` reads component `k` of its start index: at `(b, h, w, k)`. -/
theorem gd_siIdx (k : Fin 3) (hk) : (gd).siIdx (ix4 b h w ch) ⟨k.val, hk⟩ = ix4 b h w k := by
  funext a
  refine Fin.ext ?_
  match a with
  | ⟨0, _⟩ => rfl
  | ⟨1, _⟩ => rfl
  | ⟨2, _⟩ => rfl
  | ⟨3, _⟩ => rfl

/-- The operand at the three start words, each read signed and clamped into its axis, and at the channel itself. -/
theorem gather_apply :
    Host.gather gd x idx (ix4 b h w ch)
      = x (ix4 (Cert.Warp.clampIdx 64 (by decide) (idx (ix4 b h w (0 : Fin 3))))
          (Cert.Warp.clampIdx 256 (by decide) (idx (ix4 b h w (1 : Fin 3))))
          (Cert.Warp.clampIdx 256 (by decide) (idx (ix4 b h w (2 : Fin 3)))) ch) := by
  unfold Host.gather
  congr 1
  funext a
  refine Fin.ext ?_
  match a with
  | ⟨0, _⟩ =>
    show (gd).start (ix4 b h w ch) idx 0 + (gd).batchCoord (ix4 b h w ch) 0 + (gd).offCoord (ix4 b h w ch) 0 = _
    rw [GatherDims.batchCoord_eq_zero _ _ _ List.not_mem_nil,
      GatherDims.offCoord_eq_zero _ _ _ (fun hh => ((GatherDims.mem_sKept _ _).mp hh).1 (by decide))]
    simp only [Nat.add_zero]
    unfold GatherDims.start
    rw [dif_pos (show (0 : Fin 4) ∈ (gd).startIndexMap by decide)]
    rw [show (⟨List.idxOf (0 : Fin 4) (gd).startIndexMap, List.idxOf_lt_length_iff.2 (show (0 : Fin 4) ∈ (gd).startIndexMap by decide)⟩ : Fin (gd).startIndexMap.length)
      = ⟨(0 : Fin 3).val, by decide⟩ from rfl, gd_siIdx]
    rfl
  | ⟨1, _⟩ =>
    show (gd).start (ix4 b h w ch) idx 1 + (gd).batchCoord (ix4 b h w ch) 1 + (gd).offCoord (ix4 b h w ch) 1 = _
    rw [GatherDims.batchCoord_eq_zero _ _ _ List.not_mem_nil,
      GatherDims.offCoord_eq_zero _ _ _ (fun hh => ((GatherDims.mem_sKept _ _).mp hh).1 (by decide))]
    simp only [Nat.add_zero]
    unfold GatherDims.start
    rw [dif_pos (show (1 : Fin 4) ∈ (gd).startIndexMap by decide)]
    rw [show (⟨List.idxOf (1 : Fin 4) (gd).startIndexMap, List.idxOf_lt_length_iff.2 (show (1 : Fin 4) ∈ (gd).startIndexMap by decide)⟩ : Fin (gd).startIndexMap.length)
      = ⟨(1 : Fin 3).val, by decide⟩ from rfl, gd_siIdx]
    rfl
  | ⟨2, _⟩ =>
    show (gd).start (ix4 b h w ch) idx 2 + (gd).batchCoord (ix4 b h w ch) 2 + (gd).offCoord (ix4 b h w ch) 2 = _
    rw [GatherDims.batchCoord_eq_zero _ _ _ List.not_mem_nil,
      GatherDims.offCoord_eq_zero _ _ _ (fun hh => ((GatherDims.mem_sKept _ _).mp hh).1 (by decide))]
    simp only [Nat.add_zero]
    unfold GatherDims.start
    rw [dif_pos (show (2 : Fin 4) ∈ (gd).startIndexMap by decide)]
    rw [show (⟨List.idxOf (2 : Fin 4) (gd).startIndexMap, List.idxOf_lt_length_iff.2 (show (2 : Fin 4) ∈ (gd).startIndexMap by decide)⟩ : Fin (gd).startIndexMap.length)
      = ⟨(2 : Fin 3).val, by decide⟩ from rfl, gd_siIdx]
    rfl
  | ⟨3, _⟩ =>
    show (gd).start (ix4 b h w ch) idx 3 + (gd).batchCoord (ix4 b h w ch) 3 + (gd).offCoord (ix4 b h w ch) 3 = _
    rw [GatherDims.batchCoord_eq_zero _ _ _ List.not_mem_nil]
    unfold GatherDims.start
    rw [dif_neg (show (3 : Fin 4) ∉ (gd).startIndexMap by decide)]
    unfold GatherDims.offCoord
    rw [dif_pos (show (3 : Fin 4) ∈ (gd).sKept by decide)]
    show 0 + 0 + ch.val = ch.val
    omega

end Gather

/-! ## The four neighbours and the two fractions at a pixel -/

section Neighbours
variable (x0 : FVec F S64x3x256x256 .f32) (x1 : FVec F S64x2x256x256 .f32) (r c : IVec S64x256x256 32)
variable (y : FVec F S64x256x256x2 .f32)
variable (b : Fin 64) (ch : Fin 3) (h w : Fin 256)

/-- The image in the layout `[64, 256, 256, 3]` read at a pixel and a channel. -/
theorem imgT_apply (B : Fin 64) (R C : Fin 256) :
    transpose S64x256x256x3 [0, 2, 3, 1] x0 transposes_S64x3x256x256_S64x256x256x3_0_2_3_1 (ix4 B R C ch) = x0 (ix4 B ch R C) :=
  transpose_apply _ _ _ _ (ix4 B ch R C) (fun a => match a with | ⟨0, _⟩ => rfl | ⟨1, _⟩ => rfl | ⟨2, _⟩ => rfl | ⟨3, _⟩ => rfl)

/-- The gathered neighbour is the source pixel at the wrapped and clamped words. -/
theorem kGather_apply :
    kGather x0 r c (ix4 b h w ch) = Cert.Warp.pixel x0 b (r (ix3 b h w)) (c (ix3 b h w)) ch := by
  unfold kGather
  rw [gather_apply, imgT_apply, kIdx_batch, kIdx_row, kIdx_col]
  rfl

/-- The same in the layout `[64, 3, 256, 256]`. -/
theorem kWin_apply :
    kWin x0 r c (ix4 b ch h w) = Cert.Warp.pixel x0 b (r (ix3 b h w)) (c (ix3 b h w)) ch := by
  unfold kWin
  refine (transpose_apply _ _ _ _ (ix4 b h w ch) (fun a => match a with | ⟨0, _⟩ => rfl | ⟨1, _⟩ => rfl | ⟨2, _⟩ => rfl | ⟨3, _⟩ => rfl)).trans ?_
  exact kGather_apply x0 r c b ch h w

/-- The fraction of a component: the component less its floor. -/
theorem kFrac0_apply (u : Fin 1) :
    kFrac0 y (ix4 b u h w)
      = FloatOps.subf (y (ix4 b h w (0 : Fin 2))) (FloatOps.hostUnary .floor (y (ix4 b h w (0 : Fin 2)))) := by
  unfold kFrac0
  refine (transpose_apply _ _ _ _ (ix4 b h w u) (fun a => match a with | ⟨0, _⟩ => rfl | ⟨1, _⟩ => rfl | ⟨2, _⟩ => rfl | ⟨3, _⟩ => rfl)).trans ?_
  refine (broadcastInDim_apply _ _ _ _ (ix3 b h w) (fun a => match a with | ⟨0, _⟩ => rfl | ⟨1, _⟩ => rfl | ⟨2, _⟩ => rfl)).trans ?_
  show FloatOps.subf (kComp0 y (ix3 b h w)) (kComp0 (Host.floor y) (ix3 b h w)) = _
  rw [kComp0_apply, kComp0_apply]
  rfl
theorem kFrac1_apply (u : Fin 1) :
    kFrac1 y (ix4 b u h w)
      = FloatOps.subf (y (ix4 b h w (1 : Fin 2))) (FloatOps.hostUnary .floor (y (ix4 b h w (1 : Fin 2)))) := by
  unfold kFrac1
  refine (transpose_apply _ _ _ _ (ix4 b h w u) (fun a => match a with | ⟨0, _⟩ => rfl | ⟨1, _⟩ => rfl | ⟨2, _⟩ => rfl | ⟨3, _⟩ => rfl)).trans ?_
  refine (broadcastInDim_apply _ _ _ _ (ix3 b h w) (fun a => match a with | ⟨0, _⟩ => rfl | ⟨1, _⟩ => rfl | ⟨2, _⟩ => rfl)).trans ?_
  show FloatOps.subf (kComp1 y (ix3 b h w)) (kComp1 (Host.floor y) (ix3 b h w)) = _
  rw [kComp1_apply, kComp1_apply]
  rfl

/-- The integer words of the floor and of the ceiling of the two source coordinates. -/
theorem lo_row : kInt0 (Host.floor (kCoord x1)) (ix3 b h w) = Cert.Warp.lo (Cert.Warp.sRow x1 b h w) := by
  rw [kInt0_apply]
  show FloatOps.fptosi 32 (FloatOps.hostUnary .floor (kCoord x1 (ix4 b h w (0 : Fin 2)))) = _
  rw [kCoord_row]; rfl
theorem lo_col : kInt1 (Host.floor (kCoord x1)) (ix3 b h w) = Cert.Warp.lo (Cert.Warp.sCol x1 b h w) := by
  rw [kInt1_apply]
  show FloatOps.fptosi 32 (FloatOps.hostUnary .floor (kCoord x1 (ix4 b h w (1 : Fin 2)))) = _
  rw [kCoord_col]; rfl
theorem hi_row : kInt0 (Host.ceil (kCoord x1)) (ix3 b h w) = Cert.Warp.hi (Cert.Warp.sRow x1 b h w) := by
  rw [kInt0_apply]
  show FloatOps.fptosi 32 (FloatOps.hostUnary .ceil (kCoord x1 (ix4 b h w (0 : Fin 2)))) = _
  rw [kCoord_row]; rfl
theorem hi_col : kInt1 (Host.ceil (kCoord x1)) (ix3 b h w) = Cert.Warp.hi (Cert.Warp.sCol x1 b h w) := by
  rw [kInt1_apply]
  show FloatOps.fptosi 32 (FloatOps.hostUnary .ceil (kCoord x1 (ix4 b h w (1 : Fin 2)))) = _
  rw [kCoord_col]; rfl

end Neighbours

/-! ## The six arrays as the specification's -/

section Arrays
variable (x0 : FVec F S64x3x256x256 .f32) (x1 : FVec F S64x2x256x256 .f32)

theorem kXLU : kWin x0 (kInt0 (Host.floor (kCoord x1))) (kInt1 (Host.floor (kCoord x1))) = Cert.Warp.XLU x0 x1 := by
  funext j
  obtain ⟨b, ch, h, w, rfl⟩ : ∃ b ch h w, j = ix4 b ch h w := ⟨j 0, j 1, j 2, j 3, eq_ix4 j⟩
  rw [kWin_apply, lo_row, lo_col]
  rfl
theorem kXRB : kWin x0 (kInt0 (Host.ceil (kCoord x1))) (kInt1 (Host.ceil (kCoord x1))) = Cert.Warp.XRB x0 x1 := by
  funext j
  obtain ⟨b, ch, h, w, rfl⟩ : ∃ b ch h w, j = ix4 b ch h w := ⟨j 0, j 1, j 2, j 3, eq_ix4 j⟩
  rw [kWin_apply, hi_row, hi_col]
  rfl
theorem kXLB : kWin x0 (kInt0 (Host.floor (kCoord x1))) (kInt1 (Host.ceil (kCoord x1))) = Cert.Warp.XLB x0 x1 := by
  funext j
  obtain ⟨b, ch, h, w, rfl⟩ : ∃ b ch h w, j = ix4 b ch h w := ⟨j 0, j 1, j 2, j 3, eq_ix4 j⟩
  rw [kWin_apply, lo_row, hi_col]
  rfl
theorem kXRU : kWin x0 (kInt0 (Host.ceil (kCoord x1))) (kInt1 (Host.floor (kCoord x1))) = Cert.Warp.XRU x0 x1 := by
  funext j
  obtain ⟨b, ch, h, w, rfl⟩ : ∃ b ch h w, j = ix4 b ch h w := ⟨j 0, j 1, j 2, j 3, eq_ix4 j⟩
  rw [kWin_apply, hi_row, lo_col]
  rfl
theorem kFX : kFrac0 (kCoord x1) = Cert.Warp.FX x1 := by
  funext j
  obtain ⟨b, u, h, w, rfl⟩ : ∃ b u h w, j = ix4 b u h w := ⟨j 0, j 1, j 2, j 3, eq_ix4 j⟩
  rw [kFrac0_apply, kCoord_row]
  rfl
theorem kFY : kFrac1 (kCoord x1) = Cert.Warp.FY x1 := by
  funext j
  obtain ⟨b, u, h, w, rfl⟩ : ∃ b u h w, j = ix4 b u h w := ⟨j 0, j 1, j 2, j 3, eq_ix4 j⟩
  rw [kFrac1_apply, kCoord_col]
  rfl

end Arrays

/-! ## The six window arrays at the launch of the blend -/

section Windows
variable (m : (ℓ : Loc nD τ sig) → Buf (Elt F) ℓ)

theorem V_v125 (c : Dev nD) : HandFrame.V m c main_v125
    = Cert.Warp.XLU (F := F) (m ((c.tc : Thread nD τ).loc main_arg0)) (m ((c.tc : Thread nD τ).loc main_arg1)) := by
  rw [V_eq, after2_v125, W1_v14, W1_arg0]
  exact kXLU _ _
theorem V_v126 (c : Dev nD) : HandFrame.V m c main_v126
    = Cert.Warp.XRB (F := F) (m ((c.tc : Thread nD τ).loc main_arg0)) (m ((c.tc : Thread nD τ).loc main_arg1)) := by
  rw [V_eq, after2_v126, W1_v14, W1_arg0]
  exact kXRB _ _
theorem V_v127 (c : Dev nD) : HandFrame.V m c main_v127
    = Cert.Warp.XLB (F := F) (m ((c.tc : Thread nD τ).loc main_arg0)) (m ((c.tc : Thread nD τ).loc main_arg1)) := by
  rw [V_eq, after2_v127, W1_v14, W1_arg0]
  exact kXLB _ _
theorem V_v128 (c : Dev nD) : HandFrame.V m c main_v128
    = Cert.Warp.XRU (F := F) (m ((c.tc : Thread nD τ).loc main_arg0)) (m ((c.tc : Thread nD τ).loc main_arg1)) := by
  rw [V_eq, after2_v128, W1_v14, W1_arg0]
  exact kXRU _ _
theorem V_v129 (c : Dev nD) : HandFrame.V m c main_v129
    = Cert.Warp.FX (F := F) (m ((c.tc : Thread nD τ).loc main_arg1)) := by
  rw [V_eq, after2_v129, W1_v14]
  exact kFX _
theorem V_v130 (c : Dev nD) : HandFrame.V m c main_v130
    = Cert.Warp.FY (F := F) (m ((c.tc : Thread nD τ).loc main_arg1)) := by
  rw [V_eq, after2_v130, W1_v14]
  exact kFY _

end Windows

end Cert.KernelIdeal.HostValue

end
-- ==== Proof.KernelValue.lean ====
/-
  The kernel's result array, as one function of the two arguments.

  The output window's block at grid point `t` is the slab of batch rows `4 t … 4 t + 3`; every input window moves with
  it.  What the body stores at an in-block index `(p, ch, h, w)` is the blend of the six input blocks at that index
  (the two fraction blocks at channel 0), and the input blocks are the host prefix's arrays — the four gathered
  neighbours and the two fractions — at batch row `4 t + p`.  So the slab written back at `t` is the warp read through
  the block, the sixteen slabs cover the array, and the array ends holding the warp.
-/
import proofs.«136538_j5866925326584_1_alg».proof.Proof.FrameKernelIdeal
import proofs.«136538_j5866925326584_1_alg».proof.Proof.Warp
import Idealize.ShloMosaic.Lib.Pipeline.Value
import Idealize.ShloMosaic.Lib.ValueLayout

set_option maxRecDepth 16384

noncomputable section

namespace Cert.KernelIdeal.KernelValue

open Cert.KernelIdeal Cert.KernelIdeal.Gen Cert.KernelIdeal.HandFrame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero4 : (![0, 0, 0, 0] : Fin 4 → Nat) = fun _ => 0 := funext fun a => by fin_cases a <;> rfl

/-- A one-channel block broadcast over the three channels, read at an index, is the block at channel 0. -/
theorem bcast_apply (x : Vec Ideal S4x1x256x256 .f32) (p : Fin 4) (ch : Fin 3) (h w : Fin 256) :
    broadcastTo S4x3x256x256 x broadcasts_S4x1x256x256_S4x3x256x256 (ix4 p ch h w) = x (ix4 p 0 h w) :=
  broadcastTo_apply x broadcasts_S4x1x256x256_S4x3x256x256 (ix4 p ch h w) (ix4 p 0 h w) (fun a => by
    match a with
    | ⟨0, _⟩ => rfl
    | ⟨1, _⟩ => rfl
    | ⟨2, _⟩ => rfl
    | ⟨3, _⟩ => rfl)

/-- The body's stored value at an in-block index: the blend of the six loaded blocks there. -/
theorem pay_apply (x0 x1 x2 x3 : Vec Ideal S4x3x256x256 .f32) (x4 x5 : Vec Ideal S4x1x256x256 .f32)
    (p : Fin 4) (ch : Fin 3) (h w : Fin 256) :
    k0_pay1 x0 x1 x2 x3 x4 x5 (ix4 p ch h w)
      = Cert.Warp.mix (x0 (ix4 p ch h w)) (x1 (ix4 p ch h w)) (x2 (ix4 p ch h w)) (x3 (ix4 p ch h w))
          (x4 (ix4 p 0 h w)) (x5 (ix4 p 0 h w)) := by
  unfold k0_pay1 Cert.Warp.mix
  simp only [shapeCast_self, addf, subf, mulf]
  rw [bcast_apply x4, bcast_apply x5]

/-- The printed index maps, decided over the grid: every window's block index is `(t, 0, 0, 0)`. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0)
    ∧ (win0_5.index t (0 : Fin 4) = t.val ∧ win0_5.index t (1 : Fin 4) = 0 ∧ win0_5.index t (2 : Fin 4) = 0 ∧ win0_5.index t (3 : Fin 4) = 0)
    ∧ (win0_6.index t (0 : Fin 4) = t.val ∧ win0_6.index t (1 : Fin 4) = 0 ∧ win0_6.index t (2 : Fin 4) = 0 ∧ win0_6.index t (3 : Fin 4) = 0) :=
  (by decide +kernel : ∀ t : Fin grid0.N, _)

/-- Batch row `4 t + p` of the array. -/
def brow (t : Fin cfg0.N) (p : Fin 4) : Fin 64 := ⟨4 * t.val + p.val, by have ht : t.val < 16 := lt_of_lt_of_eq t.isLt N_0; have := p.isLt; omega⟩

/-- The array index of an in-block index: batch row `4 t + p`, the other coordinates as they are. -/
theorem emb_img (t : Fin cfg0.N) (p : Fin 4) (ch : Fin 3) (h w : Fin 256) :
    ((cfg0.win 6).blk t).view.emb (ix4 p ch h w) = ix4 (brow t p) ch h w := by
  obtain ⟨-, -, -, -, -, -, e0, e1, e2, e3⟩ := idx_facts t
  funext a; apply Fin.ext
  match a with
  | ⟨0, _⟩ => show win0_6.index t (0 : Fin 4) * 4 + 1 * p.val = 4 * t.val + p.val; omega
  | ⟨1, _⟩ => show win0_6.index t (1 : Fin 4) * 3 + 1 * ch.val = ch.val; omega
  | ⟨2, _⟩ => show win0_6.index t (2 : Fin 4) * 256 + 1 * h.val = h.val; omega
  | ⟨3, _⟩ => show win0_6.index t (3 : Fin 4) * 256 + 1 * w.val = w.val; omega

/-- The six input windows' arrays move with the output's: their block at `t`, read at an in-block index, is the array
    at batch row `4 t + p` (the fraction windows at channel 0). -/
theorem iblk_img (c : Dev nD) (t : Fin cfg0.N) (p : Fin 4) (ch : Fin 3) (h w : Fin 256) :
    iblk m c 0 t (ix4 p ch h w) = V m c main_v125 (ix4 (brow t p) ch h w)
    ∧ iblk m c 1 t (ix4 p ch h w) = V m c main_v126 (ix4 (brow t p) ch h w)
    ∧ iblk m c 2 t (ix4 p ch h w) = V m c main_v127 (ix4 (brow t p) ch h w)
    ∧ iblk m c 3 t (ix4 p ch h w) = V m c main_v128 (ix4 (brow t p) ch h w) := by
  obtain ⟨⟨a0, a1, a2, a3⟩, ⟨b0, b1, b2, b3⟩, ⟨c0, c1, c2, c3⟩, ⟨d0, d1, d2, d3⟩, -⟩ := idx_facts t
  refine ⟨?_, ?_, ?_, ?_⟩
  · show V m c main_v125 (((cfg0.win 0).blk t).view.emb (ix4 p ch h w)) = _
    congr 1; funext a; apply Fin.ext
    match a with
    | ⟨0, _⟩ => show win0_0.index t (0 : Fin 4) * 4 + 1 * p.val = 4 * t.val + p.val; omega
    | ⟨1, _⟩ => show win0_0.index t (1 : Fin 4) * 3 + 1 * ch.val = ch.val; omega
    | ⟨2, _⟩ => show win0_0.index t (2 : Fin 4) * 256 + 1 * h.val = h.val; omega
    | ⟨3, _⟩ => show win0_0.index t (3 : Fin 4) * 256 + 1 * w.val = w.val; omega
  · show V m c main_v126 (((cfg0.win 1).blk t).view.emb (ix4 p ch h w)) = _
    congr 1; funext a; apply Fin.ext
    match a with
    | ⟨0, _⟩ => show win0_1.index t (0 : Fin 4) * 4 + 1 * p.val = 4 * t.val + p.val; omega
    | ⟨1, _⟩ => show win0_1.index t (1 : Fin 4) * 3 + 1 * ch.val = ch.val; omega
    | ⟨2, _⟩ => show win0_1.index t (2 : Fin 4) * 256 + 1 * h.val = h.val; omega
    | ⟨3, _⟩ => show win0_1.index t (3 : Fin 4) * 256 + 1 * w.val = w.val; omega
  · show V m c main_v127 (((cfg0.win 2).blk t).view.emb (ix4 p ch h w)) = _
    congr 1; funext a; apply Fin.ext
    match a with
    | ⟨0, _⟩ => show win0_2.index t (0 : Fin 4) * 4 + 1 * p.val = 4 * t.val + p.val; omega
    | ⟨1, _⟩ => show win0_2.index t (1 : Fin 4) * 3 + 1 * ch.val = ch.val; omega
    | ⟨2, _⟩ => show win0_2.index t (2 : Fin 4) * 256 + 1 * h.val = h.val; omega
    | ⟨3, _⟩ => show win0_2.index t (3 : Fin 4) * 256 + 1 * w.val = w.val; omega
  · show V m c main_v128 (((cfg0.win 3).blk t).view.emb (ix4 p ch h w)) = _
    congr 1; funext a; apply Fin.ext
    match a with
    | ⟨0, _⟩ => show win0_3.index t (0 : Fin 4) * 4 + 1 * p.val = 4 * t.val + p.val; omega
    | ⟨1, _⟩ => show win0_3.index t (1 : Fin 4) * 3 + 1 * ch.val = ch.val; omega
    | ⟨2, _⟩ => show win0_3.index t (2 : Fin 4) * 256 + 1 * h.val = h.val; omega
    | ⟨3, _⟩ => show win0_3.index t (3 : Fin 4) * 256 + 1 * w.val = w.val; omega

theorem iblk_frac (c : Dev nD) (t : Fin cfg0.N) (p : Fin 4) (h w : Fin 256) :
    iblk m c 4 t (ix4 p 0 h w) = V m c main_v129 (ix4 (brow t p) 0 h w)
    ∧ iblk m c 5 t (ix4 p 0 h w) = V m c main_v130 (ix4 (brow t p) 0 h w) := by
  obtain ⟨-, -, -, -, ⟨a0, a1, a2, a3⟩, ⟨b0, b1, b2, b3⟩, -⟩ := idx_facts t
  refine ⟨?_, ?_⟩
  · show V m c main_v129 (((cfg0.win 4).blk t).view.emb (ix4 p 0 h w)) = _
    congr 1; funext a; apply Fin.ext
    match a with
    | ⟨0, _⟩ => show win0_4.index t (0 : Fin 4) * 4 + 1 * p.val = 4 * t.val + p.val; omega
    | ⟨1, _⟩ => show win0_4.index t (1 : Fin 4) * 1 + 1 * 0 = 0; omega
    | ⟨2, _⟩ => show win0_4.index t (2 : Fin 4) * 256 + 1 * h.val = h.val; omega
    | ⟨3, _⟩ => show win0_4.index t (3 : Fin 4) * 256 + 1 * w.val = w.val; omega
  · show V m c main_v130 (((cfg0.win 5).blk t).view.emb (ix4 p 0 h w)) = _
    congr 1; funext a; apply Fin.ext
    match a with
    | ⟨0, _⟩ => show win0_5.index t (0 : Fin 4) * 4 + 1 * p.val = 4 * t.val + p.val; omega
    | ⟨1, _⟩ => show win0_5.index t (1 : Fin 4) * 1 + 1 * 0 = 0; omega
    | ⟨2, _⟩ => show win0_5.index t (2 : Fin 4) * 256 + 1 * h.val = h.val; omega
    | ⟨3, _⟩ => show win0_5.index t (3 : Fin 4) * 256 + 1 * w.val = w.val; omega

section Slab

variable (h125 : ∀ c : Dev nD, V m c main_v125 = Cert.Warp.XLU (F := Ideal) (m ((c.tc : Thread nD τ).loc main_arg0)) (m ((c.tc : Thread nD τ).loc main_arg1)))
  (h126 : ∀ c : Dev nD, V m c main_v126 = Cert.Warp.XRB (F := Ideal) (m ((c.tc : Thread nD τ).loc main_arg0)) (m ((c.tc : Thread nD τ).loc main_arg1)))
  (h127 : ∀ c : Dev nD, V m c main_v127 = Cert.Warp.XLB (F := Ideal) (m ((c.tc : Thread nD τ).loc main_arg0)) (m ((c.tc : Thread nD τ).loc main_arg1)))
  (h128 : ∀ c : Dev nD, V m c main_v128 = Cert.Warp.XRU (F := Ideal) (m ((c.tc : Thread nD τ).loc main_arg0)) (m ((c.tc : Thread nD τ).loc main_arg1)))
  (h129 : ∀ c : Dev nD, V m c main_v129 = Cert.Warp.FX (F := Ideal) (m ((c.tc : Thread nD τ).loc main_arg1)))
  (h130 : ∀ c : Dev nD, V m c main_v130 = Cert.Warp.FY (F := Ideal) (m ((c.tc : Thread nD τ).loc main_arg1)))

include h125 h126 h127 h128 h129 h130 in
/-- What the body stores at an in-block index is the warp at the array index it is written back to. -/
theorem slab_apply (c : Dev nD) (t : Fin cfg0.N) (j : S4x3x256x256.Idx) :
    k0_pay1 (iblk m c 0 t) (iblk m c 1 t) (iblk m c 2 t) (iblk m c 3 t) (iblk m c 4 t) (iblk m c 5 t) j
      = Cert.Warp.G (F := Ideal) (m ((c.tc : Thread nD τ).loc main_arg0)) (m ((c.tc : Thread nD τ).loc main_arg1))
          (((cfg0.win 6).blk t).view.emb j) := by
  obtain ⟨p, ch, h, w, rfl⟩ : ∃ (p : Fin 4) (ch : Fin 3) (h w : Fin 256), j = ix4 p ch h w := ⟨j 0, j 1, j 2, j 3, eq_ix4 j⟩
  rw [emb_img t p ch h w]
  obtain ⟨i0, i1, i2, i3⟩ := iblk_img m c t p ch h w
  obtain ⟨i4, i5⟩ := iblk_frac m c t p h w
  refine (pay_apply (iblk m c 0 t) (iblk m c 1 t) (iblk m c 2 t) (iblk m c 3 t) (iblk m c 4 t) (iblk m c 5 t) p ch h w).trans ?_
  rw [i0, i1, i2, i3, i4, i5, h125, h126, h127, h128, h129, h130]
  rfl

include h125 h126 h127 h128 h129 h130 in
/-- What point `t` writes back is block `t` of the warp. -/
theorem flushed_eq (c : Dev nD) (t : Fin cfg0.N) :
    (dats m 0 c).flushed 6 t = ((cfg0.win 6).blk t).view.read (Elt Ideal)
      (Cert.Warp.G (F := Ideal) (m ((c.tc : Thread nD τ).loc main_arg0)) (m ((c.tc : Thread nD τ).loc main_arg1))) := by
  show (cfg0.win 6).cut (grid0.coords t) ((dats m 0 c).after 6 t) = _
  rw [after0_6]
  unfold blend
  rw [View.canon_unit_zero zero4]
  simp only [View.ld_unit_zero (S := S4x3x256x256) zero4, View.ld_unit_zero (S := S4x1x256x256) zero4]
  funext j
  exact slab_apply m h125 h126 h127 h128 h129 h130 c t j

/-- An index of the array is in point `t`'s block iff each coordinate is in the block's range on its axis. -/
theorem mem_blk (t : Fin cfg0.N) (i : S64x3x256x256.Idx) :
    i ∈ ((cfg0.win 6).blk t).view.set ↔ ∀ a : Fin 4, win0_6.index t a * S4x3x256x256.size a ≤ (i a).val
      ∧ (i a).val < win0_6.index t a * S4x3x256x256.size a + S4x3x256x256.size a := by
  show i ∈ ((View.whole main_v131).slice (win0_6.rect t)).set ↔ _
  rw [View.set_slice_whole, Rect.mem_set_unit]
  exact Iff.rfl

/-- The sixteen slabs cover the array: batch row `r` lies in the slab of point `r / 4`. -/
theorem cover (i : S64x3x256x256.Idx) :
    ∃ t : Fin cfg0.N, (cfg0.win 6).flush t = true ∧ i ∈ ((cfg0.win 6).blk t).view.set := by
  have hi0 : (i 0).val < 64 := (i 0).isLt
  have hi1 : (i 1).val < 3 := (i 1).isLt
  have hi2 : (i 2).val < 256 := (i 2).isLt
  have hi3 : (i 3).val < 256 := (i 3).isLt
  have hN : cfg0.N = 16 := N_0
  let t : Fin cfg0.N := ⟨(i 0).val / 4, by rw [hN]; omega⟩
  have htv : t.val = (i 0).val / 4 := rfl
  obtain ⟨-, -, -, -, -, -, e0, e1, e2, e3⟩ := idx_facts t
  refine ⟨t, flush0_6 t, ?_⟩
  rw [mem_blk]
  intro a
  match a with
  | ⟨0, _⟩ => show win0_6.index t (0 : Fin 4) * 4 ≤ (i 0).val ∧ (i 0).val < win0_6.index t (0 : Fin 4) * 4 + 4; omega
  | ⟨1, _⟩ => show win0_6.index t (1 : Fin 4) * 3 ≤ (i 1).val ∧ (i 1).val < win0_6.index t (1 : Fin 4) * 3 + 3; omega
  | ⟨2, _⟩ => show win0_6.index t (2 : Fin 4) * 256 ≤ (i 2).val ∧ (i 2).val < win0_6.index t (2 : Fin 4) * 256 + 256; omega
  | ⟨3, _⟩ => show win0_6.index t (3 : Fin 4) * 256 ≤ (i 3).val ∧ (i 3).val < win0_6.index t (3 : Fin 4) * 256 + 256; omega

include h125 h126 h127 h128 h129 h130 in
/-- The result array after the run is the warp of the two arguments. -/
theorem final (c : Dev nD) : (dats m 0 c).arrAt 6 cfg0.N
    = Cert.Warp.G (F := Ideal) (m ((c.tc : Thread nD τ).loc main_arg0)) (m ((c.tc : Thread nD τ).loc main_arg1)) :=
  (dats m 0 c).arrAt_eq_of_cover 6 _ (fun t _ => flushed_eq m h125 h126 h127 h128 h129 h130 c t) cover

include h125 h126 h127 h128 h129 h130 in
/-- The kernel's run: it terminates with the result array at the warp and the arguments unchanged. -/
theorem run : θ_run defs (onTc (τ := τ) (main (F := Ideal))) ⟨m, fun _ => 0, ρ⟩ fun r => ∀ c : Dev nD,
      r.2.mem ((c.tc : Thread nD τ).loc main_v131)
        = Cert.Warp.G (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 6).trans (final m h125 h126 h127 h128 h129 h130 c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Slab

end Cert.KernelIdeal.KernelValue

end
-- ==== Proof.LibNary3.lean ====
/-
  A host operation over THREE operand references — a concatenation of three pieces — read at its result.

  The library states the result of an n-ary host operation with the operands' contents under a binder
  (`fun k => F (xs k)`), where no further result lemma can rewrite them, and restates it for a literal family of
  four references with each operand's contents at its own reference.  This is the same restatement for a literal
  family of three references, in the plain form for `rw` and in the un-indexed form for `simp`.
-/
import Idealize.ShloMosaic.Lib.StableHlo.Run

namespace Idealize.ShloMosaic.StableHlo

open Idealize.ShloMosaic Idealize.SL.Sem

variable {τ : Topo} {sig : RefSig} {Val : EltTy → Type} {x a b y : Ref sig .tc}

/-- An n-ary operation over the literal family `![x, a, b]`: its result holds the function of the three operands'
    contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for a `simp` pass over a literal list of operations. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.RefRunTac.lean ====
/-
  The three tactics of the reference program's run: how a buffer is read after a stretch of host operations.

  A stretch is a literal list of host operations.  Its fold from any contents, read at a buffer, is computed in one
  pass: an operation's result at the buffer it writes is its function of its operands' contents, and at any other
  buffer it is what was there.  A buffer the stretch writes is then compared with its stage value once the buffers the
  stretch only reads are put at theirs; a buffer it does not write comes out unchanged.
-/
import proofs.«136538_j5866925326584_1_alg».proof.Proof.LibNary3
import Idealize.ShloMosaic.Lib.StableHlo.Run

namespace Cert.ReferenceIdeal.RunHand

open Idealize.ShloMosaic Idealize.ShloMosaic.StableHlo

/-- The fold of a literal list of operations read at a buffer, in one pass over the list: each operation's result at
    its own buffer, and the buffer's earlier contents at every other operation (the two buffers told apart by
    computation).  A concatenation of three operands reads each operand at its own buffer. -/
macro "ref_results" : tactic =>
  `(tactic| (simp (disch := decide) only [StableHlo.after_cons, StableHlo.after_nil,
      StableHlo.nullary_result', StableHlo.unary_result', StableHlo.binary_result', StableHlo.ternary_result',
      StableHlo.reshape_result', StableHlo.nary3_result',
      StableHlo.nullary_result_ne', StableHlo.unary_result_ne', StableHlo.binary_result_ne', StableHlo.ternary_result_ne',
      StableHlo.reshape_result_ne', StableHlo.nary_result_ne']))

/-- A buffer the stretch `s` writes: unfold the stretch, fold it, put the buffers it reads at their stage values
    (the hypotheses `hs`, each rewritten wherever the buffer is read: also inside the operand list of a
    concatenation, whose side condition does not depend on the operands' contents), and compare with the buffer's own
    stage value, whose definition unfolds operation by operation down to those same stage values. -/
syntax "stretch_at " ident " [" term,* "]" : tactic
macro_rules
  | `(tactic| stretch_at $s:ident []) => `(tactic| (simp only [$s:ident]; ref_results; rfl))
  | `(tactic| stretch_at $s:ident [$hs,*]) =>
    `(tactic| (simp only [$s:ident]; ref_results; ($[try rw [$(hs.getElems):term]]*); rfl))

/-- A buffer the stretch `s` does not write: every operation leaves it as it was. -/
macro "stretch_keep " s:ident : tactic => `(tactic| (simp only [$s:ident]; ref_results))

end Cert.ReferenceIdeal.RunHand
-- ==== Proof.RefRunTable.lean ====
/-
  The reference program's list of host operations cut into 12 consecutive stretches, and for each stretch the table of the
  buffers later stretches still read: each is found at its stage value after the stretch (`at<k>_<buffer>`: given that the
  buffers the stretch reads were at theirs) or is not written by the stretch (`keep<k>_<buffer>`).  `Live<k> W x0 x1` says the
  buffers read after stretch k are at their stage values of the arguments x0 (the image) and x1 (the flow); `step<k>` carries it
  across stretch k.  The tactics are those of RefRunTac.lean; the chain over the whole list is RefRun.lean's.
-/
import proofs.«136538_j5866925326584_1_alg».proof.Proof.RefOps
import proofs.«136538_j5866925326584_1_alg».proof.Proof.RefStages
import proofs.«136538_j5866925326584_1_alg».proof.Proof.RefRunTac

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Operations 1 to 28 of the list (through `main_v19`). -/
abbrev s1 : List (HloOp τ sig (Elt F)) :=
  [ unary main_arg0 main_v0 ((transpose S64x256x256x3 [0, 2, 3, 1] · transposes_S64x3x256x256_S64x256x256x3_0_2_3_1) : (⟨S64x3x256x256, .f32⟩ : BufTy).Contents (Elt F) → (⟨S64x256x256x3, .f32⟩ : BufTy).Contents (Elt F)),
    unary main_arg1 main_v1 ((transpose S64x256x256x2 [0, 2, 3, 1] · transposes_S64x2x256x256_S64x256x256x2_0_2_3_1) : (⟨S64x2x256x256, .f32⟩ : BufTy).Contents (Elt F) → (⟨S64x256x256x2, .f32⟩ : BufTy).Contents (Elt F)),
    nullary main_cst (constant S_ .f32 0x43800000#32),
    unary main_cst main_v2 (broadcastInDim S64x256x256x2 ![] bcast_S_S64x256x256x2 : (⟨S_, .f32⟩ : BufTy).Contents (Elt F) → (⟨S64x256x256x2, .f32⟩ : BufTy).Contents (Elt F)),
    binary main_v1 main_v2 main_v3 (mulf : (⟨S64x256x256x2, .f32⟩ : BufTy).Contents (Elt F) → (⟨S64x256x256x2, .f32⟩ : BufTy).Contents (Elt F) → (⟨S64x256x256x2, .f32⟩ : BufTy).Contents (Elt F)),
    reshape main_v3 main_v4 rfl shapeCasts_S64x256x256x2_S64x65536x2,
    nullary main_v5 (iotaInDim S256 32 0),
    nullary main_v6 (iotaInDim S256 32 0),
    unary main_v5 main_v7 (broadcastInDim S256x256 ![0] bcast_S256_S256x256_0 : (⟨S256, .i32⟩ : BufTy).Contents (Elt F) → (⟨S256x256, .i32⟩ : BufTy).Contents (Elt F)),
    unary main_v6 main_v8 (broadcastInDim S256x256 ![1] bcast_S256_S256x256_1 : (⟨S256, .i32⟩ : BufTy).Contents (Elt F) → (⟨S256x256, .i32⟩ : BufTy).Contents (Elt F)),
    unary main_v7 main_v9 (broadcastInDim S256x256x1 ![0, 1] bcast_S256x256_S256x256x1_0_1 : (⟨S256x256, .i32⟩ : BufTy).Contents (Elt F) → (⟨S256x256x1, .i32⟩ : BufTy).Contents (Elt F)),
    unary main_v8 main_v10 (broadcastInDim S256x256x1 ![0, 1] bcast_S256x256_S256x256x1_0_1 : (⟨S256x256, .i32⟩ : BufTy).Contents (Elt F) → (⟨S256x256x1, .i32⟩ : BufTy).Contents (Elt F)),
    binary main_v9 main_v10 main_v11 ((fun a b => concatenate S256x256x2 2 [⟨S256x256x1, a⟩, ⟨S256x256x1, b⟩] concatenates_S256x256x1_S256x256x1_S256x256x2_d2) : (⟨S256x256x1, .i32⟩ : BufTy).Contents (Elt F) → (⟨S256x256x1, .i32⟩ : BufTy).Contents (Elt F) → (⟨S256x256x2, .i32⟩ : BufTy).Contents (Elt F)),
    reshape main_v11 main_v12 rfl shapeCasts_S256x256x2_S65536x2,
    unary main_v12 main_v13 (sitofp .f32 : (⟨S65536x2, .i32⟩ : BufTy).Contents (Elt F) → (⟨S65536x2, .f32⟩ : BufTy).Contents (Elt F)),
    unary main_v13 main_v14 (broadcastInDim S1x65536x2 ![1, 2] bcast_S65536x2_S1x65536x2_1_2 : (⟨S65536x2, .f32⟩ : BufTy).Contents (Elt F) → (⟨S1x65536x2, .f32⟩ : BufTy).Contents (Elt F)),
    unary main_v14 main_v15 (broadcastInDim S64x65536x2 ![0, 1, 2] bcast_S1x65536x2_S64x65536x2_0_1_2 : (⟨S1x65536x2, .f32⟩ : BufTy).Contents (Elt F) → (⟨S64x65536x2, .f32⟩ : BufTy).Contents (Elt F)),
    binary main_v15 main_v4 main_v16 (addf : (⟨S64x65536x2, .f32⟩ : BufTy).Contents (Elt F) → (⟨S64x65536x2, .f32⟩ : BufTy).Contents (Elt F) → (⟨S64x65536x2, .f32⟩ : BufTy).Contents (Elt F)),
    nullary main_cst_0 (constant S_ .f32 0x00000000#32),
    nullary main_c (constantI S_ 32 255#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S64x65536x2, .f32⟩) main_call0_v1) (broadcastInDim S64x65536x2 ![] bcast_S_S64x65536x2),
    TRef.binary (TRef.of (T := ⟨S64x65536x2, .f32⟩) main_call0_v1) (TRef.of (T := ⟨S64x65536x2, .f32⟩) main_v16) (TRef.of (T := ⟨S64x65536x2, .f32⟩) main_call0_v2) maximumf,
    TRef.unary (TRef.of (T := ⟨S_, .i32⟩) main_c) (TRef.of (T := ⟨S_, .f32⟩) main_call0_v3) (sitofp .f32),
    TRef.unary (TRef.of (T := ⟨S_, .f32⟩) main_call0_v3) (TRef.of (T := ⟨S64x65536x2, .f32⟩) main_call0_v4) (broadcastInDim S64x65536x2 ![] bcast_S_S64x65536x2),
    TRef.binary (TRef.of (T := ⟨S64x65536x2, .f32⟩) main_call0_v4) (TRef.of (T := ⟨S64x65536x2, .f32⟩) main_call0_v2) (TRef.of (T := ⟨S64x65536x2, .f32⟩) main_v17) minimumf,
    unary main_v17 main_v18 (Host.floor : (⟨S64x65536x2, .f32⟩ : BufTy).Contents (Elt F) → (⟨S64x65536x2, .f32⟩ : BufTy).Contents (Elt F)),
    unary main_v17 main_v19 (Host.ceil : (⟨S64x65536x2, .f32⟩ : BufTy).Contents (Elt F) → (⟨S64x65536x2, .f32⟩ : BufTy).Contents (Elt F)) ]

/-- Operations 29 to 34 of the list (through `main_v25`). -/
abbrev s2 : List (HloOp τ sig (Elt F)) :=
  [ unary main_v18 main_v20 ((extractStridedSlice S64x65536x1 ![0, 0, 0] · slices_S64x65536x2_S64x65536x1_0_0_0) : (⟨S64x65536x2, .f32⟩ : BufTy).Contents (Elt F) → (⟨S64x65536x1, .f32⟩ : BufTy).Contents (Elt F)),
    reshape main_v20 main_v21 rfl shapeCasts_S64x65536x1_S64x65536,
    unary main_v19 main_v22 ((extractStridedSlice S64x65536x1 ![0, 0, 1] · slices_S64x65536x2_S64x65536x1_0_0_1) : (⟨S64x65536x2, .f32⟩ : BufTy).Contents (Elt F) → (⟨S64x65536x1, .f32⟩ : BufTy).Contents (Elt F)),
    reshape main_v22 main_v23 rfl shapeCasts_S64x65536x1_S64x65536,
    unary main_v21 main_v24 (broadcastInDim S64x65536x1 ![0, 1] bcast_S64x65536_S64x65536x1_0_1 : (⟨S64x65536, .f32⟩ : BufTy).Contents (Elt F) → (⟨S64x65536x1, .f32⟩ : BufTy).Contents (Elt F)),
    unary main_v23 main_v25 (broadcastInDim S64x65536x1 ![0, 1] bcast_S64x65536_S64x65536x1_0_1 : (⟨S64x65536, .f32⟩ : BufTy).Contents (Elt F) → (⟨S64x65536x1, .f32⟩ : BufTy).Contents (Elt F)) ]

/-- Operations 35 to 41 of the list (through `main_v32`). -/
abbrev s3 : List (HloOp τ sig (Elt F)) :=
  [ binary main_v24 main_v25 main_v26 ((fun a b => concatenate S64x65536x2 2 [⟨S64x65536x1, a⟩, ⟨S64x65536x1, b⟩] concatenates_S64x65536x1_S64x65536x1_S64x65536x2_d2) : (⟨S64x65536x1, .f32⟩ : BufTy).Contents (Elt F) → (⟨S64x65536x1, .f32⟩ : BufTy).Contents (Elt F) → (⟨S64x65536x2, .f32⟩ : BufTy).Contents (Elt F)),
    unary main_v19 main_v27 ((extractStridedSlice S64x65536x1 ![0, 0, 0] · slices_S64x65536x2_S64x65536x1_0_0_0) : (⟨S64x65536x2, .f32⟩ : BufTy).Contents (Elt F) → (⟨S64x65536x1, .f32⟩ : BufTy).Contents (Elt F)),
    reshape main_v27 main_v28 rfl shapeCasts_S64x65536x1_S64x65536,
    unary main_v18 main_v29 ((extractStridedSlice S64x65536x1 ![0, 0, 1] · slices_S64x65536x2_S64x65536x1_0_0_1) : (⟨S64x65536x2, .f32⟩ : BufTy).Contents (Elt F) → (⟨S64x65536x1, .f32⟩ : BufTy).Contents (Elt F)),
    reshape main_v29 main_v30 rfl shapeCasts_S64x65536x1_S64x65536,
    unary main_v28 main_v31 (broadcastInDim S64x65536x1 ![0, 1] bcast_S64x65536_S64x65536x1_0_1 : (⟨S64x65536, .f32⟩ : BufTy).Contents (Elt F) → (⟨S64x65536x1, .f32⟩ : BufTy).Contents (Elt F)),
    unary main_v30 main_v32 (broadcastInDim S64x65536x1 ![0, 1] bcast_S64x65536_S64x65536x1_0_1 : (⟨S64x65536, .f32⟩ : BufTy).Contents (Elt F) → (⟨S64x65536x1, .f32⟩ : BufTy).Contents (Elt F)) ]

/-- Operations 42 to 75 of the list (through `main_v60`). -/
abbrev s4 : List (HloOp τ sig (Elt F)) :=
  [ binary main_v31 main_v32 main_v33 ((fun a b => concatenate S64x65536x2 2 [⟨S64x65536x1, a⟩, ⟨S64x65536x1, b⟩] concatenates_S64x65536x1_S64x65536x1_S64x65536x2_d2) : (⟨S64x65536x1, .f32⟩ : BufTy).Contents (Elt F) → (⟨S64x65536x1, .f32⟩ : BufTy).Contents (Elt F) → (⟨S64x65536x2, .f32⟩ : BufTy).Contents (Elt F)),
    nullary main_v34 (iotaInDim S64 32 0),
    unary main_v34 main_v35 (broadcastInDim S64x1 ![0] bcast_S64_S64x1_0 : (⟨S64, .i32⟩ : BufTy).Contents (Elt F) → (⟨S64x1, .i32⟩ : BufTy).Contents (Elt F)),
    unary main_v18 main_v36 ((extractStridedSlice S64x65536x1 ![0, 0, 0] · slices_S64x65536x2_S64x65536x1_0_0_0) : (⟨S64x65536x2, .f32⟩ : BufTy).Contents (Elt F) → (⟨S64x65536x1, .f32⟩ : BufTy).Contents (Elt F)),
    reshape main_v36 main_v37 rfl shapeCasts_S64x65536x1_S64x65536,
    unary main_v37 main_v38 (fptosi 32 : (⟨S64x65536, .f32⟩ : BufTy).Contents (Elt F) → (⟨S64x65536, .i32⟩ : BufTy).Contents (Elt F)),
    unary main_v18 main_v39 ((extractStridedSlice S64x65536x1 ![0, 0, 1] · slices_S64x65536x2_S64x65536x1_0_0_1) : (⟨S64x65536x2, .f32⟩ : BufTy).Contents (Elt F) → (⟨S64x65536x1, .f32⟩ : BufTy).Contents (Elt F)),
    reshape main_v39 main_v40 rfl shapeCasts_S64x65536x1_S64x65536,
    unary main_v40 main_v41 (fptosi 32 : (⟨S64x65536, .f32⟩ : BufTy).Contents (Elt F) → (⟨S64x65536, .i32⟩ : BufTy).Contents (Elt F)),
    nullary main_c_1 (constantI S_ 32 0#32),
    unary main_c_1 main_v42 (broadcastInDim S64x1 ![] bcast_S_S64x1 : (⟨S_, .i32⟩ : BufTy).Contents (Elt F) → (⟨S64x1, .i32⟩ : BufTy).Contents (Elt F)),
    binary main_v35 main_v42 main_v43 (cmpi .slt : (⟨S64x1, .i32⟩ : BufTy).Contents (Elt F) → (⟨S64x1, .i32⟩ : BufTy).Contents (Elt F) → (⟨S64x1, .i1⟩ : BufTy).Contents (Elt F)),
    nullary main_c_2 (constantI S_ 32 64#32),
    unary main_c_2 main_v44 (broadcastInDim S64x1 ![] bcast_S_S64x1 : (⟨S_, .i32⟩ : BufTy).Contents (Elt F) → (⟨S64x1, .i32⟩ : BufTy).Contents (Elt F)),
    binary main_v35 main_v44 main_v45 (addi : (⟨S64x1, .i32⟩ : BufTy).Contents (Elt F) → (⟨S64x1, .i32⟩ : BufTy).Contents (Elt F) → (⟨S64x1, .i32⟩ : BufTy).Contents (Elt F)),
    ternary main_v43 main_v45 main_v35 main_v46 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_3 (constantI S_ 32 0#32),
    unary main_c_3 main_v47 (broadcastInDim S64x65536 ![] bcast_S_S64x65536 : (⟨S_, .i32⟩ : BufTy).Contents (Elt F) → (⟨S64x65536, .i32⟩ : BufTy).Contents (Elt F)),
    binary main_v38 main_v47 main_v48 (cmpi .slt : (⟨S64x65536, .i32⟩ : BufTy).Contents (Elt F) → (⟨S64x65536, .i32⟩ : BufTy).Contents (Elt F) → (⟨S64x65536, .i1⟩ : BufTy).Contents (Elt F)),
    nullary main_c_4 (constantI S_ 32 256#32),
    unary main_c_4 main_v49 (broadcastInDim S64x65536 ![] bcast_S_S64x65536 : (⟨S_, .i32⟩ : BufTy).Contents (Elt F) → (⟨S64x65536, .i32⟩ : BufTy).Contents (Elt F)),
    binary main_v38 main_v49 main_v50 (addi : (⟨S64x65536, .i32⟩ : BufTy).Contents (Elt F) → (⟨S64x65536, .i32⟩ : BufTy).Contents (Elt F) → (⟨S64x65536, .i32⟩ : BufTy).Contents (Elt F)),
    ternary main_v48 main_v50 main_v38 main_v51 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    nullary main_c_5 (constantI S_ 32 0#32),
    unary main_c_5 main_v52 (broadcastInDim S64x65536 ![] bcast_S_S64x65536 : (⟨S_, .i32⟩ : BufTy).Contents (Elt F) → (⟨S64x65536, .i32⟩ : BufTy).Contents (Elt F)),
    binary main_v41 main_v52 main_v53 (cmpi .slt : (⟨S64x65536, .i32⟩ : BufTy).Contents (Elt F) → (⟨S64x65536, .i32⟩ : BufTy).Contents (Elt F) → (⟨S64x65536, .i1⟩ : BufTy).Contents (Elt F)),
    nullary main_c_6 (constantI S_ 32 256#32),
    unary main_c_6 main_v54 (broadcastInDim S64x65536 ![] bcast_S_S64x65536 : (⟨S_, .i32⟩ : BufTy).Contents (Elt F) → (⟨S64x65536, .i32⟩ : BufTy).Contents (Elt F)),
    binary main_v41 main_v54 main_v55 (addi : (⟨S64x65536, .i32⟩ : BufTy).Contents (Elt F) → (⟨S64x65536, .i32⟩ : BufTy).Contents (Elt F) → (⟨S64x65536, .i32⟩ : BufTy).Contents (Elt F)),
    ternary main_v53 main_v55 main_v41 main_v56 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    unary main_v46 main_v57 (broadcastInDim S64x65536 ![0, 1] bcast_S64x1_S64x65536_0_1 : (⟨S64x1, .i32⟩ : BufTy).Contents (Elt F) → (⟨S64x65536, .i32⟩ : BufTy).Contents (Elt F)),
    unary main_v57 main_v58 (broadcastInDim S64x65536x1 ![0, 1] bcast_S64x65536_S64x65536x1_0_1 : (⟨S64x65536, .i32⟩ : BufTy).Contents (Elt F) → (⟨S64x65536x1, .i32⟩ : BufTy).Contents (Elt F)),
    unary main_v51 main_v59 (broadcastInDim S64x65536x1 ![0, 1] bcast_S64x65536_S64x65536x1_0_1 : (⟨S64x65536, .i32⟩ : BufTy).Contents (Elt F) → (⟨S64x65536x1, .i32⟩ : BufTy).Contents (Elt F)),
    unary main_v56 main_v60 (broadcastInDim S64x65536x1 ![0, 1] bcast_S64x65536_S64x65536x1_0_1 : (⟨S64x65536, .i32⟩ : BufTy).Contents (Elt F) → (⟨S64x65536x1, .i32⟩ : BufTy).Contents (Elt F)) ]

/-- Operations 76 to 77 of the list (through `main_v62`). -/
abbrev s5 : List (HloOp τ sig (Elt F)) :=
  [ nary ![main_v58, main_v59, main_v60] main_v61 (fun u => concatenate S64x65536x3 2 [⟨S64x65536x1, u 0⟩, ⟨S64x65536x1, u 1⟩, ⟨S64x65536x1, u 2⟩] concatenates_S64x65536x1_S64x65536x1_S64x65536x1_S64x65536x3_d2),
    binary main_v0 main_v61 main_v62 ((fun x i => Host.gather gather_S64x256x256x3_S64x65536x3_S64x65536x3_2_012_n_n_012_2_1113 x i) : (⟨S64x256x256x3, .f32⟩ : BufTy).Contents (Elt F) → (⟨S64x65536x3, .i32⟩ : BufTy).Contents (Elt F) → (⟨S64x65536x3, .f32⟩ : BufTy).Contents (Elt F)) ]

/-- Operations 78 to 108 of the list (through `main_v87`). -/
abbrev s6 : List (HloOp τ sig (Elt F)) :=
  [ unary main_v19 main_v63 ((extractStridedSlice S64x65536x1 ![0, 0, 0] · slices_S64x65536x2_S64x65536x1_0_0_0) : (⟨S64x65536x2, .f32⟩ : BufTy).Contents (Elt F) → (⟨S64x65536x1, .f32⟩ : BufTy).Contents (Elt F)),
    reshape main_v63 main_v64 rfl shapeCasts_S64x65536x1_S64x65536,
    unary main_v64 main_v65 (fptosi 32 : (⟨S64x65536, .f32⟩ : BufTy).Contents (Elt F) → (⟨S64x65536, .i32⟩ : BufTy).Contents (Elt F)),
    unary main_v19 main_v66 ((extractStridedSlice S64x65536x1 ![0, 0, 1] · slices_S64x65536x2_S64x65536x1_0_0_1) : (⟨S64x65536x2, .f32⟩ : BufTy).Contents (Elt F) → (⟨S64x65536x1, .f32⟩ : BufTy).Contents (Elt F)),
    reshape main_v66 main_v67 rfl shapeCasts_S64x65536x1_S64x65536,
    unary main_v67 main_v68 (fptosi 32 : (⟨S64x65536, .f32⟩ : BufTy).Contents (Elt F) → (⟨S64x65536, .i32⟩ : BufTy).Contents (Elt F)),
    nullary main_c_7 (constantI S_ 32 0#32),
    unary main_c_7 main_v69 (broadcastInDim S64x1 ![] bcast_S_S64x1 : (⟨S_, .i32⟩ : BufTy).Contents (Elt F) → (⟨S64x1, .i32⟩ : BufTy).Contents (Elt F)),
    binary main_v35 main_v69 main_v70 (cmpi .slt : (⟨S64x1, .i32⟩ : BufTy).Contents (Elt F) → (⟨S64x1, .i32⟩ : BufTy).Contents (Elt F) → (⟨S64x1, .i1⟩ : BufTy).Contents (Elt F)),
    nullary main_c_8 (constantI S_ 32 64#32),
    unary main_c_8 main_v71 (broadcastInDim S64x1 ![] bcast_S_S64x1 : (⟨S_, .i32⟩ : BufTy).Contents (Elt F) → (⟨S64x1, .i32⟩ : BufTy).Contents (Elt F)),
    binary main_v35 main_v71 main_v72 (addi : (⟨S64x1, .i32⟩ : BufTy).Contents (Elt F) → (⟨S64x1, .i32⟩ : BufTy).Contents (Elt F) → (⟨S64x1, .i32⟩ : BufTy).Contents (Elt F)),
    ternary main_v70 main_v72 main_v35 main_v73 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_9 (constantI S_ 32 0#32),
    unary main_c_9 main_v74 (broadcastInDim S64x65536 ![] bcast_S_S64x65536 : (⟨S_, .i32⟩ : BufTy).Contents (Elt F) → (⟨S64x65536, .i32⟩ : BufTy).Contents (Elt F)),
    binary main_v65 main_v74 main_v75 (cmpi .slt : (⟨S64x65536, .i32⟩ : BufTy).Contents (Elt F) → (⟨S64x65536, .i32⟩ : BufTy).Contents (Elt F) → (⟨S64x65536, .i1⟩ : BufTy).Contents (Elt F)),
    nullary main_c_10 (constantI S_ 32 256#32),
    unary main_c_10 main_v76 (broadcastInDim S64x65536 ![] bcast_S_S64x65536 : (⟨S_, .i32⟩ : BufTy).Contents (Elt F) → (⟨S64x65536, .i32⟩ : BufTy).Contents (Elt F)),
    binary main_v65 main_v76 main_v77 (addi : (⟨S64x65536, .i32⟩ : BufTy).Contents (Elt F) → (⟨S64x65536, .i32⟩ : BufTy).Contents (Elt F) → (⟨S64x65536, .i32⟩ : BufTy).Contents (Elt F)),
    ternary main_v75 main_v77 main_v65 main_v78 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    nullary main_c_11 (constantI S_ 32 0#32),
    unary main_c_11 main_v79 (broadcastInDim S64x65536 ![] bcast_S_S64x65536 : (⟨S_, .i32⟩ : BufTy).Contents (Elt F) → (⟨S64x65536, .i32⟩ : BufTy).Contents (Elt F)),
    binary main_v68 main_v79 main_v80 (cmpi .slt : (⟨S64x65536, .i32⟩ : BufTy).Contents (Elt F) → (⟨S64x65536, .i32⟩ : BufTy).Contents (Elt F) → (⟨S64x65536, .i1⟩ : BufTy).Contents (Elt F)),
    nullary main_c_12 (constantI S_ 32 256#32),
    unary main_c_12 main_v81 (broadcastInDim S64x65536 ![] bcast_S_S64x65536 : (⟨S_, .i32⟩ : BufTy).Contents (Elt F) → (⟨S64x65536, .i32⟩ : BufTy).Contents (Elt F)),
    binary main_v68 main_v81 main_v82 (addi : (⟨S64x65536, .i32⟩ : BufTy).Contents (Elt F) → (⟨S64x65536, .i32⟩ : BufTy).Contents (Elt F) → (⟨S64x65536, .i32⟩ : BufTy).Contents (Elt F)),
    ternary main_v80 main_v82 main_v68 main_v83 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    unary main_v73 main_v84 (broadcastInDim S64x65536 ![0, 1] bcast_S64x1_S64x65536_0_1 : (⟨S64x1, .i32⟩ : BufTy).Contents (Elt F) → (⟨S64x65536, .i32⟩ : BufTy).Contents (Elt F)),
    unary main_v84 main_v85 (broadcastInDim S64x65536x1 ![0, 1] bcast_S64x65536_S64x65536x1_0_1 : (⟨S64x65536, .i32⟩ : BufTy).Contents (Elt F) → (⟨S64x65536x1, .i32⟩ : BufTy).Contents (Elt F)),
    unary main_v78 main_v86 (broadcastInDim S64x65536x1 ![0, 1] bcast_S64x65536_S64x65536x1_0_1 : (⟨S64x65536, .i32⟩ : BufTy).Contents (Elt F) → (⟨S64x65536x1, .i32⟩ : BufTy).Contents (Elt F)),
    unary main_v83 main_v87 (broadcastInDim S64x65536x1 ![0, 1] bcast_S64x65536_S64x65536x1_0_1 : (⟨S64x65536, .i32⟩ : BufTy).Contents (Elt F) → (⟨S64x65536x1, .i32⟩ : BufTy).Contents (Elt F)) ]

/-- Operations 109 to 110 of the list (through `main_v89`). -/
abbrev s7 : List (HloOp τ sig (Elt F)) :=
  [ nary ![main_v85, main_v86, main_v87] main_v88 (fun u => concatenate S64x65536x3 2 [⟨S64x65536x1, u 0⟩, ⟨S64x65536x1, u 1⟩, ⟨S64x65536x1, u 2⟩] concatenates_S64x65536x1_S64x65536x1_S64x65536x1_S64x65536x3_d2),
    binary main_v0 main_v88 main_v89 ((fun x i => Host.gather gather_S64x256x256x3_S64x65536x3_S64x65536x3_2_012_n_n_012_2_1113 x i) : (⟨S64x256x256x3, .f32⟩ : BufTy).Contents (Elt F) → (⟨S64x65536x3, .i32⟩ : BufTy).Contents (Elt F) → (⟨S64x65536x3, .f32⟩ : BufTy).Contents (Elt F)) ]

/-- Operations 111 to 141 of the list (through `main_v114`). -/
abbrev s8 : List (HloOp τ sig (Elt F)) :=
  [ unary main_v26 main_v90 ((extractStridedSlice S64x65536x1 ![0, 0, 0] · slices_S64x65536x2_S64x65536x1_0_0_0) : (⟨S64x65536x2, .f32⟩ : BufTy).Contents (Elt F) → (⟨S64x65536x1, .f32⟩ : BufTy).Contents (Elt F)),
    reshape main_v90 main_v91 rfl shapeCasts_S64x65536x1_S64x65536,
    unary main_v91 main_v92 (fptosi 32 : (⟨S64x65536, .f32⟩ : BufTy).Contents (Elt F) → (⟨S64x65536, .i32⟩ : BufTy).Contents (Elt F)),
    unary main_v26 main_v93 ((extractStridedSlice S64x65536x1 ![0, 0, 1] · slices_S64x65536x2_S64x65536x1_0_0_1) : (⟨S64x65536x2, .f32⟩ : BufTy).Contents (Elt F) → (⟨S64x65536x1, .f32⟩ : BufTy).Contents (Elt F)),
    reshape main_v93 main_v94 rfl shapeCasts_S64x65536x1_S64x65536,
    unary main_v94 main_v95 (fptosi 32 : (⟨S64x65536, .f32⟩ : BufTy).Contents (Elt F) → (⟨S64x65536, .i32⟩ : BufTy).Contents (Elt F)),
    nullary main_c_13 (constantI S_ 32 0#32),
    unary main_c_13 main_v96 (broadcastInDim S64x1 ![] bcast_S_S64x1 : (⟨S_, .i32⟩ : BufTy).Contents (Elt F) → (⟨S64x1, .i32⟩ : BufTy).Contents (Elt F)),
    binary main_v35 main_v96 main_v97 (cmpi .slt : (⟨S64x1, .i32⟩ : BufTy).Contents (Elt F) → (⟨S64x1, .i32⟩ : BufTy).Contents (Elt F) → (⟨S64x1, .i1⟩ : BufTy).Contents (Elt F)),
    nullary main_c_14 (constantI S_ 32 64#32),
    unary main_c_14 main_v98 (broadcastInDim S64x1 ![] bcast_S_S64x1 : (⟨S_, .i32⟩ : BufTy).Contents (Elt F) → (⟨S64x1, .i32⟩ : BufTy).Contents (Elt F)),
    binary main_v35 main_v98 main_v99 (addi : (⟨S64x1, .i32⟩ : BufTy).Contents (Elt F) → (⟨S64x1, .i32⟩ : BufTy).Contents (Elt F) → (⟨S64x1, .i32⟩ : BufTy).Contents (Elt F)),
    ternary main_v97 main_v99 main_v35 main_v100 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_15 (constantI S_ 32 0#32),
    unary main_c_15 main_v101 (broadcastInDim S64x65536 ![] bcast_S_S64x65536 : (⟨S_, .i32⟩ : BufTy).Contents (Elt F) → (⟨S64x65536, .i32⟩ : BufTy).Contents (Elt F)),
    binary main_v92 main_v101 main_v102 (cmpi .slt : (⟨S64x65536, .i32⟩ : BufTy).Contents (Elt F) → (⟨S64x65536, .i32⟩ : BufTy).Contents (Elt F) → (⟨S64x65536, .i1⟩ : BufTy).Contents (Elt F)),
    nullary main_c_16 (constantI S_ 32 256#32),
    unary main_c_16 main_v103 (broadcastInDim S64x65536 ![] bcast_S_S64x65536 : (⟨S_, .i32⟩ : BufTy).Contents (Elt F) → (⟨S64x65536, .i32⟩ : BufTy).Contents (Elt F)),
    binary main_v92 main_v103 main_v104 (addi : (⟨S64x65536, .i32⟩ : BufTy).Contents (Elt F) → (⟨S64x65536, .i32⟩ : BufTy).Contents (Elt F) → (⟨S64x65536, .i32⟩ : BufTy).Contents (Elt F)),
    ternary main_v102 main_v104 main_v92 main_v105 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    nullary main_c_17 (constantI S_ 32 0#32),
    unary main_c_17 main_v106 (broadcastInDim S64x65536 ![] bcast_S_S64x65536 : (⟨S_, .i32⟩ : BufTy).Contents (Elt F) → (⟨S64x65536, .i32⟩ : BufTy).Contents (Elt F)),
    binary main_v95 main_v106 main_v107 (cmpi .slt : (⟨S64x65536, .i32⟩ : BufTy).Contents (Elt F) → (⟨S64x65536, .i32⟩ : BufTy).Contents (Elt F) → (⟨S64x65536, .i1⟩ : BufTy).Contents (Elt F)),
    nullary main_c_18 (constantI S_ 32 256#32),
    unary main_c_18 main_v108 (broadcastInDim S64x65536 ![] bcast_S_S64x65536 : (⟨S_, .i32⟩ : BufTy).Contents (Elt F) → (⟨S64x65536, .i32⟩ : BufTy).Contents (Elt F)),
    binary main_v95 main_v108 main_v109 (addi : (⟨S64x65536, .i32⟩ : BufTy).Contents (Elt F) → (⟨S64x65536, .i32⟩ : BufTy).Contents (Elt F) → (⟨S64x65536, .i32⟩ : BufTy).Contents (Elt F)),
    ternary main_v107 main_v109 main_v95 main_v110 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    unary main_v100 main_v111 (broadcastInDim S64x65536 ![0, 1] bcast_S64x1_S64x65536_0_1 : (⟨S64x1, .i32⟩ : BufTy).Contents (Elt F) → (⟨S64x65536, .i32⟩ : BufTy).Contents (Elt F)),
    unary main_v111 main_v112 (broadcastInDim S64x65536x1 ![0, 1] bcast_S64x65536_S64x65536x1_0_1 : (⟨S64x65536, .i32⟩ : BufTy).Contents (Elt F) → (⟨S64x65536x1, .i32⟩ : BufTy).Contents (Elt F)),
    unary main_v105 main_v113 (broadcastInDim S64x65536x1 ![0, 1] bcast_S64x65536_S64x65536x1_0_1 : (⟨S64x65536, .i32⟩ : BufTy).Contents (Elt F) → (⟨S64x65536x1, .i32⟩ : BufTy).Contents (Elt F)),
    unary main_v110 main_v114 (broadcastInDim S64x65536x1 ![0, 1] bcast_S64x65536_S64x65536x1_0_1 : (⟨S64x65536, .i32⟩ : BufTy).Contents (Elt F) → (⟨S64x65536x1, .i32⟩ : BufTy).Contents (Elt F)) ]

/-- Operations 142 to 143 of the list (through `main_v116`). -/
abbrev s9 : List (HloOp τ sig (Elt F)) :=
  [ nary ![main_v112, main_v113, main_v114] main_v115 (fun u => concatenate S64x65536x3 2 [⟨S64x65536x1, u 0⟩, ⟨S64x65536x1, u 1⟩, ⟨S64x65536x1, u 2⟩] concatenates_S64x65536x1_S64x65536x1_S64x65536x1_S64x65536x3_d2),
    binary main_v0 main_v115 main_v116 ((fun x i => Host.gather gather_S64x256x256x3_S64x65536x3_S64x65536x3_2_012_n_n_012_2_1113 x i) : (⟨S64x256x256x3, .f32⟩ : BufTy).Contents (Elt F) → (⟨S64x65536x3, .i32⟩ : BufTy).Contents (Elt F) → (⟨S64x65536x3, .f32⟩ : BufTy).Contents (Elt F)) ]

/-- Operations 144 to 174 of the list (through `main_v141`). -/
abbrev s10 : List (HloOp τ sig (Elt F)) :=
  [ unary main_v33 main_v117 ((extractStridedSlice S64x65536x1 ![0, 0, 0] · slices_S64x65536x2_S64x65536x1_0_0_0) : (⟨S64x65536x2, .f32⟩ : BufTy).Contents (Elt F) → (⟨S64x65536x1, .f32⟩ : BufTy).Contents (Elt F)),
    reshape main_v117 main_v118 rfl shapeCasts_S64x65536x1_S64x65536,
    unary main_v118 main_v119 (fptosi 32 : (⟨S64x65536, .f32⟩ : BufTy).Contents (Elt F) → (⟨S64x65536, .i32⟩ : BufTy).Contents (Elt F)),
    unary main_v33 main_v120 ((extractStridedSlice S64x65536x1 ![0, 0, 1] · slices_S64x65536x2_S64x65536x1_0_0_1) : (⟨S64x65536x2, .f32⟩ : BufTy).Contents (Elt F) → (⟨S64x65536x1, .f32⟩ : BufTy).Contents (Elt F)),
    reshape main_v120 main_v121 rfl shapeCasts_S64x65536x1_S64x65536,
    unary main_v121 main_v122 (fptosi 32 : (⟨S64x65536, .f32⟩ : BufTy).Contents (Elt F) → (⟨S64x65536, .i32⟩ : BufTy).Contents (Elt F)),
    nullary main_c_19 (constantI S_ 32 0#32),
    unary main_c_19 main_v123 (broadcastInDim S64x1 ![] bcast_S_S64x1 : (⟨S_, .i32⟩ : BufTy).Contents (Elt F) → (⟨S64x1, .i32⟩ : BufTy).Contents (Elt F)),
    binary main_v35 main_v123 main_v124 (cmpi .slt : (⟨S64x1, .i32⟩ : BufTy).Contents (Elt F) → (⟨S64x1, .i32⟩ : BufTy).Contents (Elt F) → (⟨S64x1, .i1⟩ : BufTy).Contents (Elt F)),
    nullary main_c_20 (constantI S_ 32 64#32),
    unary main_c_20 main_v125 (broadcastInDim S64x1 ![] bcast_S_S64x1 : (⟨S_, .i32⟩ : BufTy).Contents (Elt F) → (⟨S64x1, .i32⟩ : BufTy).Contents (Elt F)),
    binary main_v35 main_v125 main_v126 (addi : (⟨S64x1, .i32⟩ : BufTy).Contents (Elt F) → (⟨S64x1, .i32⟩ : BufTy).Contents (Elt F) → (⟨S64x1, .i32⟩ : BufTy).Contents (Elt F)),
    ternary main_v124 main_v126 main_v35 main_v127 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_21 (constantI S_ 32 0#32),
    unary main_c_21 main_v128 (broadcastInDim S64x65536 ![] bcast_S_S64x65536 : (⟨S_, .i32⟩ : BufTy).Contents (Elt F) → (⟨S64x65536, .i32⟩ : BufTy).Contents (Elt F)),
    binary main_v119 main_v128 main_v129 (cmpi .slt : (⟨S64x65536, .i32⟩ : BufTy).Contents (Elt F) → (⟨S64x65536, .i32⟩ : BufTy).Contents (Elt F) → (⟨S64x65536, .i1⟩ : BufTy).Contents (Elt F)),
    nullary main_c_22 (constantI S_ 32 256#32),
    unary main_c_22 main_v130 (broadcastInDim S64x65536 ![] bcast_S_S64x65536 : (⟨S_, .i32⟩ : BufTy).Contents (Elt F) → (⟨S64x65536, .i32⟩ : BufTy).Contents (Elt F)),
    binary main_v119 main_v130 main_v131 (addi : (⟨S64x65536, .i32⟩ : BufTy).Contents (Elt F) → (⟨S64x65536, .i32⟩ : BufTy).Contents (Elt F) → (⟨S64x65536, .i32⟩ : BufTy).Contents (Elt F)),
    ternary main_v129 main_v131 main_v119 main_v132 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    nullary main_c_23 (constantI S_ 32 0#32),
    unary main_c_23 main_v133 (broadcastInDim S64x65536 ![] bcast_S_S64x65536 : (⟨S_, .i32⟩ : BufTy).Contents (Elt F) → (⟨S64x65536, .i32⟩ : BufTy).Contents (Elt F)),
    binary main_v122 main_v133 main_v134 (cmpi .slt : (⟨S64x65536, .i32⟩ : BufTy).Contents (Elt F) → (⟨S64x65536, .i32⟩ : BufTy).Contents (Elt F) → (⟨S64x65536, .i1⟩ : BufTy).Contents (Elt F)),
    nullary main_c_24 (constantI S_ 32 256#32),
    unary main_c_24 main_v135 (broadcastInDim S64x65536 ![] bcast_S_S64x65536 : (⟨S_, .i32⟩ : BufTy).Contents (Elt F) → (⟨S64x65536, .i32⟩ : BufTy).Contents (Elt F)),
    binary main_v122 main_v135 main_v136 (addi : (⟨S64x65536, .i32⟩ : BufTy).Contents (Elt F) → (⟨S64x65536, .i32⟩ : BufTy).Contents (Elt F) → (⟨S64x65536, .i32⟩ : BufTy).Contents (Elt F)),
    ternary main_v134 main_v136 main_v122 main_v137 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    unary main_v127 main_v138 (broadcastInDim S64x65536 ![0, 1] bcast_S64x1_S64x65536_0_1 : (⟨S64x1, .i32⟩ : BufTy).Contents (Elt F) → (⟨S64x65536, .i32⟩ : BufTy).Contents (Elt F)),
    unary main_v138 main_v139 (broadcastInDim S64x65536x1 ![0, 1] bcast_S64x65536_S64x65536x1_0_1 : (⟨S64x65536, .i32⟩ : BufTy).Contents (Elt F) → (⟨S64x65536x1, .i32⟩ : BufTy).Contents (Elt F)),
    unary main_v132 main_v140 (broadcastInDim S64x65536x1 ![0, 1] bcast_S64x65536_S64x65536x1_0_1 : (⟨S64x65536, .i32⟩ : BufTy).Contents (Elt F) → (⟨S64x65536x1, .i32⟩ : BufTy).Contents (Elt F)),
    unary main_v137 main_v141 (broadcastInDim S64x65536x1 ![0, 1] bcast_S64x65536_S64x65536x1_0_1 : (⟨S64x65536, .i32⟩ : BufTy).Contents (Elt F) → (⟨S64x65536x1, .i32⟩ : BufTy).Contents (Elt F)) ]

/-- Operations 175 to 176 of the list (through `main_v143`). -/
abbrev s11 : List (HloOp τ sig (Elt F)) :=
  [ nary ![main_v139, main_v140, main_v141] main_v142 (fun u => concatenate S64x65536x3 2 [⟨S64x65536x1, u 0⟩, ⟨S64x65536x1, u 1⟩, ⟨S64x65536x1, u 2⟩] concatenates_S64x65536x1_S64x65536x1_S64x65536x1_S64x65536x3_d2),
    binary main_v0 main_v142 main_v143 ((fun x i => Host.gather gather_S64x256x256x3_S64x65536x3_S64x65536x3_2_012_n_n_012_2_1113 x i) : (⟨S64x256x256x3, .f32⟩ : BufTy).Contents (Elt F) → (⟨S64x65536x3, .i32⟩ : BufTy).Contents (Elt F) → (⟨S64x65536x3, .f32⟩ : BufTy).Contents (Elt F)) ]

/-- Operations 177 to 193 of the list (through `main_v160`). -/
abbrev s12 : List (HloOp τ sig (Elt F)) :=
  [ binary main_v17 main_v18 main_v144 (subf : (⟨S64x65536x2, .f32⟩ : BufTy).Contents (Elt F) → (⟨S64x65536x2, .f32⟩ : BufTy).Contents (Elt F) → (⟨S64x65536x2, .f32⟩ : BufTy).Contents (Elt F)),
    unary main_v144 main_v145 ((extractStridedSlice S64x65536x1 ![0, 0, 0] · slices_S64x65536x2_S64x65536x1_0_0_0) : (⟨S64x65536x2, .f32⟩ : BufTy).Contents (Elt F) → (⟨S64x65536x1, .f32⟩ : BufTy).Contents (Elt F)),
    unary main_v144 main_v146 ((extractStridedSlice S64x65536x1 ![0, 0, 1] · slices_S64x65536x2_S64x65536x1_0_0_1) : (⟨S64x65536x2, .f32⟩ : BufTy).Contents (Elt F) → (⟨S64x65536x1, .f32⟩ : BufTy).Contents (Elt F)),
    binary main_v143 main_v62 main_v147 (subf : (⟨S64x65536x3, .f32⟩ : BufTy).Contents (Elt F) → (⟨S64x65536x3, .f32⟩ : BufTy).Contents (Elt F) → (⟨S64x65536x3, .f32⟩ : BufTy).Contents (Elt F)),
    unary main_v145 main_v148 (broadcastInDim S64x65536x3 ![0, 1, 2] bcast_S64x65536x1_S64x65536x3_0_1_2 : (⟨S64x65536x1, .f32⟩ : BufTy).Contents (Elt F) → (⟨S64x65536x3, .f32⟩ : BufTy).Contents (Elt F)),
    binary main_v147 main_v148 main_v149 (mulf : (⟨S64x65536x3, .f32⟩ : BufTy).Contents (Elt F) → (⟨S64x65536x3, .f32⟩ : BufTy).Contents (Elt F) → (⟨S64x65536x3, .f32⟩ : BufTy).Contents (Elt F)),
    binary main_v62 main_v149 main_v150 (addf : (⟨S64x65536x3, .f32⟩ : BufTy).Contents (Elt F) → (⟨S64x65536x3, .f32⟩ : BufTy).Contents (Elt F) → (⟨S64x65536x3, .f32⟩ : BufTy).Contents (Elt F)),
    binary main_v89 main_v116 main_v151 (subf : (⟨S64x65536x3, .f32⟩ : BufTy).Contents (Elt F) → (⟨S64x65536x3, .f32⟩ : BufTy).Contents (Elt F) → (⟨S64x65536x3, .f32⟩ : BufTy).Contents (Elt F)),
    unary main_v145 main_v152 (broadcastInDim S64x65536x3 ![0, 1, 2] bcast_S64x65536x1_S64x65536x3_0_1_2 : (⟨S64x65536x1, .f32⟩ : BufTy).Contents (Elt F) → (⟨S64x65536x3, .f32⟩ : BufTy).Contents (Elt F)),
    binary main_v151 main_v152 main_v153 (mulf : (⟨S64x65536x3, .f32⟩ : BufTy).Contents (Elt F) → (⟨S64x65536x3, .f32⟩ : BufTy).Contents (Elt F) → (⟨S64x65536x3, .f32⟩ : BufTy).Contents (Elt F)),
    binary main_v116 main_v153 main_v154 (addf : (⟨S64x65536x3, .f32⟩ : BufTy).Contents (Elt F) → (⟨S64x65536x3, .f32⟩ : BufTy).Contents (Elt F) → (⟨S64x65536x3, .f32⟩ : BufTy).Contents (Elt F)),
    binary main_v154 main_v150 main_v155 (subf : (⟨S64x65536x3, .f32⟩ : BufTy).Contents (Elt F) → (⟨S64x65536x3, .f32⟩ : BufTy).Contents (Elt F) → (⟨S64x65536x3, .f32⟩ : BufTy).Contents (Elt F)),
    unary main_v146 main_v156 (broadcastInDim S64x65536x3 ![0, 1, 2] bcast_S64x65536x1_S64x65536x3_0_1_2 : (⟨S64x65536x1, .f32⟩ : BufTy).Contents (Elt F) → (⟨S64x65536x3, .f32⟩ : BufTy).Contents (Elt F)),
    binary main_v155 main_v156 main_v157 (mulf : (⟨S64x65536x3, .f32⟩ : BufTy).Contents (Elt F) → (⟨S64x65536x3, .f32⟩ : BufTy).Contents (Elt F) → (⟨S64x65536x3, .f32⟩ : BufTy).Contents (Elt F)),
    binary main_v150 main_v157 main_v158 (addf : (⟨S64x65536x3, .f32⟩ : BufTy).Contents (Elt F) → (⟨S64x65536x3, .f32⟩ : BufTy).Contents (Elt F) → (⟨S64x65536x3, .f32⟩ : BufTy).Contents (Elt F)),
    reshape main_v158 main_v159 rfl shapeCasts_S64x65536x3_S64x256x256x3,
    unary main_v159 main_v160 ((transpose S64x3x256x256 [0, 3, 1, 2] · transposes_S64x256x256x3_S64x3x256x256_0_3_1_2) : (⟨S64x256x256x3, .f32⟩ : BufTy).Contents (Elt F) → (⟨S64x3x256x256, .f32⟩ : BufTy).Contents (Elt F)) ]

set_option maxRecDepth 8192 in
set_option maxHeartbeats 4000000 in
/-- The list is its stretches in a row. -/
theorem ops_eq : (ops : List (HloOp τ sig (Elt F))) = s1 ++ (s2 ++ (s3 ++ (s4 ++ (s5 ++ (s6 ++ (s7 ++ (s8 ++ (s9 ++ (s10 ++ (s11 ++ (s12))))))))))) := rfl

/-- After stretch 1: the buffers still read later are at their stage values. -/
def Live1 (W : Valuation τ sig (Elt F)) (x0 : (⟨S64x3x256x256, .f32⟩ : BufTy).Contents (Elt F)) (x1 : (⟨S64x2x256x256, .f32⟩ : BufTy).Contents (Elt F)) : Prop :=
  W main_v0 = val_main_v0 (F := F) x0 ∧
  W main_v17 = val_main_v17 (F := F) x1 ∧
  W main_v18 = val_main_v18 (F := F) x1 ∧
  W main_v19 = val_main_v19 (F := F) x1

set_option maxRecDepth 8192 in
set_option maxHeartbeats 4000000 in
theorem at1_main_v0 (W : Valuation τ sig (Elt F)) :
    StableHlo.after (s1 (F := F)) W main_v0 = val_main_v0 (F := F) (W main_arg0) := by
  stretch_at s1 []

set_option maxRecDepth 8192 in
set_option maxHeartbeats 4000000 in
theorem at1_main_v17 (W : Valuation τ sig (Elt F)) :
    StableHlo.after (s1 (F := F)) W main_v17 = val_main_v17 (F := F) (W main_arg1) := by
  stretch_at s1 []

set_option maxRecDepth 8192 in
set_option maxHeartbeats 4000000 in
theorem at1_main_v18 (W : Valuation τ sig (Elt F)) :
    StableHlo.after (s1 (F := F)) W main_v18 = val_main_v18 (F := F) (W main_arg1) := by
  stretch_at s1 []

set_option maxRecDepth 8192 in
set_option maxHeartbeats 4000000 in
theorem at1_main_v19 (W : Valuation τ sig (Elt F)) :
    StableHlo.after (s1 (F := F)) W main_v19 = val_main_v19 (F := F) (W main_arg1) := by
  stretch_at s1 []

/-- Stretch 1, from any contents: the arguments are read where the list starts. -/
theorem step1 (W : Valuation τ sig (Elt F)) : Live1 (StableHlo.after (s1 (F := F)) W) (W main_arg0) (W main_arg1) :=
  ⟨at1_main_v0 W, at1_main_v17 W, at1_main_v18 W, at1_main_v19 W⟩

/-- After stretch 2: the buffers still read later are at their stage values. -/
def Live2 (W : Valuation τ sig (Elt F)) (x0 : (⟨S64x3x256x256, .f32⟩ : BufTy).Contents (Elt F)) (x1 : (⟨S64x2x256x256, .f32⟩ : BufTy).Contents (Elt F)) : Prop :=
  W main_v0 = val_main_v0 (F := F) x0 ∧
  W main_v17 = val_main_v17 (F := F) x1 ∧
  W main_v18 = val_main_v18 (F := F) x1 ∧
  W main_v19 = val_main_v19 (F := F) x1 ∧
  W main_v24 = val_main_v24 (F := F) x1 ∧
  W main_v25 = val_main_v25 (F := F) x1

set_option maxRecDepth 8192 in
set_option maxHeartbeats 4000000 in
theorem keep2_main_v0 (W : Valuation τ sig (Elt F)) : StableHlo.after (s2 (F := F)) W main_v0 = W main_v0 := by
  stretch_keep s2

set_option maxRecDepth 8192 in
set_option maxHeartbeats 4000000 in
theorem keep2_main_v17 (W : Valuation τ sig (Elt F)) : StableHlo.after (s2 (F := F)) W main_v17 = W main_v17 := by
  stretch_keep s2

set_option maxRecDepth 8192 in
set_option maxHeartbeats 4000000 in
theorem keep2_main_v18 (W : Valuation τ sig (Elt F)) : StableHlo.after (s2 (F := F)) W main_v18 = W main_v18 := by
  stretch_keep s2

set_option maxRecDepth 8192 in
set_option maxHeartbeats 4000000 in
theorem keep2_main_v19 (W : Valuation τ sig (Elt F)) : StableHlo.after (s2 (F := F)) W main_v19 = W main_v19 := by
  stretch_keep s2

set_option maxRecDepth 8192 in
set_option maxHeartbeats 4000000 in
theorem at2_main_v24 (W : Valuation τ sig (Elt F)) (x0 : (⟨S64x3x256x256, .f32⟩ : BufTy).Contents (Elt F)) (x1 : (⟨S64x2x256x256, .f32⟩ : BufTy).Contents (Elt F)) (h_main_v18 : W main_v18 = val_main_v18 (F := F) x1) :
    StableHlo.after (s2 (F := F)) W main_v24 = val_main_v24 (F := F) x1 := by
  stretch_at s2 [h_main_v18]

set_option maxRecDepth 8192 in
set_option maxHeartbeats 4000000 in
theorem at2_main_v25 (W : Valuation τ sig (Elt F)) (x0 : (⟨S64x3x256x256, .f32⟩ : BufTy).Contents (Elt F)) (x1 : (⟨S64x2x256x256, .f32⟩ : BufTy).Contents (Elt F)) (h_main_v19 : W main_v19 = val_main_v19 (F := F) x1) :
    StableHlo.after (s2 (F := F)) W main_v25 = val_main_v25 (F := F) x1 := by
  stretch_at s2 [h_main_v19]

/-- Stretch 2 carries the live buffers' values across. -/
theorem step2 (W : Valuation τ sig (Elt F)) (x0 : (⟨S64x3x256x256, .f32⟩ : BufTy).Contents (Elt F)) (x1 : (⟨S64x2x256x256, .f32⟩ : BufTy).Contents (Elt F)) (h : Live1 W x0 x1) :
    Live2 (StableHlo.after (s2 (F := F)) W) x0 x1 := by
  obtain ⟨h_main_v0, h_main_v17, h_main_v18, h_main_v19⟩ := h
  exact ⟨(keep2_main_v0 W).trans h_main_v0, (keep2_main_v17 W).trans h_main_v17, (keep2_main_v18 W).trans h_main_v18, (keep2_main_v19 W).trans h_main_v19, at2_main_v24 W x0 x1 h_main_v18, at2_main_v25 W x0 x1 h_main_v19⟩

/-- After stretch 3: the buffers still read later are at their stage values. -/
def Live3 (W : Valuation τ sig (Elt F)) (x0 : (⟨S64x3x256x256, .f32⟩ : BufTy).Contents (Elt F)) (x1 : (⟨S64x2x256x256, .f32⟩ : BufTy).Contents (Elt F)) : Prop :=
  W main_v0 = val_main_v0 (F := F) x0 ∧
  W main_v17 = val_main_v17 (F := F) x1 ∧
  W main_v18 = val_main_v18 (F := F) x1 ∧
  W main_v19 = val_main_v19 (F := F) x1 ∧
  W main_v26 = val_main_v26 (F := F) x1 ∧
  W main_v31 = val_main_v31 (F := F) x1 ∧
  W main_v32 = val_main_v32 (F := F) x1

set_option maxRecDepth 8192 in
set_option maxHeartbeats 4000000 in
theorem keep3_main_v0 (W : Valuation τ sig (Elt F)) : StableHlo.after (s3 (F := F)) W main_v0 = W main_v0 := by
  stretch_keep s3

set_option maxRecDepth 8192 in
set_option maxHeartbeats 4000000 in
theorem keep3_main_v17 (W : Valuation τ sig (Elt F)) : StableHlo.after (s3 (F := F)) W main_v17 = W main_v17 := by
  stretch_keep s3

set_option maxRecDepth 8192 in
set_option maxHeartbeats 4000000 in
theorem keep3_main_v18 (W : Valuation τ sig (Elt F)) : StableHlo.after (s3 (F := F)) W main_v18 = W main_v18 := by
  stretch_keep s3

set_option maxRecDepth 8192 in
set_option maxHeartbeats 4000000 in
theorem keep3_main_v19 (W : Valuation τ sig (Elt F)) : StableHlo.after (s3 (F := F)) W main_v19 = W main_v19 := by
  stretch_keep s3

set_option maxRecDepth 8192 in
set_option maxHeartbeats 4000000 in
theorem at3_main_v26 (W : Valuation τ sig (Elt F)) (x0 : (⟨S64x3x256x256, .f32⟩ : BufTy).Contents (Elt F)) (x1 : (⟨S64x2x256x256, .f32⟩ : BufTy).Contents (Elt F)) (h_main_v24 : W main_v24 = val_main_v24 (F := F) x1) (h_main_v25 : W main_v25 = val_main_v25 (F := F) x1) :
    StableHlo.after (s3 (F := F)) W main_v26 = val_main_v26 (F := F) x1 := by
  stretch_at s3 [h_main_v24, h_main_v25]

set_option maxRecDepth 8192 in
set_option maxHeartbeats 4000000 in
theorem at3_main_v31 (W : Valuation τ sig (Elt F)) (x0 : (⟨S64x3x256x256, .f32⟩ : BufTy).Contents (Elt F)) (x1 : (⟨S64x2x256x256, .f32⟩ : BufTy).Contents (Elt F)) (h_main_v19 : W main_v19 = val_main_v19 (F := F) x1) :
    StableHlo.after (s3 (F := F)) W main_v31 = val_main_v31 (F := F) x1 := by
  stretch_at s3 [h_main_v19]

set_option maxRecDepth 8192 in
set_option maxHeartbeats 4000000 in
theorem at3_main_v32 (W : Valuation τ sig (Elt F)) (x0 : (⟨S64x3x256x256, .f32⟩ : BufTy).Contents (Elt F)) (x1 : (⟨S64x2x256x256, .f32⟩ : BufTy).Contents (Elt F)) (h_main_v18 : W main_v18 = val_main_v18 (F := F) x1) :
    StableHlo.after (s3 (F := F)) W main_v32 = val_main_v32 (F := F) x1 := by
  stretch_at s3 [h_main_v18]

/-- Stretch 3 carries the live buffers' values across. -/
theorem step3 (W : Valuation τ sig (Elt F)) (x0 : (⟨S64x3x256x256, .f32⟩ : BufTy).Contents (Elt F)) (x1 : (⟨S64x2x256x256, .f32⟩ : BufTy).Contents (Elt F)) (h : Live2 W x0 x1) :
    Live3 (StableHlo.after (s3 (F := F)) W) x0 x1 := by
  obtain ⟨h_main_v0, h_main_v17, h_main_v18, h_main_v19, h_main_v24, h_main_v25⟩ := h
  exact ⟨(keep3_main_v0 W).trans h_main_v0, (keep3_main_v17 W).trans h_main_v17, (keep3_main_v18 W).trans h_main_v18, (keep3_main_v19 W).trans h_main_v19, at3_main_v26 W x0 x1 h_main_v24 h_main_v25, at3_main_v31 W x0 x1 h_main_v19, at3_main_v32 W x0 x1 h_main_v18⟩

/-- After stretch 4: the buffers still read later are at their stage values. -/
def Live4 (W : Valuation τ sig (Elt F)) (x0 : (⟨S64x3x256x256, .f32⟩ : BufTy).Contents (Elt F)) (x1 : (⟨S64x2x256x256, .f32⟩ : BufTy).Contents (Elt F)) : Prop :=
  W main_v0 = val_main_v0 (F := F) x0 ∧
  W main_v17 = val_main_v17 (F := F) x1 ∧
  W main_v18 = val_main_v18 (F := F) x1 ∧
  W main_v19 = val_main_v19 (F := F) x1 ∧
  W main_v26 = val_main_v26 (F := F) x1 ∧
  W main_v33 = val_main_v33 (F := F) x1 ∧
  W main_v35 = val_main_v35 (F := F) ∧
  W main_v58 = val_main_v58 (F := F) ∧
  W main_v59 = val_main_v59 (F := F) x1 ∧
  W main_v60 = val_main_v60 (F := F) x1

set_option maxRecDepth 8192 in
set_option maxHeartbeats 4000000 in
theorem keep4_main_v0 (W : Valuation τ sig (Elt F)) : StableHlo.after (s4 (F := F)) W main_v0 = W main_v0 := by
  stretch_keep s4

set_option maxRecDepth 8192 in
set_option maxHeartbeats 4000000 in
theorem keep4_main_v17 (W : Valuation τ sig (Elt F)) : StableHlo.after (s4 (F := F)) W main_v17 = W main_v17 := by
  stretch_keep s4

set_option maxRecDepth 8192 in
set_option maxHeartbeats 4000000 in
theorem keep4_main_v18 (W : Valuation τ sig (Elt F)) : StableHlo.after (s4 (F := F)) W main_v18 = W main_v18 := by
  stretch_keep s4

set_option maxRecDepth 8192 in
set_option maxHeartbeats 4000000 in
theorem keep4_main_v19 (W : Valuation τ sig (Elt F)) : StableHlo.after (s4 (F := F)) W main_v19 = W main_v19 := by
  stretch_keep s4

set_option maxRecDepth 8192 in
set_option maxHeartbeats 4000000 in
theorem keep4_main_v26 (W : Valuation τ sig (Elt F)) : StableHlo.after (s4 (F := F)) W main_v26 = W main_v26 := by
  stretch_keep s4

set_option maxRecDepth 8192 in
set_option maxHeartbeats 4000000 in
theorem at4_main_v33 (W : Valuation τ sig (Elt F)) (x0 : (⟨S64x3x256x256, .f32⟩ : BufTy).Contents (Elt F)) (x1 : (⟨S64x2x256x256, .f32⟩ : BufTy).Contents (Elt F)) (h_main_v31 : W main_v31 = val_main_v31 (F := F) x1) (h_main_v32 : W main_v32 = val_main_v32 (F := F) x1) :
    StableHlo.after (s4 (F := F)) W main_v33 = val_main_v33 (F := F) x1 := by
  stretch_at s4 [h_main_v31, h_main_v32]

set_option maxRecDepth 8192 in
set_option maxHeartbeats 4000000 in
theorem at4_main_v35 (W : Valuation τ sig (Elt F)) (x0 : (⟨S64x3x256x256, .f32⟩ : BufTy).Contents (Elt F)) (x1 : (⟨S64x2x256x256, .f32⟩ : BufTy).Contents (Elt F)) :
    StableHlo.after (s4 (F := F)) W main_v35 = val_main_v35 (F := F) := by
  stretch_at s4 []

set_option maxRecDepth 8192 in
set_option maxHeartbeats 4000000 in
theorem at4_main_v58 (W : Valuation τ sig (Elt F)) (x0 : (⟨S64x3x256x256, .f32⟩ : BufTy).Contents (Elt F)) (x1 : (⟨S64x2x256x256, .f32⟩ : BufTy).Contents (Elt F)) :
    StableHlo.after (s4 (F := F)) W main_v58 = val_main_v58 (F := F) := by
  stretch_at s4 []

set_option maxRecDepth 8192 in
set_option maxHeartbeats 4000000 in
theorem at4_main_v59 (W : Valuation τ sig (Elt F)) (x0 : (⟨S64x3x256x256, .f32⟩ : BufTy).Contents (Elt F)) (x1 : (⟨S64x2x256x256, .f32⟩ : BufTy).Contents (Elt F)) (h_main_v18 : W main_v18 = val_main_v18 (F := F) x1) :
    StableHlo.after (s4 (F := F)) W main_v59 = val_main_v59 (F := F) x1 := by
  stretch_at s4 [h_main_v18]

set_option maxRecDepth 8192 in
set_option maxHeartbeats 4000000 in
theorem at4_main_v60 (W : Valuation τ sig (Elt F)) (x0 : (⟨S64x3x256x256, .f32⟩ : BufTy).Contents (Elt F)) (x1 : (⟨S64x2x256x256, .f32⟩ : BufTy).Contents (Elt F)) (h_main_v18 : W main_v18 = val_main_v18 (F := F) x1) :
    StableHlo.after (s4 (F := F)) W main_v60 = val_main_v60 (F := F) x1 := by
  stretch_at s4 [h_main_v18]

/-- Stretch 4 carries the live buffers' values across. -/
theorem step4 (W : Valuation τ sig (Elt F)) (x0 : (⟨S64x3x256x256, .f32⟩ : BufTy).Contents (Elt F)) (x1 : (⟨S64x2x256x256, .f32⟩ : BufTy).Contents (Elt F)) (h : Live3 W x0 x1) :
    Live4 (StableHlo.after (s4 (F := F)) W) x0 x1 := by
  obtain ⟨h_main_v0, h_main_v17, h_main_v18, h_main_v19, h_main_v26, h_main_v31, h_main_v32⟩ := h
  exact ⟨(keep4_main_v0 W).trans h_main_v0, (keep4_main_v17 W).trans h_main_v17, (keep4_main_v18 W).trans h_main_v18, (keep4_main_v19 W).trans h_main_v19, (keep4_main_v26 W).trans h_main_v26, at4_main_v33 W x0 x1 h_main_v31 h_main_v32, at4_main_v35 W x0 x1, at4_main_v58 W x0 x1, at4_main_v59 W x0 x1 h_main_v18, at4_main_v60 W x0 x1 h_main_v18⟩

/-- After stretch 5: the buffers still read later are at their stage values. -/
def Live5 (W : Valuation τ sig (Elt F)) (x0 : (⟨S64x3x256x256, .f32⟩ : BufTy).Contents (Elt F)) (x1 : (⟨S64x2x256x256, .f32⟩ : BufTy).Contents (Elt F)) : Prop :=
  W main_v0 = val_main_v0 (F := F) x0 ∧
  W main_v17 = val_main_v17 (F := F) x1 ∧
  W main_v18 = val_main_v18 (F := F) x1 ∧
  W main_v19 = val_main_v19 (F := F) x1 ∧
  W main_v26 = val_main_v26 (F := F) x1 ∧
  W main_v33 = val_main_v33 (F := F) x1 ∧
  W main_v35 = val_main_v35 (F := F) ∧
  W main_v62 = val_main_v62 (F := F) x0 x1

set_option maxRecDepth 8192 in
set_option maxHeartbeats 4000000 in
theorem keep5_main_v0 (W : Valuation τ sig (Elt F)) : StableHlo.after (s5 (F := F)) W main_v0 = W main_v0 := by
  stretch_keep s5

set_option maxRecDepth 8192 in
set_option maxHeartbeats 4000000 in
theorem keep5_main_v17 (W : Valuation τ sig (Elt F)) : StableHlo.after (s5 (F := F)) W main_v17 = W main_v17 := by
  stretch_keep s5

set_option maxRecDepth 8192 in
set_option maxHeartbeats 4000000 in
theorem keep5_main_v18 (W : Valuation τ sig (Elt F)) : StableHlo.after (s5 (F := F)) W main_v18 = W main_v18 := by
  stretch_keep s5

set_option maxRecDepth 8192 in
set_option maxHeartbeats 4000000 in
theorem keep5_main_v19 (W : Valuation τ sig (Elt F)) : StableHlo.after (s5 (F := F)) W main_v19 = W main_v19 := by
  stretch_keep s5

set_option maxRecDepth 8192 in
set_option maxHeartbeats 4000000 in
theorem keep5_main_v26 (W : Valuation τ sig (Elt F)) : StableHlo.after (s5 (F := F)) W main_v26 = W main_v26 := by
  stretch_keep s5

set_option maxRecDepth 8192 in
set_option maxHeartbeats 4000000 in
theorem keep5_main_v33 (W : Valuation τ sig (Elt F)) : StableHlo.after (s5 (F := F)) W main_v33 = W main_v33 := by
  stretch_keep s5

set_option maxRecDepth 8192 in
set_option maxHeartbeats 4000000 in
theorem keep5_main_v35 (W : Valuation τ sig (Elt F)) : StableHlo.after (s5 (F := F)) W main_v35 = W main_v35 := by
  stretch_keep s5

set_option maxRecDepth 8192 in
set_option maxHeartbeats 4000000 in
theorem at5_main_v62 (W : Valuation τ sig (Elt F)) (x0 : (⟨S64x3x256x256, .f32⟩ : BufTy).Contents (Elt F)) (x1 : (⟨S64x2x256x256, .f32⟩ : BufTy).Contents (Elt F)) (h_main_v0 : W main_v0 = val_main_v0 (F := F) x0) (h_main_v58 : W main_v58 = val_main_v58 (F := F)) (h_main_v59 : W main_v59 = val_main_v59 (F := F) x1) (h_main_v60 : W main_v60 = val_main_v60 (F := F) x1) :
    StableHlo.after (s5 (F := F)) W main_v62 = val_main_v62 (F := F) x0 x1 := by
  stretch_at s5 [h_main_v0, h_main_v58, h_main_v59, h_main_v60]

/-- Stretch 5 carries the live buffers' values across. -/
theorem step5 (W : Valuation τ sig (Elt F)) (x0 : (⟨S64x3x256x256, .f32⟩ : BufTy).Contents (Elt F)) (x1 : (⟨S64x2x256x256, .f32⟩ : BufTy).Contents (Elt F)) (h : Live4 W x0 x1) :
    Live5 (StableHlo.after (s5 (F := F)) W) x0 x1 := by
  obtain ⟨h_main_v0, h_main_v17, h_main_v18, h_main_v19, h_main_v26, h_main_v33, h_main_v35, h_main_v58, h_main_v59, h_main_v60⟩ := h
  exact ⟨(keep5_main_v0 W).trans h_main_v0, (keep5_main_v17 W).trans h_main_v17, (keep5_main_v18 W).trans h_main_v18, (keep5_main_v19 W).trans h_main_v19, (keep5_main_v26 W).trans h_main_v26, (keep5_main_v33 W).trans h_main_v33, (keep5_main_v35 W).trans h_main_v35, at5_main_v62 W x0 x1 h_main_v0 h_main_v58 h_main_v59 h_main_v60⟩

/-- After stretch 6: the buffers still read later are at their stage values. -/
def Live6 (W : Valuation τ sig (Elt F)) (x0 : (⟨S64x3x256x256, .f32⟩ : BufTy).Contents (Elt F)) (x1 : (⟨S64x2x256x256, .f32⟩ : BufTy).Contents (Elt F)) : Prop :=
  W main_v0 = val_main_v0 (F := F) x0 ∧
  W main_v17 = val_main_v17 (F := F) x1 ∧
  W main_v18 = val_main_v18 (F := F) x1 ∧
  W main_v26 = val_main_v26 (F := F) x1 ∧
  W main_v33 = val_main_v33 (F := F) x1 ∧
  W main_v35 = val_main_v35 (F := F) ∧
  W main_v62 = val_main_v62 (F := F) x0 x1 ∧
  W main_v85 = val_main_v85 (F := F) ∧
  W main_v86 = val_main_v86 (F := F) x1 ∧
  W main_v87 = val_main_v87 (F := F) x1

set_option maxRecDepth 8192 in
set_option maxHeartbeats 4000000 in
theorem keep6_main_v0 (W : Valuation τ sig (Elt F)) : StableHlo.after (s6 (F := F)) W main_v0 = W main_v0 := by
  stretch_keep s6

set_option maxRecDepth 8192 in
set_option maxHeartbeats 4000000 in
theorem keep6_main_v17 (W : Valuation τ sig (Elt F)) : StableHlo.after (s6 (F := F)) W main_v17 = W main_v17 := by
  stretch_keep s6

set_option maxRecDepth 8192 in
set_option maxHeartbeats 4000000 in
theorem keep6_main_v18 (W : Valuation τ sig (Elt F)) : StableHlo.after (s6 (F := F)) W main_v18 = W main_v18 := by
  stretch_keep s6

set_option maxRecDepth 8192 in
set_option maxHeartbeats 4000000 in
theorem keep6_main_v26 (W : Valuation τ sig (Elt F)) : StableHlo.after (s6 (F := F)) W main_v26 = W main_v26 := by
  stretch_keep s6

set_option maxRecDepth 8192 in
set_option maxHeartbeats 4000000 in
theorem keep6_main_v33 (W : Valuation τ sig (Elt F)) : StableHlo.after (s6 (F := F)) W main_v33 = W main_v33 := by
  stretch_keep s6

set_option maxRecDepth 8192 in
set_option maxHeartbeats 4000000 in
theorem keep6_main_v35 (W : Valuation τ sig (Elt F)) : StableHlo.after (s6 (F := F)) W main_v35 = W main_v35 := by
  stretch_keep s6

set_option maxRecDepth 8192 in
set_option maxHeartbeats 4000000 in
theorem keep6_main_v62 (W : Valuation τ sig (Elt F)) : StableHlo.after (s6 (F := F)) W main_v62 = W main_v62 := by
  stretch_keep s6

set_option maxRecDepth 8192 in
set_option maxHeartbeats 4000000 in
theorem at6_main_v85 (W : Valuation τ sig (Elt F)) (x0 : (⟨S64x3x256x256, .f32⟩ : BufTy).Contents (Elt F)) (x1 : (⟨S64x2x256x256, .f32⟩ : BufTy).Contents (Elt F)) (h_main_v35 : W main_v35 = val_main_v35 (F := F)) :
    StableHlo.after (s6 (F := F)) W main_v85 = val_main_v85 (F := F) := by
  stretch_at s6 [h_main_v35]

set_option maxRecDepth 8192 in
set_option maxHeartbeats 4000000 in
theorem at6_main_v86 (W : Valuation τ sig (Elt F)) (x0 : (⟨S64x3x256x256, .f32⟩ : BufTy).Contents (Elt F)) (x1 : (⟨S64x2x256x256, .f32⟩ : BufTy).Contents (Elt F)) (h_main_v19 : W main_v19 = val_main_v19 (F := F) x1) :
    StableHlo.after (s6 (F := F)) W main_v86 = val_main_v86 (F := F) x1 := by
  stretch_at s6 [h_main_v19]

set_option maxRecDepth 8192 in
set_option maxHeartbeats 4000000 in
theorem at6_main_v87 (W : Valuation τ sig (Elt F)) (x0 : (⟨S64x3x256x256, .f32⟩ : BufTy).Contents (Elt F)) (x1 : (⟨S64x2x256x256, .f32⟩ : BufTy).Contents (Elt F)) (h_main_v19 : W main_v19 = val_main_v19 (F := F) x1) :
    StableHlo.after (s6 (F := F)) W main_v87 = val_main_v87 (F := F) x1 := by
  stretch_at s6 [h_main_v19]

/-- Stretch 6 carries the live buffers' values across. -/
theorem step6 (W : Valuation τ sig (Elt F)) (x0 : (⟨S64x3x256x256, .f32⟩ : BufTy).Contents (Elt F)) (x1 : (⟨S64x2x256x256, .f32⟩ : BufTy).Contents (Elt F)) (h : Live5 W x0 x1) :
    Live6 (StableHlo.after (s6 (F := F)) W) x0 x1 := by
  obtain ⟨h_main_v0, h_main_v17, h_main_v18, h_main_v19, h_main_v26, h_main_v33, h_main_v35, h_main_v62⟩ := h
  exact ⟨(keep6_main_v0 W).trans h_main_v0, (keep6_main_v17 W).trans h_main_v17, (keep6_main_v18 W).trans h_main_v18, (keep6_main_v26 W).trans h_main_v26, (keep6_main_v33 W).trans h_main_v33, (keep6_main_v35 W).trans h_main_v35, (keep6_main_v62 W).trans h_main_v62, at6_main_v85 W x0 x1 h_main_v35, at6_main_v86 W x0 x1 h_main_v19, at6_main_v87 W x0 x1 h_main_v19⟩

/-- After stretch 7: the buffers still read later are at their stage values. -/
def Live7 (W : Valuation τ sig (Elt F)) (x0 : (⟨S64x3x256x256, .f32⟩ : BufTy).Contents (Elt F)) (x1 : (⟨S64x2x256x256, .f32⟩ : BufTy).Contents (Elt F)) : Prop :=
  W main_v0 = val_main_v0 (F := F) x0 ∧
  W main_v17 = val_main_v17 (F := F) x1 ∧
  W main_v18 = val_main_v18 (F := F) x1 ∧
  W main_v26 = val_main_v26 (F := F) x1 ∧
  W main_v33 = val_main_v33 (F := F) x1 ∧
  W main_v35 = val_main_v35 (F := F) ∧
  W main_v62 = val_main_v62 (F := F) x0 x1 ∧
  W main_v89 = val_main_v89 (F := F) x0 x1

set_option maxRecDepth 8192 in
set_option maxHeartbeats 4000000 in
theorem keep7_main_v0 (W : Valuation τ sig (Elt F)) : StableHlo.after (s7 (F := F)) W main_v0 = W main_v0 := by
  stretch_keep s7

set_option maxRecDepth 8192 in
set_option maxHeartbeats 4000000 in
theorem keep7_main_v17 (W : Valuation τ sig (Elt F)) : StableHlo.after (s7 (F := F)) W main_v17 = W main_v17 := by
  stretch_keep s7

set_option maxRecDepth 8192 in
set_option maxHeartbeats 4000000 in
theorem keep7_main_v18 (W : Valuation τ sig (Elt F)) : StableHlo.after (s7 (F := F)) W main_v18 = W main_v18 := by
  stretch_keep s7

set_option maxRecDepth 8192 in
set_option maxHeartbeats 4000000 in
theorem keep7_main_v26 (W : Valuation τ sig (Elt F)) : StableHlo.after (s7 (F := F)) W main_v26 = W main_v26 := by
  stretch_keep s7

set_option maxRecDepth 8192 in
set_option maxHeartbeats 4000000 in
theorem keep7_main_v33 (W : Valuation τ sig (Elt F)) : StableHlo.after (s7 (F := F)) W main_v33 = W main_v33 := by
  stretch_keep s7

set_option maxRecDepth 8192 in
set_option maxHeartbeats 4000000 in
theorem keep7_main_v35 (W : Valuation τ sig (Elt F)) : StableHlo.after (s7 (F := F)) W main_v35 = W main_v35 := by
  stretch_keep s7

set_option maxRecDepth 8192 in
set_option maxHeartbeats 4000000 in
theorem keep7_main_v62 (W : Valuation τ sig (Elt F)) : StableHlo.after (s7 (F := F)) W main_v62 = W main_v62 := by
  stretch_keep s7

set_option maxRecDepth 8192 in
set_option maxHeartbeats 4000000 in
theorem at7_main_v89 (W : Valuation τ sig (Elt F)) (x0 : (⟨S64x3x256x256, .f32⟩ : BufTy).Contents (Elt F)) (x1 : (⟨S64x2x256x256, .f32⟩ : BufTy).Contents (Elt F)) (h_main_v0 : W main_v0 = val_main_v0 (F := F) x0) (h_main_v85 : W main_v85 = val_main_v85 (F := F)) (h_main_v86 : W main_v86 = val_main_v86 (F := F) x1) (h_main_v87 : W main_v87 = val_main_v87 (F := F) x1) :
    StableHlo.after (s7 (F := F)) W main_v89 = val_main_v89 (F := F) x0 x1 := by
  stretch_at s7 [h_main_v0, h_main_v85, h_main_v86, h_main_v87]

/-- Stretch 7 carries the live buffers' values across. -/
theorem step7 (W : Valuation τ sig (Elt F)) (x0 : (⟨S64x3x256x256, .f32⟩ : BufTy).Contents (Elt F)) (x1 : (⟨S64x2x256x256, .f32⟩ : BufTy).Contents (Elt F)) (h : Live6 W x0 x1) :
    Live7 (StableHlo.after (s7 (F := F)) W) x0 x1 := by
  obtain ⟨h_main_v0, h_main_v17, h_main_v18, h_main_v26, h_main_v33, h_main_v35, h_main_v62, h_main_v85, h_main_v86, h_main_v87⟩ := h
  exact ⟨(keep7_main_v0 W).trans h_main_v0, (keep7_main_v17 W).trans h_main_v17, (keep7_main_v18 W).trans h_main_v18, (keep7_main_v26 W).trans h_main_v26, (keep7_main_v33 W).trans h_main_v33, (keep7_main_v35 W).trans h_main_v35, (keep7_main_v62 W).trans h_main_v62, at7_main_v89 W x0 x1 h_main_v0 h_main_v85 h_main_v86 h_main_v87⟩

/-- After stretch 8: the buffers still read later are at their stage values. -/
def Live8 (W : Valuation τ sig (Elt F)) (x0 : (⟨S64x3x256x256, .f32⟩ : BufTy).Contents (Elt F)) (x1 : (⟨S64x2x256x256, .f32⟩ : BufTy).Contents (Elt F)) : Prop :=
  W main_v0 = val_main_v0 (F := F) x0 ∧
  W main_v17 = val_main_v17 (F := F) x1 ∧
  W main_v18 = val_main_v18 (F := F) x1 ∧
  W main_v33 = val_main_v33 (F := F) x1 ∧
  W main_v35 = val_main_v35 (F := F) ∧
  W main_v62 = val_main_v62 (F := F) x0 x1 ∧
  W main_v89 = val_main_v89 (F := F) x0 x1 ∧
  W main_v112 = val_main_v112 (F := F) ∧
  W main_v113 = val_main_v113 (F := F) x1 ∧
  W main_v114 = val_main_v114 (F := F) x1

set_option maxRecDepth 8192 in
set_option maxHeartbeats 4000000 in
theorem keep8_main_v0 (W : Valuation τ sig (Elt F)) : StableHlo.after (s8 (F := F)) W main_v0 = W main_v0 := by
  stretch_keep s8

set_option maxRecDepth 8192 in
set_option maxHeartbeats 4000000 in
theorem keep8_main_v17 (W : Valuation τ sig (Elt F)) : StableHlo.after (s8 (F := F)) W main_v17 = W main_v17 := by
  stretch_keep s8

set_option maxRecDepth 8192 in
set_option maxHeartbeats 4000000 in
theorem keep8_main_v18 (W : Valuation τ sig (Elt F)) : StableHlo.after (s8 (F := F)) W main_v18 = W main_v18 := by
  stretch_keep s8

set_option maxRecDepth 8192 in
set_option maxHeartbeats 4000000 in
theorem keep8_main_v33 (W : Valuation τ sig (Elt F)) : StableHlo.after (s8 (F := F)) W main_v33 = W main_v33 := by
  stretch_keep s8

set_option maxRecDepth 8192 in
set_option maxHeartbeats 4000000 in
theorem keep8_main_v35 (W : Valuation τ sig (Elt F)) : StableHlo.after (s8 (F := F)) W main_v35 = W main_v35 := by
  stretch_keep s8

set_option maxRecDepth 8192 in
set_option maxHeartbeats 4000000 in
theorem keep8_main_v62 (W : Valuation τ sig (Elt F)) : StableHlo.after (s8 (F := F)) W main_v62 = W main_v62 := by
  stretch_keep s8

set_option maxRecDepth 8192 in
set_option maxHeartbeats 4000000 in
theorem keep8_main_v89 (W : Valuation τ sig (Elt F)) : StableHlo.after (s8 (F := F)) W main_v89 = W main_v89 := by
  stretch_keep s8

set_option maxRecDepth 8192 in
set_option maxHeartbeats 4000000 in
theorem at8_main_v112 (W : Valuation τ sig (Elt F)) (x0 : (⟨S64x3x256x256, .f32⟩ : BufTy).Contents (Elt F)) (x1 : (⟨S64x2x256x256, .f32⟩ : BufTy).Contents (Elt F)) (h_main_v35 : W main_v35 = val_main_v35 (F := F)) :
    StableHlo.after (s8 (F := F)) W main_v112 = val_main_v112 (F := F) := by
  stretch_at s8 [h_main_v35]

set_option maxRecDepth 8192 in
set_option maxHeartbeats 4000000 in
theorem at8_main_v113 (W : Valuation τ sig (Elt F)) (x0 : (⟨S64x3x256x256, .f32⟩ : BufTy).Contents (Elt F)) (x1 : (⟨S64x2x256x256, .f32⟩ : BufTy).Contents (Elt F)) (h_main_v26 : W main_v26 = val_main_v26 (F := F) x1) :
    StableHlo.after (s8 (F := F)) W main_v113 = val_main_v113 (F := F) x1 := by
  stretch_at s8 [h_main_v26]

set_option maxRecDepth 8192 in
set_option maxHeartbeats 4000000 in
theorem at8_main_v114 (W : Valuation τ sig (Elt F)) (x0 : (⟨S64x3x256x256, .f32⟩ : BufTy).Contents (Elt F)) (x1 : (⟨S64x2x256x256, .f32⟩ : BufTy).Contents (Elt F)) (h_main_v26 : W main_v26 = val_main_v26 (F := F) x1) :
    StableHlo.after (s8 (F := F)) W main_v114 = val_main_v114 (F := F) x1 := by
  stretch_at s8 [h_main_v26]

/-- Stretch 8 carries the live buffers' values across. -/
theorem step8 (W : Valuation τ sig (Elt F)) (x0 : (⟨S64x3x256x256, .f32⟩ : BufTy).Contents (Elt F)) (x1 : (⟨S64x2x256x256, .f32⟩ : BufTy).Contents (Elt F)) (h : Live7 W x0 x1) :
    Live8 (StableHlo.after (s8 (F := F)) W) x0 x1 := by
  obtain ⟨h_main_v0, h_main_v17, h_main_v18, h_main_v26, h_main_v33, h_main_v35, h_main_v62, h_main_v89⟩ := h
  exact ⟨(keep8_main_v0 W).trans h_main_v0, (keep8_main_v17 W).trans h_main_v17, (keep8_main_v18 W).trans h_main_v18, (keep8_main_v33 W).trans h_main_v33, (keep8_main_v35 W).trans h_main_v35, (keep8_main_v62 W).trans h_main_v62, (keep8_main_v89 W).trans h_main_v89, at8_main_v112 W x0 x1 h_main_v35, at8_main_v113 W x0 x1 h_main_v26, at8_main_v114 W x0 x1 h_main_v26⟩

/-- After stretch 9: the buffers still read later are at their stage values. -/
def Live9 (W : Valuation τ sig (Elt F)) (x0 : (⟨S64x3x256x256, .f32⟩ : BufTy).Contents (Elt F)) (x1 : (⟨S64x2x256x256, .f32⟩ : BufTy).Contents (Elt F)) : Prop :=
  W main_v0 = val_main_v0 (F := F) x0 ∧
  W main_v17 = val_main_v17 (F := F) x1 ∧
  W main_v18 = val_main_v18 (F := F) x1 ∧
  W main_v33 = val_main_v33 (F := F) x1 ∧
  W main_v35 = val_main_v35 (F := F) ∧
  W main_v62 = val_main_v62 (F := F) x0 x1 ∧
  W main_v89 = val_main_v89 (F := F) x0 x1 ∧
  W main_v116 = val_main_v116 (F := F) x0 x1

set_option maxRecDepth 8192 in
set_option maxHeartbeats 4000000 in
theorem keep9_main_v0 (W : Valuation τ sig (Elt F)) : StableHlo.after (s9 (F := F)) W main_v0 = W main_v0 := by
  stretch_keep s9

set_option maxRecDepth 8192 in
set_option maxHeartbeats 4000000 in
theorem keep9_main_v17 (W : Valuation τ sig (Elt F)) : StableHlo.after (s9 (F := F)) W main_v17 = W main_v17 := by
  stretch_keep s9

set_option maxRecDepth 8192 in
set_option maxHeartbeats 4000000 in
theorem keep9_main_v18 (W : Valuation τ sig (Elt F)) : StableHlo.after (s9 (F := F)) W main_v18 = W main_v18 := by
  stretch_keep s9

set_option maxRecDepth 8192 in
set_option maxHeartbeats 4000000 in
theorem keep9_main_v33 (W : Valuation τ sig (Elt F)) : StableHlo.after (s9 (F := F)) W main_v33 = W main_v33 := by
  stretch_keep s9

set_option maxRecDepth 8192 in
set_option maxHeartbeats 4000000 in
theorem keep9_main_v35 (W : Valuation τ sig (Elt F)) : StableHlo.after (s9 (F := F)) W main_v35 = W main_v35 := by
  stretch_keep s9

set_option maxRecDepth 8192 in
set_option maxHeartbeats 4000000 in
theorem keep9_main_v62 (W : Valuation τ sig (Elt F)) : StableHlo.after (s9 (F := F)) W main_v62 = W main_v62 := by
  stretch_keep s9

set_option maxRecDepth 8192 in
set_option maxHeartbeats 4000000 in
theorem keep9_main_v89 (W : Valuation τ sig (Elt F)) : StableHlo.after (s9 (F := F)) W main_v89 = W main_v89 := by
  stretch_keep s9

set_option maxRecDepth 8192 in
set_option maxHeartbeats 4000000 in
theorem at9_main_v116 (W : Valuation τ sig (Elt F)) (x0 : (⟨S64x3x256x256, .f32⟩ : BufTy).Contents (Elt F)) (x1 : (⟨S64x2x256x256, .f32⟩ : BufTy).Contents (Elt F)) (h_main_v0 : W main_v0 = val_main_v0 (F := F) x0) (h_main_v112 : W main_v112 = val_main_v112 (F := F)) (h_main_v113 : W main_v113 = val_main_v113 (F := F) x1) (h_main_v114 : W main_v114 = val_main_v114 (F := F) x1) :
    StableHlo.after (s9 (F := F)) W main_v116 = val_main_v116 (F := F) x0 x1 := by
  stretch_at s9 [h_main_v0, h_main_v112, h_main_v113, h_main_v114]

/-- Stretch 9 carries the live buffers' values across. -/
theorem step9 (W : Valuation τ sig (Elt F)) (x0 : (⟨S64x3x256x256, .f32⟩ : BufTy).Contents (Elt F)) (x1 : (⟨S64x2x256x256, .f32⟩ : BufTy).Contents (Elt F)) (h : Live8 W x0 x1) :
    Live9 (StableHlo.after (s9 (F := F)) W) x0 x1 := by
  obtain ⟨h_main_v0, h_main_v17, h_main_v18, h_main_v33, h_main_v35, h_main_v62, h_main_v89, h_main_v112, h_main_v113, h_main_v114⟩ := h
  exact ⟨(keep9_main_v0 W).trans h_main_v0, (keep9_main_v17 W).trans h_main_v17, (keep9_main_v18 W).trans h_main_v18, (keep9_main_v33 W).trans h_main_v33, (keep9_main_v35 W).trans h_main_v35, (keep9_main_v62 W).trans h_main_v62, (keep9_main_v89 W).trans h_main_v89, at9_main_v116 W x0 x1 h_main_v0 h_main_v112 h_main_v113 h_main_v114⟩

/-- After stretch 10: the buffers still read later are at their stage values. -/
def Live10 (W : Valuation τ sig (Elt F)) (x0 : (⟨S64x3x256x256, .f32⟩ : BufTy).Contents (Elt F)) (x1 : (⟨S64x2x256x256, .f32⟩ : BufTy).Contents (Elt F)) : Prop :=
  W main_v0 = val_main_v0 (F := F) x0 ∧
  W main_v17 = val_main_v17 (F := F) x1 ∧
  W main_v18 = val_main_v18 (F := F) x1 ∧
  W main_v62 = val_main_v62 (F := F) x0 x1 ∧
  W main_v89 = val_main_v89 (F := F) x0 x1 ∧
  W main_v116 = val_main_v116 (F := F) x0 x1 ∧
  W main_v139 = val_main_v139 (F := F) ∧
  W main_v140 = val_main_v140 (F := F) x1 ∧
  W main_v141 = val_main_v141 (F := F) x1

set_option maxRecDepth 8192 in
set_option maxHeartbeats 4000000 in
theorem keep10_main_v0 (W : Valuation τ sig (Elt F)) : StableHlo.after (s10 (F := F)) W main_v0 = W main_v0 := by
  stretch_keep s10

set_option maxRecDepth 8192 in
set_option maxHeartbeats 4000000 in
theorem keep10_main_v17 (W : Valuation τ sig (Elt F)) : StableHlo.after (s10 (F := F)) W main_v17 = W main_v17 := by
  stretch_keep s10

set_option maxRecDepth 8192 in
set_option maxHeartbeats 4000000 in
theorem keep10_main_v18 (W : Valuation τ sig (Elt F)) : StableHlo.after (s10 (F := F)) W main_v18 = W main_v18 := by
  stretch_keep s10

set_option maxRecDepth 8192 in
set_option maxHeartbeats 4000000 in
theorem keep10_main_v62 (W : Valuation τ sig (Elt F)) : StableHlo.after (s10 (F := F)) W main_v62 = W main_v62 := by
  stretch_keep s10

set_option maxRecDepth 8192 in
set_option maxHeartbeats 4000000 in
theorem keep10_main_v89 (W : Valuation τ sig (Elt F)) : StableHlo.after (s10 (F := F)) W main_v89 = W main_v89 := by
  stretch_keep s10

set_option maxRecDepth 8192 in
set_option maxHeartbeats 4000000 in
theorem keep10_main_v116 (W : Valuation τ sig (Elt F)) : StableHlo.after (s10 (F := F)) W main_v116 = W main_v116 := by
  stretch_keep s10

set_option maxRecDepth 8192 in
set_option maxHeartbeats 4000000 in
theorem at10_main_v139 (W : Valuation τ sig (Elt F)) (x0 : (⟨S64x3x256x256, .f32⟩ : BufTy).Contents (Elt F)) (x1 : (⟨S64x2x256x256, .f32⟩ : BufTy).Contents (Elt F)) (h_main_v35 : W main_v35 = val_main_v35 (F := F)) :
    StableHlo.after (s10 (F := F)) W main_v139 = val_main_v139 (F := F) := by
  stretch_at s10 [h_main_v35]

set_option maxRecDepth 8192 in
set_option maxHeartbeats 4000000 in
theorem at10_main_v140 (W : Valuation τ sig (Elt F)) (x0 : (⟨S64x3x256x256, .f32⟩ : BufTy).Contents (Elt F)) (x1 : (⟨S64x2x256x256, .f32⟩ : BufTy).Contents (Elt F)) (h_main_v33 : W main_v33 = val_main_v33 (F := F) x1) :
    StableHlo.after (s10 (F := F)) W main_v140 = val_main_v140 (F := F) x1 := by
  stretch_at s10 [h_main_v33]

set_option maxRecDepth 8192 in
set_option maxHeartbeats 4000000 in
theorem at10_main_v141 (W : Valuation τ sig (Elt F)) (x0 : (⟨S64x3x256x256, .f32⟩ : BufTy).Contents (Elt F)) (x1 : (⟨S64x2x256x256, .f32⟩ : BufTy).Contents (Elt F)) (h_main_v33 : W main_v33 = val_main_v33 (F := F) x1) :
    StableHlo.after (s10 (F := F)) W main_v141 = val_main_v141 (F := F) x1 := by
  stretch_at s10 [h_main_v33]

/-- Stretch 10 carries the live buffers' values across. -/
theorem step10 (W : Valuation τ sig (Elt F)) (x0 : (⟨S64x3x256x256, .f32⟩ : BufTy).Contents (Elt F)) (x1 : (⟨S64x2x256x256, .f32⟩ : BufTy).Contents (Elt F)) (h : Live9 W x0 x1) :
    Live10 (StableHlo.after (s10 (F := F)) W) x0 x1 := by
  obtain ⟨h_main_v0, h_main_v17, h_main_v18, h_main_v33, h_main_v35, h_main_v62, h_main_v89, h_main_v116⟩ := h
  exact ⟨(keep10_main_v0 W).trans h_main_v0, (keep10_main_v17 W).trans h_main_v17, (keep10_main_v18 W).trans h_main_v18, (keep10_main_v62 W).trans h_main_v62, (keep10_main_v89 W).trans h_main_v89, (keep10_main_v116 W).trans h_main_v116, at10_main_v139 W x0 x1 h_main_v35, at10_main_v140 W x0 x1 h_main_v33, at10_main_v141 W x0 x1 h_main_v33⟩

/-- After stretch 11: the buffers still read later are at their stage values. -/
def Live11 (W : Valuation τ sig (Elt F)) (x0 : (⟨S64x3x256x256, .f32⟩ : BufTy).Contents (Elt F)) (x1 : (⟨S64x2x256x256, .f32⟩ : BufTy).Contents (Elt F)) : Prop :=
  W main_v17 = val_main_v17 (F := F) x1 ∧
  W main_v18 = val_main_v18 (F := F) x1 ∧
  W main_v62 = val_main_v62 (F := F) x0 x1 ∧
  W main_v89 = val_main_v89 (F := F) x0 x1 ∧
  W main_v116 = val_main_v116 (F := F) x0 x1 ∧
  W main_v143 = val_main_v143 (F := F) x0 x1

set_option maxRecDepth 8192 in
set_option maxHeartbeats 4000000 in
theorem keep11_main_v17 (W : Valuation τ sig (Elt F)) : StableHlo.after (s11 (F := F)) W main_v17 = W main_v17 := by
  stretch_keep s11

set_option maxRecDepth 8192 in
set_option maxHeartbeats 4000000 in
theorem keep11_main_v18 (W : Valuation τ sig (Elt F)) : StableHlo.after (s11 (F := F)) W main_v18 = W main_v18 := by
  stretch_keep s11

set_option maxRecDepth 8192 in
set_option maxHeartbeats 4000000 in
theorem keep11_main_v62 (W : Valuation τ sig (Elt F)) : StableHlo.after (s11 (F := F)) W main_v62 = W main_v62 := by
  stretch_keep s11

set_option maxRecDepth 8192 in
set_option maxHeartbeats 4000000 in
theorem keep11_main_v89 (W : Valuation τ sig (Elt F)) : StableHlo.after (s11 (F := F)) W main_v89 = W main_v89 := by
  stretch_keep s11

set_option maxRecDepth 8192 in
set_option maxHeartbeats 4000000 in
theorem keep11_main_v116 (W : Valuation τ sig (Elt F)) : StableHlo.after (s11 (F := F)) W main_v116 = W main_v116 := by
  stretch_keep s11

set_option maxRecDepth 8192 in
set_option maxHeartbeats 4000000 in
theorem at11_main_v143 (W : Valuation τ sig (Elt F)) (x0 : (⟨S64x3x256x256, .f32⟩ : BufTy).Contents (Elt F)) (x1 : (⟨S64x2x256x256, .f32⟩ : BufTy).Contents (Elt F)) (h_main_v0 : W main_v0 = val_main_v0 (F := F) x0) (h_main_v139 : W main_v139 = val_main_v139 (F := F)) (h_main_v140 : W main_v140 = val_main_v140 (F := F) x1) (h_main_v141 : W main_v141 = val_main_v141 (F := F) x1) :
    StableHlo.after (s11 (F := F)) W main_v143 = val_main_v143 (F := F) x0 x1 := by
  stretch_at s11 [h_main_v0, h_main_v139, h_main_v140, h_main_v141]

/-- Stretch 11 carries the live buffers' values across. -/
theorem step11 (W : Valuation τ sig (Elt F)) (x0 : (⟨S64x3x256x256, .f32⟩ : BufTy).Contents (Elt F)) (x1 : (⟨S64x2x256x256, .f32⟩ : BufTy).Contents (Elt F)) (h : Live10 W x0 x1) :
    Live11 (StableHlo.after (s11 (F := F)) W) x0 x1 := by
  obtain ⟨h_main_v0, h_main_v17, h_main_v18, h_main_v62, h_main_v89, h_main_v116, h_main_v139, h_main_v140, h_main_v141⟩ := h
  exact ⟨(keep11_main_v17 W).trans h_main_v17, (keep11_main_v18 W).trans h_main_v18, (keep11_main_v62 W).trans h_main_v62, (keep11_main_v89 W).trans h_main_v89, (keep11_main_v116 W).trans h_main_v116, at11_main_v143 W x0 x1 h_main_v0 h_main_v139 h_main_v140 h_main_v141⟩

set_option maxRecDepth 8192 in
set_option maxHeartbeats 4000000 in
theorem at12_main_v160 (W : Valuation τ sig (Elt F)) (x0 : (⟨S64x3x256x256, .f32⟩ : BufTy).Contents (Elt F)) (x1 : (⟨S64x2x256x256, .f32⟩ : BufTy).Contents (Elt F)) (h_main_v17 : W main_v17 = val_main_v17 (F := F) x1) (h_main_v18 : W main_v18 = val_main_v18 (F := F) x1) (h_main_v62 : W main_v62 = val_main_v62 (F := F) x0 x1) (h_main_v89 : W main_v89 = val_main_v89 (F := F) x0 x1) (h_main_v116 : W main_v116 = val_main_v116 (F := F) x0 x1) (h_main_v143 : W main_v143 = val_main_v143 (F := F) x0 x1) :
    StableHlo.after (s12 (F := F)) W main_v160 = val_main_v160 (F := F) x0 x1 := by
  stretch_at s12 [h_main_v17, h_main_v18, h_main_v62, h_main_v89, h_main_v116, h_main_v143]

/-- Stretch 12 carries the live buffers' values across. -/
theorem step12 (W : Valuation τ sig (Elt F)) (x0 : (⟨S64x3x256x256, .f32⟩ : BufTy).Contents (Elt F)) (x1 : (⟨S64x2x256x256, .f32⟩ : BufTy).Contents (Elt F)) (h : Live11 W x0 x1) :
    StableHlo.after (s12 (F := F)) W main_v160 = val_main_v160 (F := F) x0 x1 := by
  obtain ⟨h_main_v17, h_main_v18, h_main_v62, h_main_v89, h_main_v116, h_main_v143⟩ := h
  exact at12_main_v160 W x0 x1 h_main_v17 h_main_v18 h_main_v62 h_main_v89 h_main_v116 h_main_v143

end Cert.ReferenceIdeal.RunHand

end
-- ==== Proof.RefRun.lean ====
/-
  The run of the reference program's list of host operations, read at its result buffer.

  The list is its twelve stretches in a row, so its fold is the stretches' folds one after the other.  After the first
  stretch the buffers still read later are at their stage values of the two arguments as the list found them; each
  further stretch carries that across; after the last the result buffer is at its stage value.
-/
import proofs.«136538_j5866925326584_1_alg».proof.Proof.RefRunTable
import Idealize.ShloMosaic.Lib.Pipeline.Frame

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The result buffer after the whole list, from any contents: its stage value of the two arguments' contents. -/
theorem after_v160 (W : Valuation τ sig (Elt F)) :
    StableHlo.after (ops (F := F)) W main_v160 = val_main_v160 (F := F) (W main_arg0) (W main_arg1) := by
  rw [ops_eq, StableHlo.after_append, StableHlo.after_append, StableHlo.after_append, StableHlo.after_append,
    StableHlo.after_append, StableHlo.after_append, StableHlo.after_append, StableHlo.after_append,
    StableHlo.after_append, StableHlo.after_append, StableHlo.after_append]
  exact step12 _ _ _ (step11 _ _ _ (step10 _ _ _ (step9 _ _ _ (step8 _ _ _ (step7 _ _ _ (step6 _ _ _ (step5 _ _ _ (step4 _ _ _ (step3 _ _ _ (step2 _ _ _ (step1 W)))))))))))

end Cert.ReferenceIdeal.RunHand

end
-- ==== Proof.RefRunMain.lean ====
/-
  The reference's run.

  The reference is host operations only, so every weakly fair execution of it ends, faults nowhere and leaves each
  buffer at the fold of the operations over the launch contents.  Read at the result buffer the fold is the last stage
  (the warp's flattened blend, un-flattened and transposed), a function of the two arguments alone; read at an argument
  it is the argument, which no operation writes.
-/
import proofs.«136538_j5866925326584_1_alg».proof.Proof.RefOps
import proofs.«136538_j5866925326584_1_alg».proof.Proof.RefStages
import proofs.«136538_j5866925326584_1_alg».proof.Proof.RefRun
import Idealize.ShloMosaic.Lib.StableHlo.Run

noncomputable section

namespace Cert.ReferenceIdeal.RunHand

open Cert.ReferenceIdeal Cert.ReferenceIdeal.Gen Cert.ReferenceIdeal.ValueP Idealize.ShloMosaic Idealize.ShloMosaic.TcCoe
open Idealize.SL.Sem Idealize.ShloMosaic.StableHlo

variable {F : FTy → Type} [FloatOps F]

set_option maxRecDepth 8192 in
set_option maxHeartbeats 40000000 in
/-- On every device, from any memory with zero counters: every weakly fair execution of @main terminates with the
    result at the last stage of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v160)
        = Cert.ReferenceIdeal.ReadP.val_main_v160 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v160).trans (after_v160 _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RunHand

end
-- ==== Proof.RefRead.lean ====
/-
  The reference read one operation at a time: each operation's value as a function of the two arguments (the stage
  definitions) and its reading at an index, gathered under one import for the module that compares the reference's
  result with the specification.
-/
import proofs.«136538_j5866925326584_1_alg».proof.Proof.RefStages
-- ==== Proof.RefIsWarp.lean ====
/-
  The reference computes the warp.

  The reference works on arrays flattened to `[batch, row * column, *]`: pixel `(h, w)` sits at flat position `256 h + w`.
  Read at that position, its clipped coordinate is the source row and column of the pixel; the integer words of
  their floors and ceilings, wrapped and joined with the batch number, are the start indices of four gathers, each of which
  reads one of the four neighbouring source pixels; the fractional parts blend them. The last two operations undo the
  flattening and put the channel axis back in its place. Every step is the reading of one operation at an index: no law
  of arithmetic is used, and the float instance is arbitrary.
-/
import proofs.«136538_j5866925326584_1_alg».proof.Proof.RefRead
import proofs.«136538_j5866925326584_1_alg».proof.Proof.Warp
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx Idealize.ShloMosaic.TcCoe

variable {α : Type}

/-- The flat position of pixel `(h, w)` of a row-major 256 × 256 image. -/
abbrev fl (h w : Fin 256) : Fin 65536 := ⟨256 * h.val + w.val, by omega⟩

/-! ## The layout operations of the program read at an index given by coordinates -/

/-- Component 0 of a `[64, 65536, 2]` array, sliced off as a `[64, 65536, 1]` array. -/
theorem slice0_at (y : S64x65536x2.Idx → α) (b : Fin 64) (n : Fin 65536) :
    extractStridedSlice S64x65536x1 ![0, 0, 0] y slices_S64x65536x2_S64x65536x1_0_0_0 (ix3 b n 0) = y (ix3 b n 0) :=
  extractStridedSlice_apply ![0, 0, 0] y slices_S64x65536x2_S64x65536x1_0_0_0 (ix3 b n 0) (ix3 b n 0) (fun a => match a with
    | ⟨0, _⟩ => by show b.val = 0 + b.val; omega
    | ⟨1, _⟩ => by show n.val = 0 + n.val; omega
    | ⟨2, _⟩ => by show 0 = 0 + 0; omega)

/-- Component 1 of a `[64, 65536, 2]` array, sliced off as a `[64, 65536, 1]` array. -/
theorem slice1_at (y : S64x65536x2.Idx → α) (b : Fin 64) (n : Fin 65536) :
    extractStridedSlice S64x65536x1 ![0, 0, 1] y slices_S64x65536x2_S64x65536x1_0_0_1 (ix3 b n 0) = y (ix3 b n 1) :=
  extractStridedSlice_apply ![0, 0, 1] y slices_S64x65536x2_S64x65536x1_0_0_1 (ix3 b n 0) (ix3 b n 1) (fun a => match a with
    | ⟨0, _⟩ => by show b.val = 0 + b.val; omega
    | ⟨1, _⟩ => by show n.val = 0 + n.val; omega
    | ⟨2, _⟩ => by show 1 = 1 + 0; omega)

/-- Dropping the unit last axis of a `[64, 65536, 1]` array. -/
theorem resh_at (y : S64x65536x1.Idx → α) (b : Fin 64) (n : Fin 65536) :
    shapeCast S64x65536 y shapeCasts_S64x65536x1_S64x65536 (ix2 b n) = y (ix3 b n 0) :=
  shapeCast_apply y shapeCasts_S64x65536x1_S64x65536 (ix2 b n) (ix3 b n 0)
    (by rewrite [Shape.rowMajor_val_three, Shape.rowMajor_val_two]; show (b.val * 65536 + n.val) * 1 + 0 = b.val * 65536 + n.val; omega)

/-- Adding a unit last axis to a `[64, 65536]` array. -/
theorem bc_at (y : S64x65536.Idx → α) (b : Fin 64) (n : Fin 65536) :
    broadcastInDim S64x65536x1 ![0, 1] bcast_S64x65536_S64x65536x1_0_1 y (ix3 b n 0) = y (ix2 b n) :=
  broadcastInDim_apply _ bcast_S64x65536_S64x65536x1_0_1 y (ix3 b n 0) (ix2 b n) (fun a => match a with
    | ⟨0, _⟩ => by show b.val = if (64 : Nat) = 1 then 0 else b.val; rw [if_neg (by decide)]
    | ⟨1, _⟩ => by show n.val = if (65536 : Nat) = 1 then 0 else n.val; rw [if_neg (by decide)])

/-- A `[64, 1]` column repeated along the flat positions. -/
theorem bcb_at (y : S64x1.Idx → α) (b : Fin 64) (n : Fin 65536) :
    broadcastInDim S64x65536 ![0, 1] bcast_S64x1_S64x65536_0_1 y (ix2 b n) = y (ix2 b 0) :=
  broadcastInDim_apply _ bcast_S64x1_S64x65536_0_1 y (ix2 b n) (ix2 b 0) (fun a => match a with
    | ⟨0, _⟩ => by show b.val = if (64 : Nat) = 1 then 0 else b.val; rw [if_neg (by decide)]
    | ⟨1, _⟩ => by show 0 = if (1 : Nat) = 1 then 0 else n.val; rw [if_pos rfl])

/-- A `[64, 65536, 1]` array repeated over the three channels. -/
theorem bc3_at (y : S64x65536x1.Idx → α) (b : Fin 64) (n : Fin 65536) (ch : Fin 3) :
    broadcastInDim S64x65536x3 ![0, 1, 2] bcast_S64x65536x1_S64x65536x3_0_1_2 y (ix3 b n ch) = y (ix3 b n 0) :=
  broadcastInDim_apply _ bcast_S64x65536x1_S64x65536x3_0_1_2 y (ix3 b n ch) (ix3 b n 0) (fun a => match a with
    | ⟨0, _⟩ => by show b.val = if (64 : Nat) = 1 then 0 else b.val; rw [if_neg (by decide)]
    | ⟨1, _⟩ => by show n.val = if (65536 : Nat) = 1 then 0 else n.val; rw [if_neg (by decide)]
    | ⟨2, _⟩ => by show 0 = if (1 : Nat) = 1 then 0 else ch.val; rw [if_pos rfl])

/-! ## The concatenations on the last axis -/

/-- Two unit-width pieces joined on the last axis: component 0 is the first piece … -/
theorem cat2_at0 (y₁ y₂ : S64x65536x1.Idx → α) (b : Fin 64) (n : Fin 65536) :
    concatenate S64x65536x2 2 [⟨S64x65536x1, y₁⟩, ⟨S64x65536x1, y₂⟩] concatenates_S64x65536x1_S64x65536x1_S64x65536x2_d2 (ix3 b n 0)
      = y₁ (ix3 b n 0) :=
  concatenate_pair_apply_left (t := S64x65536x2) (s₁ := S64x65536x1) (s₂ := S64x65536x1) (2 : Fin 3) y₁ y₂ concatenates_S64x65536x1_S64x65536x1_S64x65536x2_d2 (ix3 b n 0) rfl (ix3 b n 0)
    (fun a => match a with
      | ⟨0, _⟩ => rfl
      | ⟨1, _⟩ => rfl
      | ⟨2, _⟩ => rfl)

/-- … and component 1 the second. -/
theorem cat2_at1 (y₁ y₂ : S64x65536x1.Idx → α) (b : Fin 64) (n : Fin 65536) :
    concatenate S64x65536x2 2 [⟨S64x65536x1, y₁⟩, ⟨S64x65536x1, y₂⟩] concatenates_S64x65536x1_S64x65536x1_S64x65536x2_d2 (ix3 b n 1)
      = y₂ (ix3 b n 0) :=
  concatenate_pair_apply_right (t := S64x65536x2) (s₁ := S64x65536x1) (s₂ := S64x65536x1) (2 : Fin 3) y₁ y₂ concatenates_S64x65536x1_S64x65536x1_S64x65536x2_d2 (ix3 b n 1) rfl rfl (ix3 b n 0)
    (fun a => match a with
      | ⟨0, _⟩ => fun _ => rfl
      | ⟨1, _⟩ => fun _ => rfl
      | ⟨2, _⟩ => fun h => absurd rfl h)
    (by show 0 + 1 = 1; rfl)

/-- Three unit-width pieces joined on the last axis: component 0 is the first piece, … -/
theorem cat3_at0 (y₀ y₁ y₂ : S64x65536x1.Idx → α) (b : Fin 64) (n : Fin 65536) :
    concatenate S64x65536x3 2 [⟨S64x65536x1, y₀⟩, ⟨S64x65536x1, y₁⟩, ⟨S64x65536x1, y₂⟩]
      concatenates_S64x65536x1_S64x65536x1_S64x65536x1_S64x65536x3_d2 (ix3 b n 0) = y₀ (ix3 b n 0) :=
  concatenate_apply_piece (t := S64x65536x3) (2 : Fin 3) [⟨S64x65536x1, y₀⟩, ⟨S64x65536x1, y₁⟩, ⟨S64x65536x1, y₂⟩]
    concatenates_S64x65536x1_S64x65536x1_S64x65536x1_S64x65536x3_d2
    (ix3 b n 0) 0 (by show (0 : Nat) < 3; decide) S64x65536x1 y₀ rfl rfl 0 rfl (ix3 b n 0)
    (fun a => match a with
      | ⟨0, _⟩ => fun _ => rfl
      | ⟨1, _⟩ => fun _ => rfl
      | ⟨2, _⟩ => fun h => absurd rfl h) rfl

/-- … component 1 the second, … -/
theorem cat3_at1 (y₀ y₁ y₂ : S64x65536x1.Idx → α) (b : Fin 64) (n : Fin 65536) :
    concatenate S64x65536x3 2 [⟨S64x65536x1, y₀⟩, ⟨S64x65536x1, y₁⟩, ⟨S64x65536x1, y₂⟩]
      concatenates_S64x65536x1_S64x65536x1_S64x65536x1_S64x65536x3_d2 (ix3 b n 1) = y₁ (ix3 b n 0) :=
  concatenate_apply_piece (t := S64x65536x3) (2 : Fin 3) [⟨S64x65536x1, y₀⟩, ⟨S64x65536x1, y₁⟩, ⟨S64x65536x1, y₂⟩]
    concatenates_S64x65536x1_S64x65536x1_S64x65536x1_S64x65536x3_d2
    (ix3 b n 1) 1 (by show (1 : Nat) < 3; decide) S64x65536x1 y₁ rfl rfl 1 rfl (ix3 b n 0)
    (fun a => match a with
      | ⟨0, _⟩ => fun _ => rfl
      | ⟨1, _⟩ => fun _ => rfl
      | ⟨2, _⟩ => fun h => absurd rfl h) rfl

/-- … and component 2 the third. -/
theorem cat3_at2 (y₀ y₁ y₂ : S64x65536x1.Idx → α) (b : Fin 64) (n : Fin 65536) :
    concatenate S64x65536x3 2 [⟨S64x65536x1, y₀⟩, ⟨S64x65536x1, y₁⟩, ⟨S64x65536x1, y₂⟩]
      concatenates_S64x65536x1_S64x65536x1_S64x65536x1_S64x65536x3_d2 (ix3 b n 2) = y₂ (ix3 b n 0) :=
  concatenate_apply_piece (t := S64x65536x3) (2 : Fin 3) [⟨S64x65536x1, y₀⟩, ⟨S64x65536x1, y₁⟩, ⟨S64x65536x1, y₂⟩]
    concatenates_S64x65536x1_S64x65536x1_S64x65536x1_S64x65536x3_d2
    (ix3 b n 2) 2 (by show (2 : Nat) < 3; decide) S64x65536x1 y₂ rfl rfl 2 rfl (ix3 b n 0)
    (fun a => match a with
      | ⟨0, _⟩ => fun _ => rfl
      | ⟨1, _⟩ => fun _ => rfl
      | ⟨2, _⟩ => fun h => absurd rfl h) rfl

/-! ## The gather of one pixel's channels -/

/-- The dimension numbers of the four gathers, by a short name. -/
abbrev gD : GatherDims S64x256x256x3 S64x65536x3 S64x65536x3 :=
  gather_S64x256x256x3_S64x65536x3_S64x65536x3_2_012_n_n_012_2_1113

/-- The start-indices index at which result index `(b, n, ch)` reads component `c` of its start index. -/
theorem gD_siIdx (b : Fin 64) (n : Fin 65536) (ch : Fin 3) (c : Fin gD.startIndexMap.length) (c' : Fin 3) (hc : c.val = c'.val) :
    gD.siIdx (ix3 b n ch) c = ix3 b n c' := by
  funext a; refine Fin.ext ?_
  match a with
  | ⟨0, _⟩ => rfl
  | ⟨1, _⟩ => rfl
  | ⟨2, _⟩ => exact hc

/-- The operand coordinate on the batch axis: the first start-index component, clamped. -/
theorem gD_op0 {w : Nat} (idx : IVec S64x65536x3 w) (b : Fin 64) (n : Fin 65536) (ch : Fin 3) :
    gD.start (ix3 b n ch) idx 0 + gD.batchCoord (ix3 b n ch) 0 + gD.offCoord (ix3 b n ch) 0
      = min (idx (ix3 b n 0)).toInt.toNat 63 := by
  rw [GatherDims.batchCoord_eq_zero _ _ _ List.not_mem_nil,
    GatherDims.offCoord_eq_zero _ _ _ (fun h => ((GatherDims.mem_sKept _ _).mp h).1 (by decide)), Nat.add_zero]
  unfold GatherDims.start
  rw [dif_pos (show (0 : Fin 4) ∈ gD.startIndexMap from by decide), gD_siIdx b n ch _ 0]
  · rfl
  · rfl

/-- The operand coordinate on the row axis: the second start-index component, clamped. -/
theorem gD_op1 {w : Nat} (idx : IVec S64x65536x3 w) (b : Fin 64) (n : Fin 65536) (ch : Fin 3) :
    gD.start (ix3 b n ch) idx 1 + gD.batchCoord (ix3 b n ch) 1 + gD.offCoord (ix3 b n ch) 1
      = min (idx (ix3 b n 1)).toInt.toNat 255 := by
  rw [GatherDims.batchCoord_eq_zero _ _ _ List.not_mem_nil,
    GatherDims.offCoord_eq_zero _ _ _ (fun h => ((GatherDims.mem_sKept _ _).mp h).1 (by decide)), Nat.add_zero]
  unfold GatherDims.start
  rw [dif_pos (show (1 : Fin 4) ∈ gD.startIndexMap from by decide), gD_siIdx b n ch _ 1]
  · rfl
  · rfl

/-- The operand coordinate on the column axis: the third start-index component, clamped. -/
theorem gD_op2 {w : Nat} (idx : IVec S64x65536x3 w) (b : Fin 64) (n : Fin 65536) (ch : Fin 3) :
    gD.start (ix3 b n ch) idx 2 + gD.batchCoord (ix3 b n ch) 2 + gD.offCoord (ix3 b n ch) 2
      = min (idx (ix3 b n 2)).toInt.toNat 255 := by
  rw [GatherDims.batchCoord_eq_zero _ _ _ List.not_mem_nil,
    GatherDims.offCoord_eq_zero _ _ _ (fun h => ((GatherDims.mem_sKept _ _).mp h).1 (by decide)), Nat.add_zero]
  unfold GatherDims.start
  rw [dif_pos (show (2 : Fin 4) ∈ gD.startIndexMap from by decide), gD_siIdx b n ch _ 2]
  · rfl
  · rfl

/-- The operand coordinate on the channel axis: the result's own channel. -/
theorem gD_op3 {w : Nat} (idx : IVec S64x65536x3 w) (b : Fin 64) (n : Fin 65536) (ch : Fin 3) :
    gD.start (ix3 b n ch) idx 3 + gD.batchCoord (ix3 b n ch) 3 + gD.offCoord (ix3 b n ch) 3 = ch.val := by
  rw [GatherDims.batchCoord_eq_zero _ _ _ List.not_mem_nil, Nat.add_zero]
  unfold GatherDims.start
  rw [dif_neg (show ¬ ((3 : Fin 4) ∈ gD.startIndexMap) from by decide), Nat.zero_add]
  rfl

/-- The gather read at `(b, n, ch)`: channel `ch` of the operand at the three start-index components, each read signed
    and clamped into its axis. -/
theorem gather_at {w : Nat} (x : S64x256x256x3.Idx → α) (idx : IVec S64x65536x3 w) (b : Fin 64) (n : Fin 65536) (ch : Fin 3) :
    Host.gather gD x idx (ix3 b n ch)
      = x (ix4 (⟨min (idx (ix3 b n 0)).toInt.toNat 63, by omega⟩ : Fin 64) (⟨min (idx (ix3 b n 1)).toInt.toNat 255, by omega⟩ : Fin 256)
          (⟨min (idx (ix3 b n 2)).toInt.toNat 255, by omega⟩ : Fin 256) ch) := by
  unfold Host.gather
  congr 1
  funext a
  refine Fin.ext ?_
  match a with
  | ⟨0, _⟩ => exact gD_op0 idx b n ch
  | ⟨1, _⟩ => exact gD_op1 idx b n ch
  | ⟨2, _⟩ => exact gD_op2 idx b n ch
  | ⟨3, _⟩ => exact gD_op3 idx b n ch

/-! ## The reference's operations, read at the flat position of a pixel -/

section Chain
variable {F : FTy → Type} [FloatOps F]

/-- The image argument's and the flow argument's contents. -/
abbrev Img (F : FTy → Type) : Type := (⟨S64x3x256x256, .f32⟩ : BufTy).Contents (Elt F)
abbrev Flow (F : FTy → Type) : Type := (⟨S64x2x256x256, .f32⟩ : BufTy).Contents (Elt F)

/-! ### The clipped source coordinate -/

/-- Component 0 of the grid at `(h, w)` is the row number. -/
theorem v11_at0 (h w : Fin 256) : val_main_v11 (F := F) (ix3 h w 0) = BitVec.ofNat 32 h.val := by
  unfold val_main_v11
  refine (concatenate_pair_apply_left (t := S256x256x2) (s₁ := S256x256x1) (s₂ := S256x256x1) (2 : Fin 3) _ _
    concatenates_S256x256x1_S256x256x1_S256x256x2_d2 (ix3 h w 0) rfl (ix3 h w 0)
    (fun a => match a with
      | ⟨0, _⟩ => rfl
      | ⟨1, _⟩ => rfl
      | ⟨2, _⟩ => rfl)).trans ?_
  rewrite [val_main_v9_apply, val_main_v7_apply, val_main_v5_apply]
  rfl

/-- Component 1 of the grid at `(h, w)` is the column number. -/
theorem v11_at1 (h w : Fin 256) : val_main_v11 (F := F) (ix3 h w 1) = BitVec.ofNat 32 w.val := by
  unfold val_main_v11
  refine (concatenate_pair_apply_right (t := S256x256x2) (s₁ := S256x256x1) (s₂ := S256x256x1) (2 : Fin 3) _ _
    concatenates_S256x256x1_S256x256x1_S256x256x2_d2 (ix3 h w 1) rfl rfl (ix3 h w 0)
    (fun a => match a with
      | ⟨0, _⟩ => fun _ => rfl
      | ⟨1, _⟩ => fun _ => rfl
      | ⟨2, _⟩ => fun hne => absurd rfl hne)
    (by show 0 + 1 = 1; rfl)).trans ?_
  rewrite [val_main_v10_apply, val_main_v8_apply, val_main_v6_apply]
  rfl

/-- The grid, flattened, converted and broadcast over the batch, at flat position `256 h + w`. -/
theorem v15_at (b : Fin 64) (h w : Fin 256) (k : Fin 2) :
    val_main_v15 (F := F) (ix3 b (fl h w) k) = FloatOps.sitofp .f32 (val_main_v11 (F := F) (ix3 h w k)) := by
  have e : idx_main_v12 (idx_main_v14 (idx_main_v15 (ix3 b (fl h w) k))) = ix3 h w k := by
    funext a
    match a with
    | ⟨0, _⟩ => exact Fin.ext (by show ((256 * h.val + w.val) * 2 + k.val) / 512 = h.val; omega)
    | ⟨1, _⟩ => exact Fin.ext (by show ((256 * h.val + w.val) * 2 + k.val) / 2 % 256 = w.val; omega)
    | ⟨2, _⟩ => exact Fin.ext (by show ((256 * h.val + w.val) * 2 + k.val) % 2 = k.val; omega)
  rewrite [val_main_v15_apply, val_main_v14_apply, val_main_v13_apply, val_main_v12_apply, e]
  rfl

/-- The flow, moved to the last axis, scaled by 256 and flattened, at flat position `256 h + w`. -/
theorem v4_at (x1 : Flow F) (b : Fin 64) (h w : Fin 256) (k : Fin 2) :
    val_main_v4 (F := F) x1 (ix3 b (fl h w) k) = FloatOps.mulf (x1 (ix4 b k h w)) (FloatOps.ofBits .f32 0x43800000#32) := by
  have e : idx_main_v1 (idx_main_v4 (ix3 b (fl h w) k)) = ix4 b k h w := by
    funext a
    match a with
    | ⟨0, _⟩ => exact Fin.ext (by show ((b.val * 65536 + (256 * h.val + w.val)) * 2 + k.val) / 131072 = b.val; omega)
    | ⟨1, _⟩ => exact Fin.ext (by show ((b.val * 65536 + (256 * h.val + w.val)) * 2 + k.val) % 2 = k.val; omega)
    | ⟨2, _⟩ => exact Fin.ext (by show ((b.val * 65536 + (256 * h.val + w.val)) * 2 + k.val) / 512 % 256 = h.val; omega)
    | ⟨3, _⟩ => exact Fin.ext (by show ((b.val * 65536 + (256 * h.val + w.val)) * 2 + k.val) / 2 % 256 = w.val; omega)
  rewrite [val_main_v4_apply, val_main_v3_apply, val_main_v1_apply, val_main_v2_apply, val_main_cst_apply, e]
  rfl

/-- The clipped coordinate, component `k`: the grid component plus the scaled flow component, clipped to `[0, 255]`. -/
theorem v17_at (x1 : Flow F) (b : Fin 64) (h w : Fin 256) (k : Fin 2) :
    val_main_v17 (F := F) x1 (ix3 b (fl h w) k)
      = FloatOps.minimumf (FloatOps.sitofp .f32 (255#32 : BitVec 32))
          (FloatOps.maximumf (FloatOps.ofBits .f32 0x00000000#32)
            (FloatOps.addf (FloatOps.sitofp .f32 (val_main_v11 (F := F) (ix3 h w k)))
              (FloatOps.mulf (x1 (ix4 b k h w)) (FloatOps.ofBits .f32 0x43800000#32)))) := by
  rewrite [val_main_v17_apply, val_main_call0_v4_apply, val_main_call0_v3_apply, val_main_c_apply, val_main_call0_v2_apply,
    val_main_call0_v1_apply, val_main_call0_v0_apply, val_main_cst_0_apply, val_main_v16_apply, v15_at, v4_at]
  rfl

/-- Component 0 of the clipped coordinate is the source row. -/
theorem v17_row (x1 : Flow F) (b : Fin 64) (h w : Fin 256) :
    val_main_v17 (F := F) x1 (ix3 b (fl h w) 0) = Cert.Warp.sRow (F := F) x1 b h w := by
  rewrite [v17_at, v11_at0]
  rfl

/-- Component 1 of the clipped coordinate is the source column. -/
theorem v17_col (x1 : Flow F) (b : Fin 64) (h w : Fin 256) :
    val_main_v17 (F := F) x1 (ix3 b (fl h w) 1) = Cert.Warp.sCol (F := F) x1 b h w := by
  rewrite [v17_at, v11_at1]
  rfl

/-- The floor and the ceiling of the source row and column. -/
theorem v18_row (x1 : Flow F) (b : Fin 64) (h w : Fin 256) :
    val_main_v18 (F := F) x1 (ix3 b (fl h w) 0) = Cert.Warp.flo (Cert.Warp.sRow (F := F) x1 b h w) := by
  rewrite [val_main_v18_apply, v17_row]; rfl
theorem v18_col (x1 : Flow F) (b : Fin 64) (h w : Fin 256) :
    val_main_v18 (F := F) x1 (ix3 b (fl h w) 1) = Cert.Warp.flo (Cert.Warp.sCol (F := F) x1 b h w) := by
  rewrite [val_main_v18_apply, v17_col]; rfl
theorem v19_row (x1 : Flow F) (b : Fin 64) (h w : Fin 256) :
    val_main_v19 (F := F) x1 (ix3 b (fl h w) 0) = Cert.Warp.cei (Cert.Warp.sRow (F := F) x1 b h w) := by
  rewrite [val_main_v19_apply, v17_row]; rfl
theorem v19_col (x1 : Flow F) (b : Fin 64) (h w : Fin 256) :
    val_main_v19 (F := F) x1 (ix3 b (fl h w) 1) = Cert.Warp.cei (Cert.Warp.sCol (F := F) x1 b h w) := by
  rewrite [val_main_v19_apply, v17_col]; rfl

/-! ### The floor and ceiling components, as the four index chains read them -/

/-- Floor of the row, through a slice and a flattening. -/
theorem v37_at (x1 : Flow F) (b : Fin 64) (n : Fin 65536) :
    val_main_v37 (F := F) x1 (ix2 b n) = val_main_v18 (F := F) x1 (ix3 b n 0) :=
  (resh_at (val_main_v36 (F := F) x1) b n).trans (slice0_at (val_main_v18 (F := F) x1) b n)

/-- Floor of the column. -/
theorem v40_at (x1 : Flow F) (b : Fin 64) (n : Fin 65536) :
    val_main_v40 (F := F) x1 (ix2 b n) = val_main_v18 (F := F) x1 (ix3 b n 1) :=
  (resh_at (val_main_v39 (F := F) x1) b n).trans (slice1_at (val_main_v18 (F := F) x1) b n)

/-- Ceiling of the row. -/
theorem v64_at (x1 : Flow F) (b : Fin 64) (n : Fin 65536) :
    val_main_v64 (F := F) x1 (ix2 b n) = val_main_v19 (F := F) x1 (ix3 b n 0) :=
  (resh_at (val_main_v63 (F := F) x1) b n).trans (slice0_at (val_main_v19 (F := F) x1) b n)

/-- Ceiling of the column. -/
theorem v67_at (x1 : Flow F) (b : Fin 64) (n : Fin 65536) :
    val_main_v67 (F := F) x1 (ix2 b n) = val_main_v19 (F := F) x1 (ix3 b n 1) :=
  (resh_at (val_main_v66 (F := F) x1) b n).trans (slice1_at (val_main_v19 (F := F) x1) b n)

/-- The pair (floor row, ceiling column), joined on a new last axis: its component 0 … -/
theorem v26_at0 (x1 : Flow F) (b : Fin 64) (n : Fin 65536) :
    val_main_v26 (F := F) x1 (ix3 b n 0) = val_main_v18 (F := F) x1 (ix3 b n 0) :=
  (cat2_at0 (val_main_v24 (F := F) x1) (val_main_v25 (F := F) x1) b n).trans
    ((bc_at (val_main_v21 (F := F) x1) b n).trans
      ((resh_at (val_main_v20 (F := F) x1) b n).trans (slice0_at (val_main_v18 (F := F) x1) b n)))

/-- … and its component 1. -/
theorem v26_at1 (x1 : Flow F) (b : Fin 64) (n : Fin 65536) :
    val_main_v26 (F := F) x1 (ix3 b n 1) = val_main_v19 (F := F) x1 (ix3 b n 1) :=
  (cat2_at1 (val_main_v24 (F := F) x1) (val_main_v25 (F := F) x1) b n).trans
    ((bc_at (val_main_v23 (F := F) x1) b n).trans
      ((resh_at (val_main_v22 (F := F) x1) b n).trans (slice1_at (val_main_v19 (F := F) x1) b n)))

/-- The pair (ceiling row, floor column): its component 0 … -/
theorem v33_at0 (x1 : Flow F) (b : Fin 64) (n : Fin 65536) :
    val_main_v33 (F := F) x1 (ix3 b n 0) = val_main_v19 (F := F) x1 (ix3 b n 0) :=
  (cat2_at0 (val_main_v31 (F := F) x1) (val_main_v32 (F := F) x1) b n).trans
    ((bc_at (val_main_v28 (F := F) x1) b n).trans
      ((resh_at (val_main_v27 (F := F) x1) b n).trans (slice0_at (val_main_v19 (F := F) x1) b n)))

/-- … and its component 1. -/
theorem v33_at1 (x1 : Flow F) (b : Fin 64) (n : Fin 65536) :
    val_main_v33 (F := F) x1 (ix3 b n 1) = val_main_v18 (F := F) x1 (ix3 b n 1) :=
  (cat2_at1 (val_main_v31 (F := F) x1) (val_main_v32 (F := F) x1) b n).trans
    ((bc_at (val_main_v30 (F := F) x1) b n).trans
      ((resh_at (val_main_v29 (F := F) x1) b n).trans (slice1_at (val_main_v18 (F := F) x1) b n)))

/-- Floor of the row, read back out of the first pair. -/
theorem v91_at (x1 : Flow F) (b : Fin 64) (n : Fin 65536) :
    val_main_v91 (F := F) x1 (ix2 b n) = val_main_v18 (F := F) x1 (ix3 b n 0) :=
  (resh_at (val_main_v90 (F := F) x1) b n).trans ((slice0_at (val_main_v26 (F := F) x1) b n).trans (v26_at0 x1 b n))

/-- Ceiling of the column, read back out of the first pair. -/
theorem v94_at (x1 : Flow F) (b : Fin 64) (n : Fin 65536) :
    val_main_v94 (F := F) x1 (ix2 b n) = val_main_v19 (F := F) x1 (ix3 b n 1) :=
  (resh_at (val_main_v93 (F := F) x1) b n).trans ((slice1_at (val_main_v26 (F := F) x1) b n).trans (v26_at1 x1 b n))

/-- Ceiling of the row, read back out of the second pair. -/
theorem v118_at (x1 : Flow F) (b : Fin 64) (n : Fin 65536) :
    val_main_v118 (F := F) x1 (ix2 b n) = val_main_v19 (F := F) x1 (ix3 b n 0) :=
  (resh_at (val_main_v117 (F := F) x1) b n).trans ((slice0_at (val_main_v33 (F := F) x1) b n).trans (v33_at0 x1 b n))

/-- Floor of the column, read back out of the second pair. -/
theorem v121_at (x1 : Flow F) (b : Fin 64) (n : Fin 65536) :
    val_main_v121 (F := F) x1 (ix2 b n) = val_main_v18 (F := F) x1 (ix3 b n 1) :=
  (resh_at (val_main_v120 (F := F) x1) b n).trans ((slice1_at (val_main_v33 (F := F) x1) b n).trans (v33_at1 x1 b n))

/-! ### The index words: converted to integers and wrapped -/

/-- The batch number, wrapped as a negative index would be (four copies of one chain). -/
theorem v46_at (b : Fin 64) : val_main_v46 (F := F) (ix2 b 0) = Cert.Warp.wrap 64#32 (BitVec.ofNat 32 b.val) := by
  rewrite [val_main_v46_apply, val_main_v43_apply, val_main_v45_apply, val_main_v35_apply, val_main_v34_apply,
    val_main_v42_apply, val_main_c_1_apply, val_main_v44_apply, val_main_c_2_apply]
  rfl
theorem v73_at (b : Fin 64) : val_main_v73 (F := F) (ix2 b 0) = Cert.Warp.wrap 64#32 (BitVec.ofNat 32 b.val) := by
  rewrite [val_main_v73_apply, val_main_v70_apply, val_main_v72_apply, val_main_v35_apply, val_main_v34_apply,
    val_main_v69_apply, val_main_c_7_apply, val_main_v71_apply, val_main_c_8_apply]
  rfl
theorem v100_at (b : Fin 64) : val_main_v100 (F := F) (ix2 b 0) = Cert.Warp.wrap 64#32 (BitVec.ofNat 32 b.val) := by
  rewrite [val_main_v100_apply, val_main_v97_apply, val_main_v99_apply, val_main_v35_apply, val_main_v34_apply,
    val_main_v96_apply, val_main_c_13_apply, val_main_v98_apply, val_main_c_14_apply]
  rfl
theorem v127_at (b : Fin 64) : val_main_v127 (F := F) (ix2 b 0) = Cert.Warp.wrap 64#32 (BitVec.ofNat 32 b.val) := by
  rewrite [val_main_v127_apply, val_main_v124_apply, val_main_v126_apply, val_main_v35_apply, val_main_v34_apply,
    val_main_v123_apply, val_main_c_19_apply, val_main_v125_apply, val_main_c_20_apply]
  rfl

/-- The eight wrapped row and column words, each the wrap of the integer word of a floor or a ceiling. -/
theorem v51_at (x1 : Flow F) (b : Fin 64) (h w : Fin 256) :
    val_main_v51 (F := F) x1 (ix2 b (fl h w)) = Cert.Warp.wrap 256#32 (Cert.Warp.lo (Cert.Warp.sRow (F := F) x1 b h w)) := by
  rewrite [val_main_v51_apply, val_main_v48_apply, val_main_v50_apply, val_main_v47_apply, val_main_c_3_apply,
    val_main_v49_apply, val_main_c_4_apply, val_main_v38_apply, v37_at, v18_row]
  rfl
theorem v56_at (x1 : Flow F) (b : Fin 64) (h w : Fin 256) :
    val_main_v56 (F := F) x1 (ix2 b (fl h w)) = Cert.Warp.wrap 256#32 (Cert.Warp.lo (Cert.Warp.sCol (F := F) x1 b h w)) := by
  rewrite [val_main_v56_apply, val_main_v53_apply, val_main_v55_apply, val_main_v52_apply, val_main_c_5_apply,
    val_main_v54_apply, val_main_c_6_apply, val_main_v41_apply, v40_at, v18_col]
  rfl
theorem v78_at (x1 : Flow F) (b : Fin 64) (h w : Fin 256) :
    val_main_v78 (F := F) x1 (ix2 b (fl h w)) = Cert.Warp.wrap 256#32 (Cert.Warp.hi (Cert.Warp.sRow (F := F) x1 b h w)) := by
  rewrite [val_main_v78_apply, val_main_v75_apply, val_main_v77_apply, val_main_v74_apply, val_main_c_9_apply,
    val_main_v76_apply, val_main_c_10_apply, val_main_v65_apply, v64_at, v19_row]
  rfl
theorem v83_at (x1 : Flow F) (b : Fin 64) (h w : Fin 256) :
    val_main_v83 (F := F) x1 (ix2 b (fl h w)) = Cert.Warp.wrap 256#32 (Cert.Warp.hi (Cert.Warp.sCol (F := F) x1 b h w)) := by
  rewrite [val_main_v83_apply, val_main_v80_apply, val_main_v82_apply, val_main_v79_apply, val_main_c_11_apply,
    val_main_v81_apply, val_main_c_12_apply, val_main_v68_apply, v67_at, v19_col]
  rfl
theorem v105_at (x1 : Flow F) (b : Fin 64) (h w : Fin 256) :
    val_main_v105 (F := F) x1 (ix2 b (fl h w)) = Cert.Warp.wrap 256#32 (Cert.Warp.lo (Cert.Warp.sRow (F := F) x1 b h w)) := by
  rewrite [val_main_v105_apply, val_main_v102_apply, val_main_v104_apply, val_main_v101_apply, val_main_c_15_apply,
    val_main_v103_apply, val_main_c_16_apply, val_main_v92_apply, v91_at, v18_row]
  rfl
theorem v110_at (x1 : Flow F) (b : Fin 64) (h w : Fin 256) :
    val_main_v110 (F := F) x1 (ix2 b (fl h w)) = Cert.Warp.wrap 256#32 (Cert.Warp.hi (Cert.Warp.sCol (F := F) x1 b h w)) := by
  rewrite [val_main_v110_apply, val_main_v107_apply, val_main_v109_apply, val_main_v106_apply, val_main_c_17_apply,
    val_main_v108_apply, val_main_c_18_apply, val_main_v95_apply, v94_at, v19_col]
  rfl
theorem v132_at (x1 : Flow F) (b : Fin 64) (h w : Fin 256) :
    val_main_v132 (F := F) x1 (ix2 b (fl h w)) = Cert.Warp.wrap 256#32 (Cert.Warp.hi (Cert.Warp.sRow (F := F) x1 b h w)) := by
  rewrite [val_main_v132_apply, val_main_v129_apply, val_main_v131_apply, val_main_v128_apply, val_main_c_21_apply,
    val_main_v130_apply, val_main_c_22_apply, val_main_v119_apply, v118_at, v19_row]
  rfl
theorem v137_at (x1 : Flow F) (b : Fin 64) (h w : Fin 256) :
    val_main_v137 (F := F) x1 (ix2 b (fl h w)) = Cert.Warp.wrap 256#32 (Cert.Warp.lo (Cert.Warp.sCol (F := F) x1 b h w)) := by
  rewrite [val_main_v137_apply, val_main_v134_apply, val_main_v136_apply, val_main_v133_apply, val_main_c_23_apply,
    val_main_v135_apply, val_main_c_24_apply, val_main_v122_apply, v121_at, v18_col]
  rfl

/-! ### The four arrays of start indices: (batch, row, column) at each flat position -/

theorem v61_at0 (x1 : Flow F) (b : Fin 64) (n : Fin 65536) :
    val_main_v61 (F := F) x1 (ix3 b n 0) = Cert.Warp.wrap 64#32 (BitVec.ofNat 32 b.val) :=
  (cat3_at0 (val_main_v58 (F := F)) (val_main_v59 (F := F) x1) (val_main_v60 (F := F) x1) b n).trans
    ((bc_at (val_main_v57 (F := F)) b n).trans ((bcb_at (val_main_v46 (F := F)) b n).trans (v46_at b)))
theorem v61_at1 (x1 : Flow F) (b : Fin 64) (h w : Fin 256) :
    val_main_v61 (F := F) x1 (ix3 b (fl h w) 1) = Cert.Warp.wrap 256#32 (Cert.Warp.lo (Cert.Warp.sRow (F := F) x1 b h w)) :=
  (cat3_at1 (val_main_v58 (F := F)) (val_main_v59 (F := F) x1) (val_main_v60 (F := F) x1) b (fl h w)).trans
    ((bc_at (val_main_v51 (F := F) x1) b (fl h w)).trans (v51_at x1 b h w))
theorem v61_at2 (x1 : Flow F) (b : Fin 64) (h w : Fin 256) :
    val_main_v61 (F := F) x1 (ix3 b (fl h w) 2) = Cert.Warp.wrap 256#32 (Cert.Warp.lo (Cert.Warp.sCol (F := F) x1 b h w)) :=
  (cat3_at2 (val_main_v58 (F := F)) (val_main_v59 (F := F) x1) (val_main_v60 (F := F) x1) b (fl h w)).trans
    ((bc_at (val_main_v56 (F := F) x1) b (fl h w)).trans (v56_at x1 b h w))

theorem v88_at0 (x1 : Flow F) (b : Fin 64) (n : Fin 65536) :
    val_main_v88 (F := F) x1 (ix3 b n 0) = Cert.Warp.wrap 64#32 (BitVec.ofNat 32 b.val) :=
  (cat3_at0 (val_main_v85 (F := F)) (val_main_v86 (F := F) x1) (val_main_v87 (F := F) x1) b n).trans
    ((bc_at (val_main_v84 (F := F)) b n).trans ((bcb_at (val_main_v73 (F := F)) b n).trans (v73_at b)))
theorem v88_at1 (x1 : Flow F) (b : Fin 64) (h w : Fin 256) :
    val_main_v88 (F := F) x1 (ix3 b (fl h w) 1) = Cert.Warp.wrap 256#32 (Cert.Warp.hi (Cert.Warp.sRow (F := F) x1 b h w)) :=
  (cat3_at1 (val_main_v85 (F := F)) (val_main_v86 (F := F) x1) (val_main_v87 (F := F) x1) b (fl h w)).trans
    ((bc_at (val_main_v78 (F := F) x1) b (fl h w)).trans (v78_at x1 b h w))
theorem v88_at2 (x1 : Flow F) (b : Fin 64) (h w : Fin 256) :
    val_main_v88 (F := F) x1 (ix3 b (fl h w) 2) = Cert.Warp.wrap 256#32 (Cert.Warp.hi (Cert.Warp.sCol (F := F) x1 b h w)) :=
  (cat3_at2 (val_main_v85 (F := F)) (val_main_v86 (F := F) x1) (val_main_v87 (F := F) x1) b (fl h w)).trans
    ((bc_at (val_main_v83 (F := F) x1) b (fl h w)).trans (v83_at x1 b h w))

theorem v115_at0 (x1 : Flow F) (b : Fin 64) (n : Fin 65536) :
    val_main_v115 (F := F) x1 (ix3 b n 0) = Cert.Warp.wrap 64#32 (BitVec.ofNat 32 b.val) :=
  (cat3_at0 (val_main_v112 (F := F)) (val_main_v113 (F := F) x1) (val_main_v114 (F := F) x1) b n).trans
    ((bc_at (val_main_v111 (F := F)) b n).trans ((bcb_at (val_main_v100 (F := F)) b n).trans (v100_at b)))
theorem v115_at1 (x1 : Flow F) (b : Fin 64) (h w : Fin 256) :
    val_main_v115 (F := F) x1 (ix3 b (fl h w) 1) = Cert.Warp.wrap 256#32 (Cert.Warp.lo (Cert.Warp.sRow (F := F) x1 b h w)) :=
  (cat3_at1 (val_main_v112 (F := F)) (val_main_v113 (F := F) x1) (val_main_v114 (F := F) x1) b (fl h w)).trans
    ((bc_at (val_main_v105 (F := F) x1) b (fl h w)).trans (v105_at x1 b h w))
theorem v115_at2 (x1 : Flow F) (b : Fin 64) (h w : Fin 256) :
    val_main_v115 (F := F) x1 (ix3 b (fl h w) 2) = Cert.Warp.wrap 256#32 (Cert.Warp.hi (Cert.Warp.sCol (F := F) x1 b h w)) :=
  (cat3_at2 (val_main_v112 (F := F)) (val_main_v113 (F := F) x1) (val_main_v114 (F := F) x1) b (fl h w)).trans
    ((bc_at (val_main_v110 (F := F) x1) b (fl h w)).trans (v110_at x1 b h w))

theorem v142_at0 (x1 : Flow F) (b : Fin 64) (n : Fin 65536) :
    val_main_v142 (F := F) x1 (ix3 b n 0) = Cert.Warp.wrap 64#32 (BitVec.ofNat 32 b.val) :=
  (cat3_at0 (val_main_v139 (F := F)) (val_main_v140 (F := F) x1) (val_main_v141 (F := F) x1) b n).trans
    ((bc_at (val_main_v138 (F := F)) b n).trans ((bcb_at (val_main_v127 (F := F)) b n).trans (v127_at b)))
theorem v142_at1 (x1 : Flow F) (b : Fin 64) (h w : Fin 256) :
    val_main_v142 (F := F) x1 (ix3 b (fl h w) 1) = Cert.Warp.wrap 256#32 (Cert.Warp.hi (Cert.Warp.sRow (F := F) x1 b h w)) :=
  (cat3_at1 (val_main_v139 (F := F)) (val_main_v140 (F := F) x1) (val_main_v141 (F := F) x1) b (fl h w)).trans
    ((bc_at (val_main_v132 (F := F) x1) b (fl h w)).trans (v132_at x1 b h w))
theorem v142_at2 (x1 : Flow F) (b : Fin 64) (h w : Fin 256) :
    val_main_v142 (F := F) x1 (ix3 b (fl h w) 2) = Cert.Warp.wrap 256#32 (Cert.Warp.lo (Cert.Warp.sCol (F := F) x1 b h w)) :=
  (cat3_at2 (val_main_v139 (F := F)) (val_main_v140 (F := F) x1) (val_main_v141 (F := F) x1) b (fl h w)).trans
    ((bc_at (val_main_v137 (F := F) x1) b (fl h w)).trans (v137_at x1 b h w))

/-! ### The four gathered pixels -/

/-- A gather from the image with channels last, at start indices (wrapped batch number, wrapped row word, wrapped
    column word), reads the source pixel those words name. -/
theorem gather_pixel (x0 : Img F) (idx : IVec S64x65536x3 32) (b : Fin 64) (n : Fin 65536) (ch : Fin 3) (r c : BitVec 32)
    (h0 : idx (ix3 b n 0) = Cert.Warp.wrap 64#32 (BitVec.ofNat 32 b.val))
    (h1 : idx (ix3 b n 1) = Cert.Warp.wrap 256#32 r) (h2 : idx (ix3 b n 2) = Cert.Warp.wrap 256#32 c) :
    Host.gather gD (val_main_v0 (F := F) x0) idx (ix3 b n ch) = Cert.Warp.pixel (F := F) x0 b r c ch := by
  rewrite [gather_at, val_main_v0_apply]
  unfold Cert.Warp.pixel Cert.Warp.clampIdx
  refine congrArg x0 ?_
  funext a
  match a with
  | ⟨0, _⟩ =>
    exact Fin.ext (by
      show min (idx (ix3 b n 0)).toInt.toNat 63 = min (Cert.Warp.wrap 64#32 (BitVec.ofNat 32 b.val)).toInt.toNat 63
      rewrite [h0]; rfl)
  | ⟨1, _⟩ => exact Fin.ext rfl
  | ⟨2, _⟩ =>
    exact Fin.ext (by
      show min (idx (ix3 b n 1)).toInt.toNat 255 = min (Cert.Warp.wrap 256#32 r).toInt.toNat 255
      rewrite [h1]; rfl)
  | ⟨3, _⟩ =>
    exact Fin.ext (by
      show min (idx (ix3 b n 2)).toInt.toNat 255 = min (Cert.Warp.wrap 256#32 c).toInt.toNat 255
      rewrite [h2]; rfl)

theorem v62_at (x0 : Img F) (x1 : Flow F) (b : Fin 64) (h w : Fin 256) (ch : Fin 3) :
    val_main_v62 (F := F) x0 x1 (ix3 b (fl h w) ch) = Cert.Warp.xlu (F := F) x0 x1 b ch h w :=
  gather_pixel x0 (val_main_v61 (F := F) x1) b (fl h w) ch _ _ (v61_at0 x1 b (fl h w)) (v61_at1 x1 b h w) (v61_at2 x1 b h w)
theorem v89_at (x0 : Img F) (x1 : Flow F) (b : Fin 64) (h w : Fin 256) (ch : Fin 3) :
    val_main_v89 (F := F) x0 x1 (ix3 b (fl h w) ch) = Cert.Warp.xrb (F := F) x0 x1 b ch h w :=
  gather_pixel x0 (val_main_v88 (F := F) x1) b (fl h w) ch _ _ (v88_at0 x1 b (fl h w)) (v88_at1 x1 b h w) (v88_at2 x1 b h w)
theorem v116_at (x0 : Img F) (x1 : Flow F) (b : Fin 64) (h w : Fin 256) (ch : Fin 3) :
    val_main_v116 (F := F) x0 x1 (ix3 b (fl h w) ch) = Cert.Warp.xlb (F := F) x0 x1 b ch h w :=
  gather_pixel x0 (val_main_v115 (F := F) x1) b (fl h w) ch _ _ (v115_at0 x1 b (fl h w)) (v115_at1 x1 b h w) (v115_at2 x1 b h w)
theorem v143_at (x0 : Img F) (x1 : Flow F) (b : Fin 64) (h w : Fin 256) (ch : Fin 3) :
    val_main_v143 (F := F) x0 x1 (ix3 b (fl h w) ch) = Cert.Warp.xru (F := F) x0 x1 b ch h w :=
  gather_pixel x0 (val_main_v142 (F := F) x1) b (fl h w) ch _ _ (v142_at0 x1 b (fl h w)) (v142_at1 x1 b h w) (v142_at2 x1 b h w)

/-! ### The fractions -/

theorem v145_at (x1 : Flow F) (b : Fin 64) (h w : Fin 256) :
    val_main_v145 (F := F) x1 (ix3 b (fl h w) 0) = Cert.Warp.fx (F := F) x1 b h w := by
  refine (slice0_at (val_main_v144 (F := F) x1) b (fl h w)).trans ?_
  rewrite [val_main_v144_apply, v18_row, v17_row]
  rfl
theorem v146_at (x1 : Flow F) (b : Fin 64) (h w : Fin 256) :
    val_main_v146 (F := F) x1 (ix3 b (fl h w) 0) = Cert.Warp.fy (F := F) x1 b h w := by
  refine (slice1_at (val_main_v144 (F := F) x1) b (fl h w)).trans ?_
  rewrite [val_main_v144_apply, v18_col, v17_col]
  rfl

/-- The fractions broadcast over the channels. -/
theorem v148_at (x1 : Flow F) (b : Fin 64) (h w : Fin 256) (ch : Fin 3) :
    val_main_v148 (F := F) x1 (ix3 b (fl h w) ch) = Cert.Warp.fx (F := F) x1 b h w :=
  (bc3_at (val_main_v145 (F := F) x1) b (fl h w) ch).trans (v145_at x1 b h w)
theorem v152_at (x1 : Flow F) (b : Fin 64) (h w : Fin 256) (ch : Fin 3) :
    val_main_v152 (F := F) x1 (ix3 b (fl h w) ch) = Cert.Warp.fx (F := F) x1 b h w :=
  (bc3_at (val_main_v145 (F := F) x1) b (fl h w) ch).trans (v145_at x1 b h w)
theorem v156_at (x1 : Flow F) (b : Fin 64) (h w : Fin 256) (ch : Fin 3) :
    val_main_v156 (F := F) x1 (ix3 b (fl h w) ch) = Cert.Warp.fy (F := F) x1 b h w :=
  (bc3_at (val_main_v146 (F := F) x1) b (fl h w) ch).trans (v146_at x1 b h w)

/-! ### The blend, and the result back in the image's layout -/

/-- The blended pixel at flat position `256 h + w`: the operands stand in the same order on both sides. -/
theorem v158_at (x0 : Img F) (x1 : Flow F) (b : Fin 64) (h w : Fin 256) (ch : Fin 3) :
    val_main_v158 (F := F) x0 x1 (ix3 b (fl h w) ch) = Cert.Warp.warped (F := F) x0 x1 b ch h w := by
  rewrite [val_main_v158_apply, val_main_v157_apply, val_main_v155_apply, val_main_v154_apply, val_main_v153_apply,
    val_main_v151_apply, val_main_v150_apply, val_main_v149_apply, val_main_v147_apply]
  rewrite [v148_at, v152_at, v156_at, v62_at, v89_at, v116_at, v143_at]
  rfl

/-- The result read at `(b, ch, h, w)`: the transposition and the unflattening lead to flat position `256 h + w`. -/
theorem v160_at (x0 : Img F) (x1 : Flow F) (b : Fin 64) (ch : Fin 3) (h w : Fin 256) :
    val_main_v160 (F := F) x0 x1 (ix4 b ch h w) = Cert.Warp.warped (F := F) x0 x1 b ch h w := by
  have e : idx_main_v159 (idx_main_v160 (ix4 b ch h w)) = ix3 b (fl h w) ch := by
    funext a
    match a with
    | ⟨0, _⟩ => exact Fin.ext (by show (((b.val * 256 + h.val) * 256 + w.val) * 3 + ch.val) / 196608 = b.val; omega)
    | ⟨1, _⟩ => exact Fin.ext (by show (((b.val * 256 + h.val) * 256 + w.val) * 3 + ch.val) / 3 % 65536 = 256 * h.val + w.val; omega)
    | ⟨2, _⟩ => exact Fin.ext (by show (((b.val * 256 + h.val) * 256 + w.val) * 3 + ch.val) % 3 = ch.val; omega)
  rewrite [val_main_v160_apply, val_main_v159_apply, e]
  exact v158_at x0 x1 b h w ch

/-- The reference's result is the warp, for every float instance. -/
theorem ref_is_warp_any (x0 : Img F) (x1 : Flow F) :
    val_main_v160 (F := F) x0 x1 = Cert.Warp.G (F := F) x0 x1 := by
  funext j
  obtain ⟨b, ch, h, w, rfl⟩ : ∃ b ch h w, j = ix4 b ch h w := ⟨j 0, j 1, j 2, j 3, eq_ix4 j⟩
  exact v160_at x0 x1 b ch h w

end Chain

/-- **The reference computes the warp.** -/
theorem ref_is_warp (x0 : (⟨S64x3x256x256, .f32⟩ : BufTy).Contents (Elt Ideal)) (x1 : (⟨S64x2x256x256, .f32⟩ : BufTy).Contents (Elt Ideal)) :
    Cert.ReferenceIdeal.ReadP.val_main_v160 (F := Ideal) x0 x1 = Cert.Warp.G (F := Ideal) x0 x1 :=
  ref_is_warp_any x0 x1

end Cert.ReferenceIdeal.RefValue

end
-- ==== Proof.lean ====
/-
  The certificate: the Pallas bilinear-warp kernel against its jnp reference, over the extended reals.

  Both programs compute, for every output pixel, a source position from the flow field (the pixel's own coordinate plus
  256 times the flow, clipped to the image), gather the four neighbouring source pixels at its floor and ceiling, and
  blend them by the fractional parts.  The kernel's program does the gathers on the host in the layout
  [batch, row, column, channel] and blends in a pallas_call over slabs of four batch rows; the reference works on
  [batch, row · 256 + column, channel] and transposes at the end.  Both results are shown equal to one pixelwise
  specification (Proof/Warp.lean): the reference by running its operations stretch by stretch (Proof/RefRun.lean, Proof/RefRunMain.lean) and reading them at an index (Proof/RefIsWarp.lean), the
  kernel by reading its host prefix at an index (Proof/KernelHost.lean) and its sixteen slabs through the pipeline's
  blocks (Proof/KernelValue.lean).  No law of arithmetic joins the two sides: the same operations stand in the same
  order, so the precondition is never opened.

  The three frames: the kernel's programs run by the pipeline library's frame run with the blend body's triple
  (Proof/FrameKernel.lean, Proof/FrameKernelIdeal.lean); the reference's by its operations' run.  The idealization
  rewrote nothing, so `preserves` is `True`.
-/
import proofs.«136538_j5866925326584_1_alg».proof.Defs
import proofs.«136538_j5866925326584_1_alg».proof.Proof.Gen.Kernel
import proofs.«136538_j5866925326584_1_alg».proof.Proof.Gen.KernelIdeal
import proofs.«136538_j5866925326584_1_alg».proof.Proof.Gen.ReferenceIdeal
import proofs.«136538_j5866925326584_1_alg».proof.Proof.Gen.Pre_finite_inputs
import proofs.«136538_j5866925326584_1_alg».proof.Proof.FrameKernel
import proofs.«136538_j5866925326584_1_alg».proof.Proof.FrameKernelIdeal
import proofs.«136538_j5866925326584_1_alg».proof.Proof.KernelHost
import proofs.«136538_j5866925326584_1_alg».proof.Proof.KernelValue
import proofs.«136538_j5866925326584_1_alg».proof.Proof.RefRunMain
import proofs.«136538_j5866925326584_1_alg».proof.Proof.RefIsWarp
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.HandFrame.frame m ρ

/-- So does its idealization. -/
theorem frame_ki : Cert.frame_KernelIdeal := fun m ρ _ => Cert.KernelIdeal.HandFrame.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- The ideal pass rewrote no operation. -/
theorem preserves : Cert.preserves_Kernel_KernelIdeal := trivial

/-- Run from memories that agree on the image and the flow, both programs end with the warp of the two. -/
theorem algebraic : Cert.algebraic_KernelIdeal_ReferenceIdeal := by
  intro m ρ m' ρ' _ hagree
  refine ⟨fun c => Cert.Warp.G (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ
      (Cert.KernelIdeal.HostValue.V_v125 m) (Cert.KernelIdeal.HostValue.V_v126 m) (Cert.KernelIdeal.HostValue.V_v127 m)
      (Cert.KernelIdeal.HostValue.V_v128 m) (Cert.KernelIdeal.HostValue.V_v129 m) (Cert.KernelIdeal.HostValue.V_v130 m), ?_⟩
  refine (θ_run Cert.ReferenceIdeal.defs _ _).mono (fun _ h c => ⟨(h c).1.trans ?_, (h c).2⟩)
    (Cert.ReferenceIdeal.RunHand.run (F := Ideal) m' ρ')
  rw [Cert.ReferenceIdeal.RefValue.ref_is_warp, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
